-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S32768x3 : Shape := ⟨2, ![32768, 3]⟩
abbrev S2x524288 : Shape := ⟨2, ![2, 524288]⟩
abbrev S524288 : Shape := ⟨1, ![524288]⟩
abbrev S1x32 : Shape := ⟨2, ![1, 32]⟩
abbrev S32 : Shape := ⟨1, ![32]⟩
abbrev S32x32 : Shape := ⟨2, ![32, 32]⟩
abbrev S288x256 : Shape := ⟨2, ![288, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S32768x3 : S_.BroadcastsInDim S32768x3 (![] : Fin 0 → Fin S32768x3.rank)
  reducesTo_S32768x3_S_d0_1 : S32768x3.ReducesTo [0, 1] S_
  bcast_S_S524288 : S_.BroadcastsInDim S524288 (![] : Fin 0 → Fin S524288.rank)
  reducesTo_S524288_S_d0 : S524288.ReducesTo [0] S_
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S288x256 : S_.BroadcastsInDim S288x256 (![] : Fin 0 → Fin S288x256.rank)
  reducesTo_S288x256_S_d0_1 : S288x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S2x524288 : S_.BroadcastsInDim S2x524288 (![] : Fin 0 → Fin S2x524288.rank)
  reducesTo_S2x524288_S_d0_1 : S2x524288.ReducesTo [0, 1] S_

variable [Facts]

def fn_part4 {F : FTy → Type} [FloatOps F] (main_arg2 : IVec S2x524288 32) (main_v63 : IVec S_ 1) (main_v67 : IVec S_ 1) : IVec S_ 1 :=
  let main_v68 : IVec S_ 1 := andi main_v63 main_v67
  let main_c_26 : IVec S_ 32 := constantI S_ 32 0#32
  let main_v69 : IVec S2x524288 32 := broadcastInDim S2x524288 ![] bcast_S_S2x524288 main_c_26
  let main_v70 : IVec S2x524288 1 := cmpi .sge main_arg2 main_v69
  let main_c_27 : IVec S_ 32 := constantI S_ 32 32767#32
  let main_v71 : IVec S2x524288 32 := broadcastInDim S2x524288 ![] bcast_S_S2x524288 main_c_27
  let main_v72 : IVec S2x524288 1 := cmpi .sle main_arg2 main_v71
  let main_v73 : IVec S2x524288 1 := andi main_v70 main_v72
  let main_c_28 : IVec S_ 1 := constantI S_ 1 1#1
  let main_v74 : IVec S_ 1 := (fun x v => Host.reduce IntOp.andi x v reducesTo_S2x524288_S_d0_1 h_S_) main_v73 main_c_28
  let main_v75 : IVec S_ 1 := andi main_v68 main_v74
  main_v75

def fn_part3 {F : FTy → Type} [FloatOps F] (main_arg2 : IVec S2x524288 32) (main_arg12 : FVec F S288x256 .f32) (main_arg13 : FVec F S256 .f32) (main_arg14 : FVec F S256x1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S288x256 .f32 := Host.absf main_arg12
  let main_cst_20 : FVec F S_ .f32 := constant S_ .f32 0x7F800000#32
  let main_v55 : FVec F S288x256 .f32 := broadcastInDim S288x256 ![] bcast_S_S288x256 main_cst_20
  let main_v56 : IVec S288x256 1 := cmpf .olt main_v54 main_v55
  let main_c_21 : IVec S_ 1 := constantI S_ 1 1#1
  let main_v57 : IVec S_ 1 := (fun x v => Host.reduce IntOp.andi x v reducesTo_S288x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x1 .f32 := Host.absf main_arg14
  let main_cst_24 : FVec F S_ .f32 := constant S_ .f32 0x7F800000#32
  let main_v65 : FVec F S256x1 .f32 := broadcastInDim S256x1 ![] bcast_S_S256x1 main_cst_24
  let main_v66 : IVec S256x1 1 := cmpf .olt main_v64 main_v65
  let main_c_25 : IVec S_ 1 := constantI S_ 1 1#1
  let main_v67 : IVec S_ 1 := (fun x v => Host.reduce IntOp.andi x v reducesTo_S256x1_S_d0_1 h_S_) main_v66 main_c_25
  fn_part4 (F := F) main_arg2 main_v63 main_v67

def fn_part2 {F : FTy → Type} [FloatOps F] (main_arg2 : IVec S2x524288 32) (main_arg8 : FVec F S288x256 .f32) (main_arg9 : FVec F S256 .f32) (main_arg10 : FVec F S256x128 .f32) (main_arg11 : FVec F S128 .f32) (main_arg12 : FVec F S288x256 .f32) (main_arg13 : FVec F S256 .f32) (main_arg14 : FVec F S256x1 .f32) (main_v33 : IVec S_ 1) : IVec S_ 1 :=
  let main_v34 : FVec F S288x256 .f32 := Host.absf main_arg8
  let main_cst_12 : FVec F S_ .f32 := constant S_ .f32 0x7F800000#32
  let main_v35 : FVec F S288x256 .f32 := broadcastInDim S288x256 ![] bcast_S_S288x256 main_cst_12
  let main_v36 : IVec S288x256 1 := cmpf .olt main_v34 main_v35
  let main_c_13 : IVec S_ 1 := constantI S_ 1 1#1
  let main_v37 : IVec S_ 1 := (fun x v => Host.reduce IntOp.andi x v reducesTo_S288x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg2 main_arg12 main_arg13 main_arg14 main_v48 main_v49 main_v50

def fn_part1 {F : FTy → Type} [FloatOps F] (main_arg2 : IVec S2x524288 32) (main_arg5 : FVec F S32 .f32) (main_arg6 : FVec F S32x32 .f32) (main_arg7 : FVec F S32 .f32) (main_arg8 : FVec F S288x256 .f32) (main_arg9 : FVec F S256 .f32) (main_arg10 : FVec F S256x128 .f32) (main_arg11 : FVec F S128 .f32) (main_arg12 : FVec F S288x256 .f32) (main_arg13 : FVec F S256 .f32) (main_arg14 : FVec F S256x1 .f32) (main_v13 : IVec S_ 1) (main_v16 : IVec S1x32 1) : IVec S_ 1 :=
  let main_c_5 : IVec S_ 1 := constantI S_ 1 1#1
  let main_v17 : IVec S_ 1 := (fun x v => Host.reduce IntOp.andi x v reducesTo_S1x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg2 main_arg8 main_arg9 main_arg10 main_arg11 main_arg12 main_arg13 main_arg14 main_v33

def fn {F : FTy → Type} [FloatOps F] (main_arg0 : FVec F S32768x128 .f32) (main_arg1 : FVec F S32768x3 .f32) (main_arg2 : IVec S2x524288 32) (main_arg3 : FVec F S524288 .f32) (main_arg4 : FVec F S1x32 .f32) (main_arg5 : FVec F S32 .f32) (main_arg6 : FVec F S32x32 .f32) (main_arg7 : FVec F S32 .f32) (main_arg8 : FVec F S288x256 .f32) (main_arg9 : FVec F S256 .f32) (main_arg10 : FVec F S256x128 .f32) (main_arg11 : FVec F S128 .f32) (main_arg12 : FVec F S288x256 .f32) (main_arg13 : FVec F S256 .f32) (main_arg14 : FVec F S256x1 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S32768x3 .f32 := Host.absf main_arg1
  let main_cst_0 : FVec F S_ .f32 := constant S_ .f32 0x7F800000#32
  let main_v5 : FVec F S32768x3 .f32 := broadcastInDim S32768x3 ![] bcast_S_S32768x3 main_cst_0
  let main_v6 : IVec S32768x3 1 := cmpf .olt main_v4 main_v5
  let main_c_1 : IVec S_ 1 := constantI S_ 1 1#1
  let main_v7 : IVec S_ 1 := (fun x v => Host.reduce IntOp.andi x v reducesTo_S32768x3_S_d0_1 h_S_) main_v6 main_c_1
  let main_v8 : IVec S_ 1 := andi main_v3 main_v7
  let main_v9 : FVec F S524288 .f32 := Host.absf main_arg3
  let main_cst_2 : FVec F S_ .f32 := constant S_ .f32 0x7F800000#32
  let main_v10 : FVec F S524288 .f32 := broadcastInDim S524288 ![] bcast_S_S524288 main_cst_2
  let main_v11 : IVec S524288 1 := cmpf .olt main_v9 main_v10
  let main_c_3 : IVec S_ 1 := constantI S_ 1 1#1
  let main_v12 : IVec S_ 1 := (fun x v => Host.reduce IntOp.andi x v reducesTo_S524288_S_d0 h_S_) main_v11 main_c_3
  let main_v13 : IVec S_ 1 := andi main_v8 main_v12
  let main_v14 : FVec F S1x32 .f32 := Host.absf main_arg4
  let main_cst_4 : FVec F S_ .f32 := constant S_ .f32 0x7F800000#32
  let main_v15 : FVec F S1x32 .f32 := broadcastInDim S1x32 ![] bcast_S_S1x32 main_cst_4
  let main_v16 : IVec S1x32 1 := cmpf .olt main_v14 main_v15
  fn_part1 (F := F) main_arg2 main_arg5 main_arg6 main_arg7 main_arg8 main_arg9 main_arg10 main_arg11 main_arg12 main_arg13 main_arg14 main_v13 main_v16
-- ==== Kernel.lean ====
abbrev S32768x128 : Shape := ⟨2, ![32768, 128]⟩
abbrev S32768x3 : Shape := ⟨2, ![32768, 3]⟩
abbrev S2x524288 : Shape := ⟨2, ![2, 524288]⟩
abbrev S524288 : Shape := ⟨1, ![524288]⟩
abbrev S1x32 : Shape := ⟨2, ![1, 32]⟩
abbrev S32 : Shape := ⟨1, ![32]⟩
abbrev S32x32 : Shape := ⟨2, ![32, 32]⟩
abbrev S288x256 : Shape := ⟨2, ![288, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1x524288 : Shape := ⟨2, ![1, 524288]⟩
abbrev S_ : Shape := ⟨0, ![]⟩
abbrev S524288x1 : Shape := ⟨2, ![524288, 1]⟩
abbrev S1 : Shape := ⟨1, ![1]⟩
abbrev S1x1 : Shape := ⟨2, ![1, 1]⟩
abbrev S524288x128 : Shape := ⟨2, ![524288, 128]⟩
abbrev S524288x3 : Shape := ⟨2, ![524288, 3]⟩
abbrev S524288x7 : Shape := ⟨2, ![524288, 7]⟩
abbrev S1x256 : Shape := ⟨2, ![1, 256]⟩
abbrev S1x128 : Shape := ⟨2, ![1, 128]⟩
abbrev S2048x128 : Shape := ⟨2, ![2048, 128]⟩
abbrev S2048x7 : Shape := ⟨2, ![2048, 7]⟩
abbrev S2048x3 : Shape := ⟨2, ![2048, 3]⟩
abbrev S2048x1 : Shape := ⟨2, ![2048, 1]⟩
abbrev S2048x32 : Shape := ⟨2, ![2048, 32]⟩
abbrev S2048x288 : Shape := ⟨2, ![2048, 288]⟩
abbrev S2048x256 : Shape := ⟨2, ![2048, 256]⟩
abbrev S2048 : Shape := ⟨1, ![2048]⟩

abbrev nBuf : Space → Nat
  | .hbm => 130
  | .vmem => 21
  | .smem => 0
  | _ => 0

abbrev hbmTy0_0 (i : Nat) : BufTy := match i % 128 with
  | 0 => ⟨S32768x128, .f32⟩
  | 1 => ⟨S32768x3, .f32⟩
  | 2 => ⟨S2x524288, .i32⟩
  | 3 => ⟨S524288, .f32⟩
  | 4 => ⟨S1x32, .f32⟩
  | 5 => ⟨S32, .f32⟩
  | 6 => ⟨S32x32, .f32⟩
  | 7 => ⟨S32, .f32⟩
  | 8 => ⟨S288x256, .f32⟩
  | 9 => ⟨S256, .f32⟩
  | 10 => ⟨S256x128, .f32⟩
  | 11 => ⟨S128, .f32⟩
  | 12 => ⟨S288x256, .f32⟩
  | 13 => ⟨S256, .f32⟩
  | 14 => ⟨S256x1, .f32⟩
  | 15 => ⟨S1x524288, .i32⟩
  | 16 => ⟨S524288, .i32⟩
  | 17 => ⟨S1x524288, .i32⟩
  | 18 => ⟨S524288, .i32⟩
  | 19 => ⟨S_, .i32⟩
  | 20 => ⟨S524288, .i32⟩
  | 21 => ⟨S524288, .i1⟩
  | 22 => ⟨S_, .i32⟩
  | 23 => ⟨S524288, .i32⟩
  | 24 => ⟨S524288, .i32⟩
  | 25 => ⟨S524288, .i32⟩
  | 26 => ⟨S524288x1, .i32⟩
  | 27 => ⟨S1, .i32⟩
  | 28 => ⟨S_, .i32⟩
  | 29 => ⟨S524288x1, .i32⟩
  | 30 => ⟨S524288x1, .i1⟩
  | 31 => ⟨S1x1, .i32⟩
  | 32 => ⟨S524288x1, .i32⟩
  | 33 => ⟨S524288x1, .i1⟩
  | 34 => ⟨S524288x1, .i1⟩
  | 35 => ⟨S_, .i1⟩
  | 36 => ⟨S524288, .i1⟩
  | 37 => ⟨S524288x128, .f32⟩
  | 38 => ⟨S524288x128, .i1⟩
  | 39 => ⟨S_, .f32⟩
  | 40 => ⟨S524288x128, .f32⟩
  | 41 => ⟨S524288x128, .f32⟩
  | 42 => ⟨S_, .i32⟩
  | 43 => ⟨S524288, .i32⟩
  | 44 => ⟨S524288, .i1⟩
  | 45 => ⟨S_, .i32⟩
  | 46 => ⟨S524288, .i32⟩
  | 47 => ⟨S524288, .i32⟩
  | 48 => ⟨S524288, .i32⟩
  | 49 => ⟨S524288x1, .i32⟩
  | 50 => ⟨S1, .i32⟩
  | 51 => ⟨S_, .i32⟩
  | 52 => ⟨S524288x1, .i32⟩
  | 53 => ⟨S524288x1, .i1⟩
  | 54 => ⟨S1x1, .i32⟩
  | 55 => ⟨S524288x1, .i32⟩
  | 56 => ⟨S524288x1, .i1⟩
  | 57 => ⟨S524288x1, .i1⟩
  | 58 => ⟨S_, .i1⟩
  | 59 => ⟨S524288, .i1⟩
  | 60 => ⟨S524288x128, .f32⟩
  | 61 => ⟨S524288x128, .i1⟩
  | 62 => ⟨S_, .f32⟩
  | 63 => ⟨S524288x128, .f32⟩
  | 64 => ⟨S524288x128, .f32⟩
  | 65 => ⟨S_, .i32⟩
  | 66 => ⟨S524288, .i32⟩
  | 67 => ⟨S524288, .i1⟩
  | 68 => ⟨S_, .i32⟩
  | 69 => ⟨S524288, .i32⟩
  | 70 => ⟨S524288, .i32⟩
  | 71 => ⟨S524288, .i32⟩
  | 72 => ⟨S524288x1, .i32⟩
  | 73 => ⟨S1, .i32⟩
  | 74 => ⟨S_, .i32⟩
  | 75 => ⟨S524288x1, .i32⟩
  | 76 => ⟨S524288x1, .i1⟩
  | 77 => ⟨S1x1, .i32⟩
  | 78 => ⟨S524288x1, .i32⟩
  | 79 => ⟨S524288x1, .i1⟩
  | 80 => ⟨S524288x1, .i1⟩
  | 81 => ⟨S_, .i1⟩
  | 82 => ⟨S524288, .i1⟩
  | 83 => ⟨S524288x3, .f32⟩
  | 84 => ⟨S524288x3, .i1⟩
  | 85 => ⟨S_, .f32⟩
  | 86 => ⟨S524288x3, .f32⟩
  | 87 => ⟨S524288x3, .f32⟩
  | 88 => ⟨S_, .i32⟩
  | 89 => ⟨S524288, .i32⟩
  | 90 => ⟨S524288, .i1⟩
  | 91 => ⟨S_, .i32⟩
  | 92 => ⟨S524288, .i32⟩
  | 93 => ⟨S524288, .i32⟩
  | 94 => ⟨S524288, .i32⟩
  | 95 => ⟨S524288x1, .i32⟩
  | 96 => ⟨S1, .i32⟩
  | 97 => ⟨S_, .i32⟩
  | 98 => ⟨S524288x1, .i32⟩
  | 99 => ⟨S524288x1, .i1⟩
  | 100 => ⟨S1x1, .i32⟩
  | 101 => ⟨S524288x1, .i32⟩
  | 102 => ⟨S524288x1, .i1⟩
  | 103 => ⟨S524288x1, .i1⟩
  | 104 => ⟨S_, .i1⟩
  | 105 => ⟨S524288, .i1⟩
  | 106 => ⟨S524288x3, .f32⟩
  | 107 => ⟨S524288x3, .i1⟩
  | 108 => ⟨S_, .f32⟩
  | 109 => ⟨S524288x3, .f32⟩
  | 110 => ⟨S524288x3, .f32⟩
  | 111 => ⟨S524288x1, .f32⟩
  | 112 => ⟨S524288x7, .f32⟩
  | 113 => ⟨S1x32, .f32⟩
  | 114 => ⟨S1x32, .f32⟩
  | 115 => ⟨S1x256, .f32⟩
  | 116 => ⟨S1x128, .f32⟩
  | 117 => ⟨S1x256, .f32⟩
  | 118 => ⟨S524288x128, .f32⟩
  | 119 => ⟨S524288x3, .f32⟩
  | 120 => ⟨S_, .f32⟩
  | 121 => ⟨S32768x128, .f32⟩
  | 122 => ⟨S524288x1, .i32⟩
  | 123 => ⟨S32768x128, .f32⟩
  | 124 => ⟨S_, .f32⟩
  | 125 => ⟨S32768x3, .f32⟩
  | 126 => ⟨S524288x1, .i32⟩
  | 127 => ⟨S32768x3, .f32⟩
  | _ => ⟨S32768x128, .f32⟩

abbrev hbmTy0_1 (i : Nat) : BufTy := match i % 128 with
  | 0 => ⟨S32768x128, .f32⟩
  | 1 => ⟨S32768x3, .f32⟩
  | _ => ⟨S32768x128, .f32⟩

abbrev hbmTy (i : Nat) : BufTy := match i / 128 with
  | 0 => hbmTy0_0 i
  | 1 => hbmTy0_1 i
  | _ => ⟨S32768x128, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x7, .f32⟩
  | .local _ .vmem, ⟨5, _⟩ => ⟨S2048x7, .f32⟩
  | .local _ .vmem, ⟨6, _⟩ => ⟨S1x32, .f32⟩
  | .local _ .vmem, ⟨7, _⟩ => ⟨S1x32, .f32⟩
  | .local _ .vmem, ⟨8, _⟩ => ⟨S32x32, .f32⟩
  | .local _ .vmem, ⟨9, _⟩ => ⟨S1x32, .f32⟩
  | .local _ .vmem, ⟨10, _⟩ => ⟨S288x256, .f32⟩
  | .local _ .vmem, ⟨11, _⟩ => ⟨S1x256, .f32⟩
  | .local _ .vmem, ⟨12, _⟩ => ⟨S256x128, .f32⟩
  | .local _ .vmem, ⟨13, _⟩ => ⟨S1x128, .f32⟩
  | .local _ .vmem, ⟨14, _⟩ => ⟨S288x256, .f32⟩
  | .local _ .vmem, ⟨15, _⟩ => ⟨S1x256, .f32⟩
  | .local _ .vmem, ⟨16, _⟩ => ⟨S256x1, .f32⟩
  | .local _ .vmem, ⟨17, _⟩ => ⟨S2048x128, .f32⟩
  | .local _ .vmem, ⟨18, _⟩ => ⟨S2048x128, .f32⟩
  | .local _ .vmem, ⟨19, _⟩ => ⟨S2048x3, .f32⟩
  | .local _ .vmem, ⟨20, _⟩ => ⟨S2048x3, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v4 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v5 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_cst : Ref sig .tc := ⟨.hbm, 85, rfl⟩
abbrev main_call2_v15 : Ref sig .tc := ⟨.hbm, 86, rfl⟩
abbrev main_v6 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v7 : Ref sig .tc := ⟨.hbm, 110, rfl⟩
abbrev main_v8 : Ref sig .tc := ⟨.hbm, 111, rfl⟩
abbrev main_v9 : Ref sig .tc := ⟨.hbm, 112, rfl⟩
abbrev main_v10 : Ref sig .tc := ⟨.hbm, 113, rfl⟩
abbrev main_v11 : Ref sig .tc := ⟨.hbm, 114, rfl⟩
abbrev main_v12 : Ref sig .tc := ⟨.hbm, 115, rfl⟩
abbrev main_v13 : Ref sig .tc := ⟨.hbm, 116, rfl⟩
abbrev main_v14 : Ref sig .tc := ⟨.hbm, 117, rfl⟩
abbrev main_v15_0 : Ref sig .tc := ⟨.hbm, 118, rfl⟩
abbrev main_v15_1 : Ref sig .tc := ⟨.hbm, 119, rfl⟩
abbrev main_cst : Ref sig .tc := ⟨.hbm, 120, rfl⟩
abbrev main_v16 : Ref sig .tc := ⟨.hbm, 121, rfl⟩
abbrev main_v17 : Ref sig .tc := ⟨.hbm, 122, rfl⟩
abbrev main_v18 : Ref sig .tc := ⟨.hbm, 123, rfl⟩
abbrev main_cst_0 : Ref sig .tc := ⟨.hbm, 124, rfl⟩
abbrev main_v19 : Ref sig .tc := ⟨.hbm, 125, rfl⟩
abbrev main_v20 : Ref sig .tc := ⟨.hbm, 126, rfl⟩
abbrev main_v21 : Ref sig .tc := ⟨.hbm, 127, rfl⟩
abbrev main_v22 : Ref sig .tc := ⟨.hbm, 128, rfl⟩
abbrev main_v23 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x7 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S288x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S288x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2048x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2048x3 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  reducesTo_S524288x1_S524288_d1 : S524288x1.ReducesTo [1] S524288
  h_S_ : 0 < S_.numel
  bcast_S524288_S524288x128_0 : S524288.BroadcastsInDim S524288x128 (![0] : Fin 1 → Fin S524288x128.rank)
  bcast_S_S524288x128 : S_.BroadcastsInDim S524288x128 (![] : Fin 0 → Fin S524288x128.rank)
  bcast_S524288_S524288x3_0 : S524288.BroadcastsInDim S524288x3 (![0] : Fin 1 → Fin S524288x3.rank)
  bcast_S_S524288x3 : S_.BroadcastsInDim S524288x3 (![] : Fin 0 → Fin S524288x3.rank)
  concatenates_S524288x1_S524288x3_S524288x3_S524288x7_d1 : Shape.Concatenates [S524288x1, S524288x3, S524288x3] S524288x7 1
  bcast_S32_S1x32_1 : S32.BroadcastsInDim S1x32 (![1] : Fin 1 → Fin S1x32.rank)
  bcast_S256_S1x256_1 : S256.BroadcastsInDim S1x256 (![1] : Fin 1 → Fin S1x256.rank)
  bcast_S128_S1x128_1 : S128.BroadcastsInDim S1x128 (![1] : Fin 1 → Fin S1x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x7_S2048x7_0_0 : ∀ a, (![0, 0] : Fin 2 → Nat) a + S2048x7.size a ≤ S2048x7.size a
  h_S2048x7 : 0 < S2048x7.numel
  shapeCasts_S2048x7_S2048x7 : S2048x7.ShapeCasts S2048x7
  slices_S2048x7_o0_0_S2048x1 : S2048x7.Slices ![0, 0] S2048x1
  slices_S2048x7_o0_1_S2048x3 : S2048x7.Slices ![0, 1] S2048x3
  slices_S2048x7_o0_4_S2048x3 : S2048x7.Slices ![0, 4] S2048x3
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S32x32_S32x32_0_0 : ∀ a, (![0, 0] : Fin 2 → Nat) a + S32x32.size a ≤ S32x32.size a
  h_S32x32 : 0 < S32x32.numel
  inb_S288x256_S288x256_0_0 : ∀ a, (![0, 0] : Fin 2 → Nat) a + S288x256.size a ≤ S288x256.size a
  h_S288x256 : 0 < S288x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S256x1_S256x1_0_0 : ∀ a, (![0, 0] : Fin 2 → Nat) a + S256x1.size a ≤ S256x1.size a
  h_S256x1 : 0 < S256x1.numel
  bitsLt_bf16_f32 : FTy.bits .bf16 < FTy.bits .f32
  broadcasts_S1x32_S2048x32 : S1x32.Broadcasts S2048x32
  concatenates_S2048x128_S2048x128_S2048x32_S2048x288_d1 : Shape.Concatenates [S2048x128, S2048x128, S2048x32] S2048x288 1
  broadcasts_S1x256_S2048x256 : S1x256.Broadcasts S2048x256
  broadcasts_S1x128_S2048x128 : S1x128.Broadcasts S2048x128
  reduces_S2048x3_S2048 : S2048x3.Reduces [1] S2048
  shapeCasts_S2048_S2048x1 : S2048.ShapeCasts S2048x1
  broadcasts_S2048x1_S2048x3 : S2048x1.Broadcasts S2048x3
  inb_S2048x3_S2048x3_0_0 : ∀ a, (![0, 0] : Fin 2 → Nat) a + S2048x3.size a ≤ S2048x3.size a
  h_S2048x3 : 0 < S2048x3.numel
  bcast_S_S32768x128 : S_.BroadcastsInDim S32768x128 (![] : Fin 0 → Fin S32768x128.rank)
  bcast_S_S32768x3 : S_.BroadcastsInDim S32768x3 (![] : Fin 0 → Fin S32768x3.rank)
  gather_S32768x128_S524288x1_S524288x128_1_0_n_n_0_1_1128_wf : GatherDims.WF S32768x128 S524288x1 S524288x128 [1] [0] [] [0] [] 1 ![1, 128]
  gather_S32768x3_S524288x1_S524288x3_1_0_n_n_0_1_13_wf : GatherDims.WF S32768x3 S524288x1 S524288x3 [1] [0] [] [0] [] 1 ![1, 3]
  dot_S2048x1_S1x32_S2048x32_1_0_0_1_n_n_wf : DotDims.WF S2048x1 S1x32 S2048x32 [1] [0] [0] [1] [] []
  dot_S2048x32_S32x32_S2048x32_1_0_0_1_n_n_wf : DotDims.WF S2048x32 S32x32 S2048x32 [1] [0] [0] [1] [] []
  dot_S2048x288_S288x256_S2048x256_1_0_0_1_n_n_wf : DotDims.WF S2048x288 S288x256 S2048x256 [1] [0] [0] [1] [] []
  dot_S2048x256_S256x128_S2048x128_1_0_0_1_n_n_wf : DotDims.WF S2048x256 S256x128 S2048x128 [1] [0] [0] [1] [] []
  dot_S2048x256_S256x1_S2048x1_1_0_0_1_n_n_wf : DotDims.WF S2048x256 S256x1 S2048x1 [1] [0] [0] [1] [] []
  scatter_S32768x128_S524288x1_S524288x128_1_0_0_1_wf : ScatterDims.WF S32768x128 S524288x1 S524288x128 [1] [0] [0] 1
  scatter_S32768x3_S524288x1_S524288x3_1_0_0_1_wf : ScatterDims.WF S32768x3 S524288x1 S524288x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S524288x128.size a
  hwx0_0 : ∀ i : grid0.Coords, EltTy.bits .f32 = 32 ∨ (Rect.block (s := S524288x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S524288x128.size a
  hwx0_1 : ∀ i : grid0.Coords, EltTy.bits .f32 = 32 ∨ (Rect.block (s := S524288x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x7.size a ≤ S524288x7.size a
  hwx0_2 : ∀ i : grid0.Coords, EltTy.bits .f32 = 32 ∨ (Rect.block (s := S524288x7) S2048x7.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S288x256.size a ≤ S288x256.size a
  hwx0_7 : ∀ i : grid0.Coords, EltTy.bits .f32 = 32 ∨ (Rect.block (s := S288x256) S288x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .f32 = 32 ∨ (Rect.block (s := S256x128) S256x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S288x256.size a ≤ S288x256.size a
  hwx0_11 : ∀ i : grid0.Coords, EltTy.bits .f32 = 32 ∨ (Rect.block (s := S288x256) S288x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x1.size a ≤ S256x1.size a
  hwx0_13 : ∀ i : grid0.Coords, EltTy.bits .f32 = 32 ∨ (Rect.block (s := S256x1) S256x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2048x128.size a ≤ S524288x128.size a
  hwx0_14 : ∀ i : grid0.Coords, EltTy.bits .f32 = 32 ∨ (Rect.block (s := S524288x128) S2048x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2048x3.size a ≤ S524288x3.size a
  hwx0_15 : ∀ i : grid0.Coords, EltTy.bits .f32 = 32 ∨ (Rect.block (s := S524288x3) S2048x3.size (cc0_transform_15 i) (hinb0_15 i)).WholeWords (EltTy.packing .f32)

variable [Facts₀]

def gather_S32768x128_S524288x1_S524288x128_1_0_n_n_0_1_1128 : GatherDims S32768x128 S524288x1 S524288x128 where
  offsetDims := [1]
  collapsedSliceDims := [0]
  operandBatchingDims := []
  startIndicesBatchingDims := []
  startIndexMap := [0]
  indexVectorDim := 1
  sliceSizes := ![1, 128]
  wf := gather_S32768x128_S524288x1_S524288x128_1_0_n_n_0_1_1128_wf
def gather_S32768x3_S524288x1_S524288x3_1_0_n_n_0_1_13 : GatherDims S32768x3 S524288x1 S524288x3 where
  offsetDims := [1]
  collapsedSliceDims := [0]
  operandBatchingDims := []
  startIndicesBatchingDims := []
  startIndexMap := [0]
  indexVectorDim := 1
  sliceSizes := ![1, 3]
  wf := gather_S32768x3_S524288x1_S524288x3_1_0_n_n_0_1_13_wf
def dot_S2048x1_S1x32_S2048x32_1_0_0_1_n_n : DotDims S2048x1 S1x32 S2048x32 where
  lhsContracting := [1]
  rhsContracting := [0]
  lhsNonContracting := [0]
  rhsNonContracting := [1]
  lhsBatch := []
  rhsBatch := []
  wf := dot_S2048x1_S1x32_S2048x32_1_0_0_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S2048x288_S288x256_S2048x256_1_0_0_1_n_n : DotDims S2048x288 S288x256 S2048x256 where
  lhsContracting := [1]
  rhsContracting := [0]
  lhsNonContracting := [0]
  rhsNonContracting := [1]
  lhsBatch := []
  rhsBatch := []
  wf := dot_S2048x288_S288x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf
def scatter_S32768x128_S524288x1_S524288x128_1_0_0_1 : ScatterDims S32768x128 S524288x1 S524288x128 where
  updateWindowDims := [1]
  insertedWindowDims := [0]
  scatterDimsToOperandDims := [0]
  indexVectorDim := 1
  wf := scatter_S32768x128_S524288x1_S524288x128_1_0_0_1_wf
def scatter_S32768x3_S524288x1_S524288x3_1_0_0_1 : ScatterDims S32768x3 S524288x1 S524288x3 where
  updateWindowDims := [1]
  insertedWindowDims := [0]
  scatterDimsToOperandDims := [0]
  indexVectorDim := 1
  wf := scatter_S32768x3_S524288x1_S524288x3_1_0_0_1_wf

abbrev win0_0 : Pipeline.Window sig grid0 :=
  Pipeline.Window.ofSpec (Memref.whole main_v4) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2048x7.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S288x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S288x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S256x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v15_0) S2048x128.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v15_1) S2048x3.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S32768x128 : Shape := ⟨2, ![32768, 128]⟩
abbrev S32768x3 : Shape := ⟨2, ![32768, 3]⟩
abbrev S2x524288 : Shape := ⟨2, ![2, 524288]⟩
abbrev S524288 : Shape := ⟨1, ![524288]⟩
abbrev S1x32 : Shape := ⟨2, ![1, 32]⟩
abbrev S32 : Shape := ⟨1, ![32]⟩
abbrev S32x32 : Shape := ⟨2, ![32, 32]⟩
abbrev S288x256 : Shape := ⟨2, ![288, 256]⟩
abbrev S256 : Shape := ⟨1, ![256]⟩
abbrev S256x128 : Shape := ⟨2, ![256, 128]⟩
abbrev S128 : Shape := ⟨1, ![128]⟩
abbrev S256x1 : Shape := ⟨2, ![256, 1]⟩
abbrev S1x524288 : Shape := ⟨2, ![1, 524288]⟩
abbrev S524288x1 : Shape := ⟨2, ![524288, 1]⟩
abbrev S524288x32 : Shape := ⟨2, ![524288, 32]⟩
abbrev S_ : Shape := ⟨0, ![]⟩
abbrev S524288x128 : Shape := ⟨2, ![524288, 128]⟩
abbrev S524288x288 : Shape := ⟨2, ![524288, 288]⟩
abbrev S524288x256 : Shape := ⟨2, ![524288, 256]⟩
abbrev S1x256 : Shape := ⟨2, ![1, 256]⟩
abbrev S1x128 : Shape := ⟨2, ![1, 128]⟩
abbrev S524288x3 : Shape := ⟨2, ![524288, 3]⟩

abbrev nBuf : Space → Nat
  | .hbm => 128
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768x3, .f32⟩
  | .hbm, ⟨2, _⟩ => ⟨S2x524288, .i32⟩
  | .hbm, ⟨3, _⟩ => ⟨S524288, .f32⟩
  | .hbm, ⟨4, _⟩ => ⟨S1x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S288x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S288x256, .f32⟩
  | .hbm, ⟨13, _⟩ => ⟨S256, .f32⟩
  | .hbm, ⟨14, _⟩ => ⟨S256x1, .f32⟩
  | .hbm, ⟨15, _⟩ => ⟨S1x524288, .i32⟩
  | .hbm, ⟨16, _⟩ => ⟨S524288, .i32⟩
  | .hbm, ⟨17, _⟩ => ⟨S1x524288, .i32⟩
  | .hbm, ⟨18, _⟩ => ⟨S524288, .i32⟩
  | .hbm, ⟨19, _⟩ => ⟨S524288x1, .f32⟩
  | .hbm, ⟨20, _⟩ => ⟨S524288x32, .f32⟩
  | .hbm, ⟨21, _⟩ => ⟨S1x32, .f32⟩
  | .hbm, ⟨22, _⟩ => ⟨S524288x32, .f32⟩
  | .hbm, ⟨23, _⟩ => ⟨S524288x32, .f32⟩
  | .hbm, ⟨24, _⟩ => ⟨S524288x32, .f32⟩
  | .hbm, ⟨25, _⟩ => ⟨S524288x32, .f32⟩
  | .hbm, ⟨26, _⟩ => ⟨S_, .f32⟩
  | .hbm, ⟨27, _⟩ => ⟨S524288x32, .f32⟩
  | .hbm, ⟨28, _⟩ => ⟨S524288x32, .f32⟩
  | .hbm, ⟨29, _⟩ => ⟨S_, .f32⟩
  | .hbm, ⟨30, _⟩ => ⟨S524288x32, .f32⟩
  | .hbm, ⟨31, _⟩ => ⟨S524288x32, .f32⟩
  | .hbm, ⟨32, _⟩ => ⟨S524288x32, .f32⟩
  | .hbm, ⟨33, _⟩ => ⟨S524288x32, .f32⟩
  | .hbm, ⟨34, _⟩ => ⟨S1x32, .f32⟩
  | .hbm, ⟨35, _⟩ => ⟨S524288x32, .f32⟩
  | .hbm, ⟨36, _⟩ => ⟨S524288x32, .f32⟩
  | .hbm, ⟨37, _⟩ => ⟨S_, .i32⟩
  | .hbm, ⟨38, _⟩ => ⟨S524288, .i32⟩
  | .hbm, ⟨39, _⟩ => ⟨S524288, .i1⟩
  | .hbm, ⟨40, _⟩ => ⟨S_, .i32⟩
  | .hbm, ⟨41, _⟩ => ⟨S524288, .i32⟩
  | .hbm, ⟨42, _⟩ => ⟨S524288, .i32⟩
  | .hbm, ⟨43, _⟩ => ⟨S524288, .i32⟩
  | .hbm, ⟨44, _⟩ => ⟨S524288x1, .i32⟩
  | .hbm, ⟨45, _⟩ => ⟨S524288x128, .f32⟩
  | .hbm, ⟨46, _⟩ => ⟨S_, .i32⟩
  | .hbm, ⟨47, _⟩ => ⟨S524288, .i32⟩
  | .hbm, ⟨48, _⟩ => ⟨S524288, .i1⟩
  | .hbm, ⟨49, _⟩ => ⟨S_, .i32⟩
  | .hbm, ⟨50, _⟩ => ⟨S524288, .i32⟩
  | .hbm, ⟨51, _⟩ => ⟨S524288, .i32⟩
  | .hbm, ⟨52, _⟩ => ⟨S524288, .i32⟩
  | .hbm, ⟨53, _⟩ => ⟨S524288x1, .i32⟩
  | .hbm, ⟨54, _⟩ => ⟨S524288x128, .f32⟩
  | .hbm, ⟨55, _⟩ => ⟨S524288x288, .f32⟩
  | .hbm, ⟨56, _⟩ => ⟨S524288x256, .f32⟩
  | .hbm, ⟨57, _⟩ => ⟨S1x256, .f32⟩
  | .hbm, ⟨58, _⟩ => ⟨S524288x256, .f32⟩
  | .hbm, ⟨59, _⟩ => ⟨S524288x256, .f32⟩
  | .hbm, ⟨60, _⟩ => ⟨S524288x256, .f32⟩
  | .hbm, ⟨61, _⟩ => ⟨S524288x256, .f32⟩
  | .hbm, ⟨62, _⟩ => ⟨S_, .f32⟩
  | .hbm, ⟨63, _⟩ => ⟨S524288x256, .f32⟩
  | .hbm, ⟨64, _⟩ => ⟨S524288x256, .f32⟩
  | .hbm, ⟨65, _⟩ => ⟨S_, .f32⟩
  | .hbm, ⟨66, _⟩ => ⟨S524288x256, .f32⟩
  | .hbm, ⟨67, _⟩ => ⟨S524288x256, .f32⟩
  | .hbm, ⟨68, _⟩ => ⟨S524288x256, .f32⟩
  | .hbm, ⟨69, _⟩ => ⟨S524288x128, .f32⟩
  | .hbm, ⟨70, _⟩ => ⟨S1x128, .f32⟩
  | .hbm, ⟨71, _⟩ => ⟨S524288x128, .f32⟩
  | .hbm, ⟨72, _⟩ => ⟨S524288x128, .f32⟩
  | .hbm, ⟨73, _⟩ => ⟨S_, .f32⟩
  | .hbm, ⟨74, _⟩ => ⟨S32768x128, .f32⟩
  | .hbm, ⟨75, _⟩ => ⟨S524288x1, .i32⟩
  | .hbm, ⟨76, _⟩ => ⟨S32768x128, .f32⟩
  | .hbm, ⟨77, _⟩ => ⟨S524288x256, .f32⟩
  | .hbm, ⟨78, _⟩ => ⟨S1x256, .f32⟩
  | .hbm, ⟨79, _⟩ => ⟨S524288x256, .f32⟩
  | .hbm, ⟨80, _⟩ => ⟨S524288x256, .f32⟩
  | .hbm, ⟨81, _⟩ => ⟨S524288x256, .f32⟩
  | .hbm, ⟨82, _⟩ => ⟨S524288x256, .f32⟩
  | .hbm, ⟨83, _⟩ => ⟨S_, .f32⟩
  | .hbm, ⟨84, _⟩ => ⟨S524288x256, .f32⟩
  | .hbm, ⟨85, _⟩ => ⟨S524288x256, .f32⟩
  | .hbm, ⟨86, _⟩ => ⟨S_, .f32⟩
  | .hbm, ⟨87, _⟩ => ⟨S524288x256, .f32⟩
  | .hbm, ⟨88, _⟩ => ⟨S524288x256, .f32⟩
  | .hbm, ⟨89, _⟩ => ⟨S524288x256, .f32⟩
  | .hbm, ⟨90, _⟩ => ⟨S524288x1, .f32⟩
  | .hbm, ⟨91, _⟩ => ⟨S_, .i32⟩
  | .hbm, ⟨92, _⟩ => ⟨S524288, .i32⟩
  | .hbm, ⟨93, _⟩ => ⟨S524288, .i1⟩
  | .hbm, ⟨94, _⟩ => ⟨S_, .i32⟩
  | .hbm, ⟨95, _⟩ => ⟨S524288, .i32⟩
  | .hbm, ⟨96, _⟩ => ⟨S524288, .i32⟩
  | .hbm, ⟨97, _⟩ => ⟨S524288, .i32⟩
  | .hbm, ⟨98, _⟩ => ⟨S524288x1, .i32⟩
  | .hbm, ⟨99, _⟩ => ⟨S524288x3, .f32⟩
  | .hbm, ⟨100, _⟩ => ⟨S_, .i32⟩
  | .hbm, ⟨101, _⟩ => ⟨S524288, .i32⟩
  | .hbm, ⟨102, _⟩ => ⟨S524288, .i1⟩
  | .hbm, ⟨103, _⟩ => ⟨S_, .i32⟩
  | .hbm, ⟨104, _⟩ => ⟨S524288, .i32⟩
  | .hbm, ⟨105, _⟩ => ⟨S524288, .i32⟩
  | .hbm, ⟨106, _⟩ => ⟨S524288, .i32⟩
  | .hbm, ⟨107, _⟩ => ⟨S524288x1, .i32⟩
  | .hbm, ⟨108, _⟩ => ⟨S524288x3, .f32⟩
  | .hbm, ⟨109, _⟩ => ⟨S524288x3, .f32⟩
  | .hbm, ⟨110, _⟩ => ⟨S524288x3, .f32⟩
  | .hbm, ⟨111, _⟩ => ⟨S_, .f32⟩
  | .hbm, ⟨112, _⟩ => ⟨S524288, .f32⟩
  | .hbm, ⟨113, _⟩ => ⟨S524288x1, .f32⟩
  | .hbm, ⟨114, _⟩ => ⟨S524288x1, .f32⟩
  | .hbm, ⟨115, _⟩ => ⟨S_, .f32⟩
  | .hbm, ⟨116, _⟩ => ⟨S524288x1, .f32⟩
  | .hbm, ⟨117, _⟩ => ⟨S524288x1, .f32⟩
  | .hbm, ⟨118, _⟩ => ⟨S524288x3, .f32⟩
  | .hbm, ⟨119, _⟩ => ⟨S524288x3, .f32⟩
  | .hbm, ⟨120, _⟩ => ⟨S524288x3, .f32⟩
  | .hbm, ⟨121, _⟩ => ⟨S524288x3, .f32⟩
  | .hbm, ⟨122, _⟩ => ⟨S_, .f32⟩
  | .hbm, ⟨123, _⟩ => ⟨S32768x3, .f32⟩
  | .hbm, ⟨124, _⟩ => ⟨S524288x1, .i32⟩
  | .hbm, ⟨125, _⟩ => ⟨S32768x3, .f32⟩
  | .hbm, ⟨126, _⟩ => ⟨S32768x128, .f32⟩
  | .hbm, ⟨127, _⟩ => ⟨S32768x3, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c : Ref sig .tc := ⟨.hbm, 37, rfl⟩
abbrev main_v14 : Ref sig .tc := ⟨.hbm, 38, rfl⟩
abbrev main_v15 : Ref sig .tc := ⟨.hbm, 39, rfl⟩
abbrev main_c_0 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_1 : Ref sig .tc := ⟨.hbm, 46, rfl⟩
abbrev main_v21 : Ref sig .tc := ⟨.hbm, 47, rfl⟩
abbrev main_v22 : Ref sig .tc := ⟨.hbm, 48, rfl⟩
abbrev main_c_2 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_call2_v0 : Ref sig .tc := ⟨.hbm, 81, rfl⟩
abbrev main_call2_v1 : Ref sig .tc := ⟨.hbm, 82, rfl⟩
abbrev main_call2_cst : Ref sig .tc := ⟨.hbm, 83, rfl⟩
abbrev main_call2_v2 : Ref sig .tc := ⟨.hbm, 84, rfl⟩
abbrev main_call2_v3 : Ref sig .tc := ⟨.hbm, 85, rfl⟩
abbrev main_call2_cst_0 : Ref sig .tc := ⟨.hbm, 86, rfl⟩
abbrev main_call2_v4 : Ref sig .tc := ⟨.hbm, 87, rfl⟩
abbrev main_call2_v5 : Ref sig .tc := ⟨.hbm, 88, rfl⟩
abbrev main_v45 : Ref sig .tc := ⟨.hbm, 89, rfl⟩
abbrev main_v46 : Ref sig .tc := ⟨.hbm, 90, rfl⟩
abbrev main_c_3 : Ref sig .tc := ⟨.hbm, 91, rfl⟩
abbrev main_v47 : Ref sig .tc := ⟨.hbm, 92, rfl⟩
abbrev main_v48 : Ref sig .tc := ⟨.hbm, 93, rfl⟩
abbrev main_c_4 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_c_5 : Ref sig .tc := ⟨.hbm, 100, rfl⟩
abbrev main_v54 : Ref sig .tc := ⟨.hbm, 101, rfl⟩
abbrev main_v55 : Ref sig .tc := ⟨.hbm, 102, rfl⟩
abbrev main_c_6 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_call3_v0 : Ref sig .tc := ⟨.hbm, 110, rfl⟩
abbrev main_call3_cst : Ref sig .tc := ⟨.hbm, 111, rfl⟩
abbrev main_call3_v1 : Ref sig .tc := ⟨.hbm, 112, rfl⟩
abbrev main_call3_v2 : Ref sig .tc := ⟨.hbm, 113, rfl⟩
abbrev main_v62 : Ref sig .tc := ⟨.hbm, 114, rfl⟩
abbrev main_cst_7 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_cst_8 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S524288_S524288x1_0 : S524288.BroadcastsInDim S524288x1 (![0] : Fin 1 → Fin S524288x1.rank)
  bcast_S32_S1x32_1 : S32.BroadcastsInDim S1x32 (![1] : Fin 1 → Fin S1x32.rank)
  bcast_S1x32_S524288x32_0_1 : S1x32.BroadcastsInDim S524288x32 (![0, 1] : Fin 2 → Fin S524288x32.rank)
  bcast_S_S524288x32 : S_.BroadcastsInDim S524288x32 (![] : Fin 0 → Fin S524288x32.rank)
  bcast_S_S524288 : S_.BroadcastsInDim S524288 (![] : Fin 0 → Fin S524288.rank)
  concatenates_S524288x128_S524288x128_S524288x32_S524288x288_d1 : Shape.Concatenates [S524288x128, S524288x128, S524288x32] S524288x288 1
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  bcast_S_S524288x256 : S_.BroadcastsInDim S524288x256 (![] : Fin 0 → Fin S524288x256.rank)
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S32768x128 : S_.BroadcastsInDim S32768x128 (![] : Fin 0 → Fin S32768x128.rank)
  reducesTo_S524288x3_S524288_d1 : S524288x3.ReducesTo [1] S524288
  h_S_ : 0 < S_.numel
  bcast_S_S524288x1 : S_.BroadcastsInDim S524288x1 (![] : Fin 0 → Fin S524288x1.rank)
  bcast_S524288x1_S524288x3_0_1 : S524288x1.BroadcastsInDim S524288x3 (![0, 1] : Fin 2 → Fin S524288x3.rank)
  bcast_S_S32768x3 : S_.BroadcastsInDim S32768x3 (![] : Fin 0 → Fin S32768x3.rank)
  dot_S524288x1_S1x32_S524288x32_1_0_0_1_n_n_wf : DotDims.WF S524288x1 S1x32 S524288x32 [1] [0] [0] [1] [] []
  dot_S524288x32_S32x32_S524288x32_1_0_0_1_n_n_wf : DotDims.WF S524288x32 S32x32 S524288x32 [1] [0] [0] [1] [] []
  gather_S32768x128_S524288x1_S524288x128_1_0_n_n_0_1_1128_wf : GatherDims.WF S32768x128 S524288x1 S524288x128 [1] [0] [] [0] [] 1 ![1, 128]
  dot_S524288x288_S288x256_S524288x256_1_0_0_1_n_n_wf : DotDims.WF S524288x288 S288x256 S524288x256 [1] [0] [0] [1] [] []
  dot_S524288x256_S256x128_S524288x128_1_0_0_1_n_n_wf : DotDims.WF S524288x256 S256x128 S524288x128 [1] [0] [0] [1] [] []
  scatter_S32768x128_S524288x1_S524288x128_1_0_0_1_wf : ScatterDims.WF S32768x128 S524288x1 S524288x128 [1] [0] [0] 1
  dot_S524288x256_S256x1_S524288x1_1_0_0_1_n_n_wf : DotDims.WF S524288x256 S256x1 S524288x1 [1] [0] [0] [1] [] []
  gather_S32768x3_S524288x1_S524288x3_1_0_n_n_0_1_13_wf : GatherDims.WF S32768x3 S524288x1 S524288x3 [1] [0] [] [0] [] 1 ![1, 3]
  scatter_S32768x3_S524288x1_S524288x3_1_0_0_1_wf : ScatterDims.WF S32768x3 S524288x1 S524288x3 [1] [0] [0] 1

variable [Facts₀]

def dot_S524288x1_S1x32_S524288x32_1_0_0_1_n_n : DotDims S524288x1 S1x32 S524288x32 where
  lhsContracting := [1]
  rhsContracting := [0]
  lhsNonContracting := [0]
  rhsNonContracting := [1]
  lhsBatch := []
  rhsBatch := []
  wf := dot_S524288x1_S1x32_S524288x32_1_0_0_1_n_n_wf
def dot_S524288x32_S32x32_S524288x32_1_0_0_1_n_n : DotDims S524288x32 S32x32 S524288x32 where
  lhsContracting := [1]
  rhsContracting := [0]
  lhsNonContracting := [0]
  rhsNonContracting := [1]
  lhsBatch := []
  rhsBatch := []
  wf := dot_S524288x32_S32x32_S524288x32_1_0_0_1_n_n_wf
def gather_S32768x128_S524288x1_S524288x128_1_0_n_n_0_1_1128 : GatherDims S32768x128 S524288x1 S524288x128 where
  offsetDims := [1]
  collapsedSliceDims := [0]
  operandBatchingDims := []
  startIndicesBatchingDims := []
  startIndexMap := [0]
  indexVectorDim := 1
  sliceSizes := ![1, 128]
  wf := gather_S32768x128_S524288x1_S524288x128_1_0_n_n_0_1_1128_wf
def dot_S524288x288_S288x256_S524288x256_1_0_0_1_n_n : DotDims S524288x288 S288x256 S524288x256 where
  lhsContracting := [1]
  rhsContracting := [0]
  lhsNonContracting := [0]
  rhsNonContracting := [1]
  lhsBatch := []
  rhsBatch := []
  wf := dot_S524288x288_S288x256_S524288x256_1_0_0_1_n_n_wf
def dot_S524288x256_S256x128_S524288x128_1_0_0_1_n_n : DotDims S524288x256 S256x128 S524288x128 where
  lhsContracting := [1]
  rhsContracting := [0]
  lhsNonContracting := [0]
  rhsNonContracting := [1]
  lhsBatch := []
  rhsBatch := []
  wf := dot_S524288x256_S256x128_S524288x128_1_0_0_1_n_n_wf
def scatter_S32768x128_S524288x1_S524288x128_1_0_0_1 : ScatterDims S32768x128 S524288x1 S524288x128 where
  updateWindowDims := [1]
  insertedWindowDims := [0]
  scatterDimsToOperandDims := [0]
  indexVectorDim := 1
  wf := scatter_S32768x128_S524288x1_S524288x128_1_0_0_1_wf
def dot_S524288x256_S256x1_S524288x1_1_0_0_1_n_n : DotDims S524288x256 S256x1 S524288x1 where
  lhsContracting := [1]
  rhsContracting := [0]
  lhsNonContracting := [0]
  rhsNonContracting := [1]
  lhsBatch := []
  rhsBatch := []
  wf := dot_S524288x256_S256x1_S524288x1_1_0_0_1_n_n_wf
def gather_S32768x3_S524288x1_S524288x3_1_0_n_n_0_1_13 : GatherDims S32768x3 S524288x1 S524288x3 where
  offsetDims := [1]
  collapsedSliceDims := [0]
  operandBatchingDims := []
  startIndicesBatchingDims := []
  startIndexMap := [0]
  indexVectorDim := 1
  sliceSizes := ![1, 3]
  wf := gather_S32768x3_S524288x1_S524288x3_1_0_n_n_0_1_13_wf
def scatter_S32768x3_S524288x1_S524288x3_1_0_0_1 : ScatterDims S32768x3 S524288x1 S524288x3 where
  updateWindowDims := [1]
  insertedWindowDims := [0]
  scatterDimsToOperandDims := [0]
  indexVectorDim := 1
  wf := scatter_S32768x3_S524288x1_S524288x3_1_0_0_1_wf

class Facts : Prop extends Facts₀ where

variable [Facts]
-- ==== Proof.KAround.lean ====
/-
  The program around its one pallas_call: the host lines before the call build the gathered rows, the packed
  per-edge columns and the bias rows; the call runs the per-edge networks tile by tile; the host lines after it
  scatter-add the tiles' rows onto the nodes.  Here: what each buffer holds when the call is entered, that no line
  writes an argument, each window's tile at a grid point, and the frame's conclusion from a run of the call.
-/
import proofs.«423127_j66949950210598_1_alg».proof.Proof.Gen.Kernel.Launch
import proofs.«423127_j66949950210598_1_alg».proof.Proof.Gen.Kernel.Skeleton
import proofs.«423127_j66949950210598_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The host lines before and after the call -/

/-- The six stretches of host lines before the call. -/
abbrev pre : List (List (HloOp τ sig (Elt F))) := [hostOps0, hostOps0_1, hostOps0_2, hostOps0_3, hostOps0_4, hostOps0_5]

/-- Core `c`'s buffer contents when the call is entered: the launch contents after the host lines before it. -/
abbrev V0 (c : Dev nD) : Valuation τ sig (Elt F) := StableHlo.after (List.flatten (pre (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the call, the call, and the host lines after it: run up to the call it leaves
    the buffers at `V`, and what remains is the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) [hostOps1]
    (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩) main_chain

/-- The later lines touch only the call's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is none of the call's sixteen arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## No host line writes an argument -/

/-- The fifteen arguments of @main. -/
abbrev argRef : Fin 15 → Ref sig .tc
  | 0 => main_arg0 | 1 => main_arg1 | 2 => main_arg2 | 3 => main_arg3 | 4 => main_arg4 | 5 => main_arg5 | 6 => main_arg6
  | 7 => main_arg7 | 8 => main_arg8 | 9 => main_arg9 | 10 => main_arg10 | 11 => main_arg11 | 12 => main_arg12
  | 13 => main_arg13 | 14 => main_arg14

/-- No line before the call writes an argument (each writes its own result buffer): the call finds every argument as launched. -/
theorem V_arg (c : Dev nD) (k : Fin 15) : V m c (argRef k) = m ((c : Thread nD τ).loc (argRef k)) :=
  StableHlo.after_of_forall_not_mem (b := Proc.devRef .tc (argRef k)) _ _ (List.forall_iff_forall_mem.mp (by
    simp only [pre, hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals (fin_cases k <;> exact StableHlo.devRef_ne_of_ne (by decide))))

/-- Nor does a line after it: an argument no window stages ends as launched. -/
theorem W_arg (dats : (p : Fin _) → (c : Dev nD) → Dat τ (Elt F) Unit ℕ (UR sig nD τ) ℕ (cfgs p) c) (c : Dev nD) (k : Fin 15)
    (hk : ∀ w, Pipeline.arrRef spec0 w ≠ argRef k) :
    Pipeline.afterTail₀ cfgs dats 0 (V0 m) [hostOps1] c (argRef k) = m ((c : Thread nD τ).loc (argRef k)) := by
  unfold Pipeline.afterTail₀
  rw [StableHlo.after_of_forall_not_mem (b := Proc.devRef .tc (argRef k)) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals (fin_cases k <;> exact StableHlo.devRef_ne_of_ne (by decide)))),
    Pipeline.withArrays_of_ne _ c (V0 m c) _ (argRef k) hk]
  exact V_arg m c k

/-! ## The windows' tiles -/

/-- Window `w`'s tile at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its tile at every point, whether the pipeline fetched it there or
    left it in place (its index unmoved; the eleven weight and bias windows are fetched once), for any proof data
    whose array is the entry contents and whose body leaves the tile in place. One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame's conclusion from a run of the call -/

/-- For any proof data whose arrays are the entry contents, a run that ends with the call's arrays at what the proof
    data compute and every other buffer as the later lines leave it, ends with every argument as launched: a weight
    matrix the call stages is an input array (unchanged by the call, untouched after it); any other argument is a
    buffer neither the call nor a host line writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (W_arg m dats c 0 (by decide)),
      ((h c).2 main_arg1 (Pipeline.mem_restRefs_of main_arg1 (by decide) (by decide))).trans (W_arg m dats c 1 (by decide)),
      ((h c).2 main_arg2 (Pipeline.mem_restRefs_of main_arg2 (by decide) (by decide))).trans (W_arg m dats c 2 (by decide)),
      ((h c).2 main_arg3 (Pipeline.mem_restRefs_of main_arg3 (by decide) (by decide))).trans (W_arg m dats c 3 (by decide)),
      ((h c).1 3).trans (((dats 0 c).arrAt_in 3 rfl _).trans ((hA c 3).trans (V_arg m c 4))),
      ((h c).2 main_arg5 (Pipeline.mem_restRefs_of main_arg5 (by decide) (by decide))).trans (W_arg m dats c 5 (by decide)),
      ((h c).1 5).trans (((dats 0 c).arrAt_in 5 rfl _).trans ((hA c 5).trans (V_arg m c 6))),
      ((h c).2 main_arg7 (Pipeline.mem_restRefs_of main_arg7 (by decide) (by decide))).trans (W_arg m dats c 7 (by decide)),
      ((h c).1 7).trans (((dats 0 c).arrAt_in 7 rfl _).trans ((hA c 7).trans (V_arg m c 8))),
      ((h c).2 main_arg9 (Pipeline.mem_restRefs_of main_arg9 (by decide) (by decide))).trans (W_arg m dats c 9 (by decide)),
      ((h c).1 9).trans (((dats 0 c).arrAt_in 9 rfl _).trans ((hA c 9).trans (V_arg m c 10))),
      ((h c).2 main_arg11 (Pipeline.mem_restRefs_of main_arg11 (by decide) (by decide))).trans (W_arg m dats c 11 (by decide)),
      ((h c).1 11).trans (((dats 0 c).arrAt_in 11 rfl _).trans ((hA c 11).trans (V_arg m c 12))),
      ((h c).2 main_arg13 (Pipeline.mem_restRefs_of main_arg13 (by decide) (by decide))).trans (W_arg m dats c 13 (by decide)),
      ((h c).1 13).trans (((dats 0 c).arrAt_in 13 rfl _).trans ((hA c 13).trans (V_arg m c 14)))⟩) h

end Cert.Kernel.Around

end
-- ==== Proof.KBody.lean ====
/-
  The per-edge networks, one tile of 2048 edges per grid point: what the call's body leaves in its two output
  buffers as a function of the fourteen input tiles, the body's run, the proof data of the pipeline, and the run of
  the whole program with the call's arrays and the later host lines' buffers named.
-/
import proofs.«423127_j66949950210598_1_alg».proof.Proof.KAround

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and store is of a whole buffer -/

abbrev whole_S2048x128 : Rect S2048x128 := Rect.unit (s := S2048x128) ![0, 0] S2048x128.size inb_S2048x128_S2048x128_0_0
abbrev whole_S2048x7 : Rect S2048x7 := Rect.unit (s := S2048x7) ![0, 0] S2048x7.size inb_S2048x7_S2048x7_0_0
abbrev whole_S1x32 : Rect S1x32 := Rect.unit (s := S1x32) ![0, 0] S1x32.size inb_S1x32_S1x32_0_0
abbrev whole_S32x32 : Rect S32x32 := Rect.unit (s := S32x32) ![0, 0] S32x32.size inb_S32x32_S32x32_0_0
abbrev whole_S288x256 : Rect S288x256 := Rect.unit (s := S288x256) ![0, 0] S288x256.size inb_S288x256_S288x256_0_0
abbrev whole_S1x256 : Rect S1x256 := Rect.unit (s := S1x256) ![0, 0] S1x256.size inb_S1x256_S1x256_0_0
abbrev whole_S256x128 : Rect S256x128 := Rect.unit (s := S256x128) ![0, 0] S256x128.size inb_S256x128_S256x128_0_0
abbrev whole_S1x128 : Rect S1x128 := Rect.unit (s := S1x128) ![0, 0] S1x128.size inb_S1x128_S1x128_0_0
abbrev whole_S256x1 : Rect S256x1 := Rect.unit (s := S256x1) ![0, 0] S256x1.size inb_S256x1_S256x1_0_0
abbrev whole_S2048x3 : Rect S2048x3 := Rect.unit (s := S2048x3) ![0, 0] S2048x3.size inb_S2048x3_S2048x3_0_0

/-! ## What the body leaves in the two output buffers -/

/-- The message tile: the node network's output rows for the tile's 2048 edges, from the input tiles. -/
def out0_14 (x0 : Vec F S2048x128 .f32) (x1 : Vec F S2048x128 .f32) (x2 : Vec F S2048x7 .f32) (x3 : Vec F S1x32 .f32) (x4 : Vec F S1x32 .f32) (x5 : Vec F S32x32 .f32) (x6 : Vec F S1x32 .f32) (x7 : Vec F S288x256 .f32) (x8 : Vec F S1x256 .f32) (x9 : Vec F S256x128 .f32) (x10 : Vec F S1x128 .f32) (x11 : Vec F S288x256 .f32) (x12 : Vec F S1x256 .f32) (x13 : Vec F S256x1 .f32) : Vec F S2048x128 .f32 :=
  View.canon [⟨whole_S2048x128, k0_pay2 (k0_pay4 (View.ld x0 whole_S2048x128)) (k0_pay5 (View.ld x1 whole_S2048x128)) (View.ld x5 whole_S32x32) (k0_pay9 (View.ld x6 whole_S1x32)) (View.ld x7 whole_S288x256) (k0_pay10 (View.ld x8 whole_S1x256)) (View.ld x9 whole_S256x128) (k0_pay11 (View.ld x10 whole_S1x128)) (k0_pay13 (View.ld x2 whole_S2048x7) (View.ld x3 whole_S1x32) (View.ld x4 whole_S1x32))⟩]

/-- The coordinate-update tile: the coordinate network's weight times the normalised direction, per edge. -/
def out0_15 (x0 : Vec F S2048x128 .f32) (x1 : Vec F S2048x128 .f32) (x2 : Vec F S2048x7 .f32) (x3 : Vec F S1x32 .f32) (x4 : Vec F S1x32 .f32) (x5 : Vec F S32x32 .f32) (x6 : Vec F S1x32 .f32) (x7 : Vec F S288x256 .f32) (x8 : Vec F S1x256 .f32) (x9 : Vec F S256x128 .f32) (x10 : Vec F S1x128 .f32) (x11 : Vec F S288x256 .f32) (x12 : Vec F S1x256 .f32) (x13 : Vec F S256x1 .f32) : Vec F S2048x3 .f32 :=
  View.canon [⟨whole_S2048x3, k0_pay3 (k0_pay4 (View.ld x0 whole_S2048x128)) (k0_pay5 (View.ld x1 whole_S2048x128)) (k0_pay7 (View.ld x2 whole_S2048x7)) (k0_pay8 (View.ld x2 whole_S2048x7)) (View.ld x5 whole_S32x32) (k0_pay9 (View.ld x6 whole_S1x32)) (View.ld x11 whole_S288x256) (k0_pay12 (View.ld x12 whole_S1x256)) (View.ld x13 whole_S256x1) (k0_pay13 (View.ld x2 whole_S2048x7) (View.ld x3 whole_S1x32) (View.ld x4 whole_S1x32))⟩]

/-- The one store into each output buffer covers it. -/
theorem cover0_14 (p0 : Vec F S2048x128 .f32) (y : S2048x128.Idx) :
    ∃ pc ∈ ([⟨whole_S2048x128, p0⟩] : List (View.Piece (Elt F) S2048x128 .f32)), y ∈ pc.1.set :=
  View.cover_of_tiled [⟨whole_S2048x128, p0⟩] S2048x128.size (by rfl) y
theorem cover0_15 (p0 : Vec F S2048x3 .f32) (y : S2048x3.Idx) :
    ∃ pc ∈ ([⟨whole_S2048x3, p0⟩] : List (View.Piece (Elt F) S2048x3 .f32)), y ∈ pc.1.set :=
  View.cover_of_tiled [⟨whole_S2048x3, p0⟩] S2048x3.size (by rfl) y

/-! ## The body's run -/

set_option maxHeartbeats 4000000 in
/-- On whole staging buffers, the inputs' at their contents and the outputs' at anything, the body runs to the end
    with the inputs' as they were and each output's at its tile: the printed body is its sequence of loads, pure
    payloads and stores, which the symbolic executor runs. -/
theorem sound_kernel (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S2048x7 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S288x256 .f32) (harg8 : arg8.IsWhole) (arg9 : Memref sig .tc .vmem S1x256 .f32) (harg9 : arg9.IsWhole) (arg10 : Memref sig .tc .vmem S256x128 .f32) (harg10 : arg10.IsWhole) (arg11 : Memref sig .tc .vmem S1x128 .f32) (harg11 : arg11.IsWhole) (arg12 : Memref sig .tc .vmem S288x256 .f32) (harg12 : arg12.IsWhole) (arg13 : Memref sig .tc .vmem S1x256 .f32) (harg13 : arg13.IsWhole) (arg14 : Memref sig .tc .vmem S256x1 .f32) (harg14 : arg14.IsWhole) (arg15 : Memref sig .tc .vmem S2048x128 .f32) (harg15 : arg15.IsWhole) (arg16 : Memref sig .tc .vmem S2048x3 .f32) (harg16 : arg16.IsWhole)
    (x0 : Vec F S2048x128 .f32) (x1 : Vec F S2048x128 .f32) (x2 : Vec F S2048x7 .f32) (x3 : Vec F S1x32 .f32) (x4 : Vec F S1x32 .f32) (x5 : Vec F S32x32 .f32) (x6 : Vec F S1x32 .f32) (x7 : Vec F S288x256 .f32) (x8 : Vec F S1x256 .f32) (x9 : Vec F S256x128 .f32) (x10 : Vec F S1x128 .f32) (x11 : Vec F S288x256 .f32) (x12 : Vec F S1x256 .f32) (x13 : Vec F S256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out0_14 x0 x1 x2 x3 x4 x5 x6 x7 x8 x9 x10 x11 x12 x13) ∗ owns (c : Thread nD τ) arg16 fullShare (out0_15 x0 x1 x2 x3 x4 x5 x6 x7 x8 x9 x10 x11 x12 x13)) -∗ K ⟨⟩))
      ⊢ wp frame (wpE (defs₀ (F := F)) Variants.none c none) E (cc0__message_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__message_kernel_eq_skeleton]; unfold cc0__message_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0
  subst hf1
  subst hf2
  subst hf3
  subst hf4
  subst hf5
  subst hf6
  subst hf7
  subst hf8
  subst hf9
  subst hf10
  subst hf11
  subst hf12
  subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact View.read_writes_eq_canon _ _ _ (cover0_14 _)
  iexists _; isplitr
  swap; · iexact H15
  ipureintro
  exact View.read_writes_eq_canon _ _ _ (cover0_15 _)

end Cert.Kernel.Around

end
-- ==== Proof.KRun.lean ====
/-
  The pipeline's proof data and the run of the whole program: after the body at grid point t every input buffer
  still holds its tile and the two output buffers hold the message tile and the coordinate-update tile of the
  input tiles at t; the run ends with the call's arrays at what the write-backs leave and every other buffer as the
  later host lines leave it.
-/
import proofs.«423127_j66949950210598_1_alg».proof.Proof.KBody

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The arrays as the call finds them; after the body at point `t` each input's buffer at its tile and each
    output's at its tile of the input tiles; the scoped rest untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

/-- The body at any point: the inputs' buffers hold their tiles, so the body's run applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has each of the call's arrays at what the proof data compute and every other unscoped buffer as the later lines
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and leaves its fifteen arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Around

end
-- ==== Proof.KIAround.lean ====
/-
  The program around its one pallas_call: the host lines before the call build the gathered rows, the packed
  per-edge columns and the bias rows; the call runs the per-edge networks tile by tile; the host lines after it
  scatter-add the tiles' rows onto the nodes.  Here: what each buffer holds when the call is entered, that no line
  writes an argument, each window's tile at a grid point, and the frame's conclusion from a run of the call.
-/
import proofs.«423127_j66949950210598_1_alg».proof.Proof.Gen.KernelIdeal.Launch
import proofs.«423127_j66949950210598_1_alg».proof.Proof.Gen.KernelIdeal.Skeleton
import proofs.«423127_j66949950210598_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The host lines before and after the call -/

/-- The six stretches of host lines before the call. -/
abbrev pre : List (List (HloOp τ sig (Elt F))) := [hostOps0, hostOps0_1, hostOps0_2, hostOps0_3, hostOps0_4, hostOps0_5]

/-- Core `c`'s buffer contents when the call is entered: the launch contents after the host lines before it. -/
abbrev V0 (c : Dev nD) : Valuation τ sig (Elt F) := StableHlo.after (List.flatten (pre (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the call, the call, and the host lines after it: run up to the call it leaves
    the buffers at `V`, and what remains is the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) [hostOps1]
    (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩) main_chain

/-- The later lines touch only the call's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is none of the call's sixteen arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## No host line writes an argument -/

/-- The fifteen arguments of @main. -/
abbrev argRef : Fin 15 → Ref sig .tc
  | 0 => main_arg0 | 1 => main_arg1 | 2 => main_arg2 | 3 => main_arg3 | 4 => main_arg4 | 5 => main_arg5 | 6 => main_arg6
  | 7 => main_arg7 | 8 => main_arg8 | 9 => main_arg9 | 10 => main_arg10 | 11 => main_arg11 | 12 => main_arg12
  | 13 => main_arg13 | 14 => main_arg14

/-- No line before the call writes an argument (each writes its own result buffer): the call finds every argument as launched. -/
theorem V_arg (c : Dev nD) (k : Fin 15) : V m c (argRef k) = m ((c : Thread nD τ).loc (argRef k)) :=
  StableHlo.after_of_forall_not_mem (b := Proc.devRef .tc (argRef k)) _ _ (List.forall_iff_forall_mem.mp (by
    simp only [pre, hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals (fin_cases k <;> exact StableHlo.devRef_ne_of_ne (by decide))))

/-- Nor does a line after it: an argument no window stages ends as launched. -/
theorem W_arg (dats : (p : Fin _) → (c : Dev nD) → Dat τ (Elt F) Unit ℕ (UR sig nD τ) ℕ (cfgs p) c) (c : Dev nD) (k : Fin 15)
    (hk : ∀ w, Pipeline.arrRef spec0 w ≠ argRef k) :
    Pipeline.afterTail₀ cfgs dats 0 (V0 m) [hostOps1] c (argRef k) = m ((c : Thread nD τ).loc (argRef k)) := by
  unfold Pipeline.afterTail₀
  rw [StableHlo.after_of_forall_not_mem (b := Proc.devRef .tc (argRef k)) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals (fin_cases k <;> exact StableHlo.devRef_ne_of_ne (by decide)))),
    Pipeline.withArrays_of_ne _ c (V0 m c) _ (argRef k) hk]
  exact V_arg m c k

/-! ## The windows' tiles -/

/-- Window `w`'s tile at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its tile at every point, whether the pipeline fetched it there or
    left it in place (its index unmoved; the eleven weight and bias windows are fetched once), for any proof data
    whose array is the entry contents and whose body leaves the tile in place. One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame's conclusion from a run of the call -/

/-- For any proof data whose arrays are the entry contents, a run that ends with the call's arrays at what the proof
    data compute and every other buffer as the later lines leave it, ends with every argument as launched: a weight
    matrix the call stages is an input array (unchanged by the call, untouched after it); any other argument is a
    buffer neither the call nor a host line writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_arg0 (Pipeline.mem_restRefs_of main_arg0 (by decide) (by decide))).trans (W_arg m dats c 0 (by decide)),
      ((h c).2 main_arg1 (Pipeline.mem_restRefs_of main_arg1 (by decide) (by decide))).trans (W_arg m dats c 1 (by decide)),
      ((h c).2 main_arg2 (Pipeline.mem_restRefs_of main_arg2 (by decide) (by decide))).trans (W_arg m dats c 2 (by decide)),
      ((h c).2 main_arg3 (Pipeline.mem_restRefs_of main_arg3 (by decide) (by decide))).trans (W_arg m dats c 3 (by decide)),
      ((h c).1 3).trans (((dats 0 c).arrAt_in 3 rfl _).trans ((hA c 3).trans (V_arg m c 4))),
      ((h c).2 main_arg5 (Pipeline.mem_restRefs_of main_arg5 (by decide) (by decide))).trans (W_arg m dats c 5 (by decide)),
      ((h c).1 5).trans (((dats 0 c).arrAt_in 5 rfl _).trans ((hA c 5).trans (V_arg m c 6))),
      ((h c).2 main_arg7 (Pipeline.mem_restRefs_of main_arg7 (by decide) (by decide))).trans (W_arg m dats c 7 (by decide)),
      ((h c).1 7).trans (((dats 0 c).arrAt_in 7 rfl _).trans ((hA c 7).trans (V_arg m c 8))),
      ((h c).2 main_arg9 (Pipeline.mem_restRefs_of main_arg9 (by decide) (by decide))).trans (W_arg m dats c 9 (by decide)),
      ((h c).1 9).trans (((dats 0 c).arrAt_in 9 rfl _).trans ((hA c 9).trans (V_arg m c 10))),
      ((h c).2 main_arg11 (Pipeline.mem_restRefs_of main_arg11 (by decide) (by decide))).trans (W_arg m dats c 11 (by decide)),
      ((h c).1 11).trans (((dats 0 c).arrAt_in 11 rfl _).trans ((hA c 11).trans (V_arg m c 12))),
      ((h c).2 main_arg13 (Pipeline.mem_restRefs_of main_arg13 (by decide) (by decide))).trans (W_arg m dats c 13 (by decide)),
      ((h c).1 13).trans (((dats 0 c).arrAt_in 13 rfl _).trans ((hA c 13).trans (V_arg m c 14)))⟩) h

end Cert.KernelIdeal.Around

end
-- ==== Proof.KIBody.lean ====
/-
  The per-edge networks, one tile of 2048 edges per grid point: what the call's body leaves in its two output
  buffers as a function of the fourteen input tiles, the body's run, the proof data of the pipeline, and the run of
  the whole program with the call's arrays and the later host lines' buffers named.
-/
import proofs.«423127_j66949950210598_1_alg».proof.Proof.KIAround

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and store is of a whole buffer -/

abbrev whole_S2048x128 : Rect S2048x128 := Rect.unit (s := S2048x128) ![0, 0] S2048x128.size inb_S2048x128_S2048x128_0_0
abbrev whole_S2048x7 : Rect S2048x7 := Rect.unit (s := S2048x7) ![0, 0] S2048x7.size inb_S2048x7_S2048x7_0_0
abbrev whole_S1x32 : Rect S1x32 := Rect.unit (s := S1x32) ![0, 0] S1x32.size inb_S1x32_S1x32_0_0
abbrev whole_S32x32 : Rect S32x32 := Rect.unit (s := S32x32) ![0, 0] S32x32.size inb_S32x32_S32x32_0_0
abbrev whole_S288x256 : Rect S288x256 := Rect.unit (s := S288x256) ![0, 0] S288x256.size inb_S288x256_S288x256_0_0
abbrev whole_S1x256 : Rect S1x256 := Rect.unit (s := S1x256) ![0, 0] S1x256.size inb_S1x256_S1x256_0_0
abbrev whole_S256x128 : Rect S256x128 := Rect.unit (s := S256x128) ![0, 0] S256x128.size inb_S256x128_S256x128_0_0
abbrev whole_S1x128 : Rect S1x128 := Rect.unit (s := S1x128) ![0, 0] S1x128.size inb_S1x128_S1x128_0_0
abbrev whole_S256x1 : Rect S256x1 := Rect.unit (s := S256x1) ![0, 0] S256x1.size inb_S256x1_S256x1_0_0
abbrev whole_S2048x3 : Rect S2048x3 := Rect.unit (s := S2048x3) ![0, 0] S2048x3.size inb_S2048x3_S2048x3_0_0

/-! ## What the body leaves in the two output buffers -/

/-- The message tile: the node network's output rows for the tile's 2048 edges, from the input tiles. -/
def out0_14 (x0 : Vec F S2048x128 .f32) (x1 : Vec F S2048x128 .f32) (x2 : Vec F S2048x7 .f32) (x3 : Vec F S1x32 .f32) (x4 : Vec F S1x32 .f32) (x5 : Vec F S32x32 .f32) (x6 : Vec F S1x32 .f32) (x7 : Vec F S288x256 .f32) (x8 : Vec F S1x256 .f32) (x9 : Vec F S256x128 .f32) (x10 : Vec F S1x128 .f32) (x11 : Vec F S288x256 .f32) (x12 : Vec F S1x256 .f32) (x13 : Vec F S256x1 .f32) : Vec F S2048x128 .f32 :=
  View.canon [⟨whole_S2048x128, k0_pay2 (k0_pay4 (View.ld x0 whole_S2048x128)) (k0_pay5 (View.ld x1 whole_S2048x128)) (View.ld x5 whole_S32x32) (k0_pay9 (View.ld x6 whole_S1x32)) (View.ld x7 whole_S288x256) (k0_pay10 (View.ld x8 whole_S1x256)) (View.ld x9 whole_S256x128) (k0_pay11 (View.ld x10 whole_S1x128)) (k0_pay13 (View.ld x2 whole_S2048x7) (View.ld x3 whole_S1x32) (View.ld x4 whole_S1x32))⟩]

/-- The coordinate-update tile: the coordinate network's weight times the normalised direction, per edge. -/
def out0_15 (x0 : Vec F S2048x128 .f32) (x1 : Vec F S2048x128 .f32) (x2 : Vec F S2048x7 .f32) (x3 : Vec F S1x32 .f32) (x4 : Vec F S1x32 .f32) (x5 : Vec F S32x32 .f32) (x6 : Vec F S1x32 .f32) (x7 : Vec F S288x256 .f32) (x8 : Vec F S1x256 .f32) (x9 : Vec F S256x128 .f32) (x10 : Vec F S1x128 .f32) (x11 : Vec F S288x256 .f32) (x12 : Vec F S1x256 .f32) (x13 : Vec F S256x1 .f32) : Vec F S2048x3 .f32 :=
  View.canon [⟨whole_S2048x3, k0_pay3 (k0_pay4 (View.ld x0 whole_S2048x128)) (k0_pay5 (View.ld x1 whole_S2048x128)) (k0_pay7 (View.ld x2 whole_S2048x7)) (k0_pay8 (View.ld x2 whole_S2048x7)) (View.ld x5 whole_S32x32) (k0_pay9 (View.ld x6 whole_S1x32)) (View.ld x11 whole_S288x256) (k0_pay12 (View.ld x12 whole_S1x256)) (View.ld x13 whole_S256x1) (k0_pay13 (View.ld x2 whole_S2048x7) (View.ld x3 whole_S1x32) (View.ld x4 whole_S1x32))⟩]

/-- The one store into each output buffer covers it. -/
theorem cover0_14 (p0 : Vec F S2048x128 .f32) (y : S2048x128.Idx) :
    ∃ pc ∈ ([⟨whole_S2048x128, p0⟩] : List (View.Piece (Elt F) S2048x128 .f32)), y ∈ pc.1.set :=
  View.cover_of_tiled [⟨whole_S2048x128, p0⟩] S2048x128.size (by rfl) y
theorem cover0_15 (p0 : Vec F S2048x3 .f32) (y : S2048x3.Idx) :
    ∃ pc ∈ ([⟨whole_S2048x3, p0⟩] : List (View.Piece (Elt F) S2048x3 .f32)), y ∈ pc.1.set :=
  View.cover_of_tiled [⟨whole_S2048x3, p0⟩] S2048x3.size (by rfl) y

/-! ## The body's run -/

set_option maxHeartbeats 4000000 in
/-- On whole staging buffers, the inputs' at their contents and the outputs' at anything, the body runs to the end
    with the inputs' as they were and each output's at its tile: the printed body is its sequence of loads, pure
    payloads and stores, which the symbolic executor runs. -/
theorem sound_kernel (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S2048x7 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S1x32 .f32) (harg7 : arg7.IsWhole) (arg8 : Memref sig .tc .vmem S288x256 .f32) (harg8 : arg8.IsWhole) (arg9 : Memref sig .tc .vmem S1x256 .f32) (harg9 : arg9.IsWhole) (arg10 : Memref sig .tc .vmem S256x128 .f32) (harg10 : arg10.IsWhole) (arg11 : Memref sig .tc .vmem S1x128 .f32) (harg11 : arg11.IsWhole) (arg12 : Memref sig .tc .vmem S288x256 .f32) (harg12 : arg12.IsWhole) (arg13 : Memref sig .tc .vmem S1x256 .f32) (harg13 : arg13.IsWhole) (arg14 : Memref sig .tc .vmem S256x1 .f32) (harg14 : arg14.IsWhole) (arg15 : Memref sig .tc .vmem S2048x128 .f32) (harg15 : arg15.IsWhole) (arg16 : Memref sig .tc .vmem S2048x3 .f32) (harg16 : arg16.IsWhole)
    (x0 : Vec F S2048x128 .f32) (x1 : Vec F S2048x128 .f32) (x2 : Vec F S2048x7 .f32) (x3 : Vec F S1x32 .f32) (x4 : Vec F S1x32 .f32) (x5 : Vec F S32x32 .f32) (x6 : Vec F S1x32 .f32) (x7 : Vec F S288x256 .f32) (x8 : Vec F S1x256 .f32) (x9 : Vec F S256x128 .f32) (x10 : Vec F S1x128 .f32) (x11 : Vec F S288x256 .f32) (x12 : Vec F S1x256 .f32) (x13 : Vec F S256x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out0_14 x0 x1 x2 x3 x4 x5 x6 x7 x8 x9 x10 x11 x12 x13) ∗ owns (c : Thread nD τ) arg16 fullShare (out0_15 x0 x1 x2 x3 x4 x5 x6 x7 x8 x9 x10 x11 x12 x13)) -∗ K ⟨⟩))
      ⊢ wp frame (wpE (defs₀ (F := F)) Variants.none c none) E (cc0__message_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__message_kernel_eq_skeleton]; unfold cc0__message_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0
  subst hf1
  subst hf2
  subst hf3
  subst hf4
  subst hf5
  subst hf6
  subst hf7
  subst hf8
  subst hf9
  subst hf10
  subst hf11
  subst hf12
  subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact View.read_writes_eq_canon _ _ _ (cover0_14 _)
  iexists _; isplitr
  swap; · iexact H15
  ipureintro
  exact View.read_writes_eq_canon _ _ _ (cover0_15 _)

end Cert.KernelIdeal.Around

end
-- ==== Proof.KIRun.lean ====
/-
  The pipeline's proof data and the run of the whole program: after the body at grid point t every input buffer
  still holds its tile and the two output buffers hold the message tile and the coordinate-update tile of the
  input tiles at t; the run ends with the call's arrays at what the write-backs leave and every other buffer as the
  later host lines leave it.
-/
import proofs.«423127_j66949950210598_1_alg».proof.Proof.KIBody

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The arrays as the call finds them; after the body at point `t` each input's buffer at its tile and each
    output's at its tile of the input tiles; the scoped rest untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

/-- The body at any point: the inputs' buffers hold their tiles, so the body's run applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state
    has each of the call's arrays at what the proof data compute and every other unscoped buffer as the later lines
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and leaves its fifteen arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Around

end
-- ==== Proof.EdgeRow.lean ====
/-
  One edge of the message-passing step, as plain functions over the extended reals.

  An edge carries a distance d, the two endpoint feature rows hs, hd (128 entries each) and the two endpoint
  positions xs, xd (3 entries each).  With silu x = x * logistic x:

    attr  k = (sum over k' of silu (d * We1 k' + be1 k') * We2 k' k) + be2 k              (32 entries)
    inp     = hs, then hd, then attr, laid end to end                                         (288 entries)
    msg   j = (sum over k of silu ((sum over i of inp i * Wn1 i k) + bn1 k) * Wn2 k j) + bn2 j   (128 entries)
    cw      =  sum over k of silu ((sum over i of inp i * Wc1 i k) + bc1 k) * Wc2 k
    upd   i = cw * ((xs i - xd i) / max (sqrt (sum over i' of (xs i' - xd i')^2)) eps)          (3 entries)

  Sums over a one-element index (the contraction of a column with a row, the single output column of the last
  product) are kept as sums, and the sum of squares starts from the zero word, so that both programs' terms are
  this one term with no rearranging.
-/
import Idealize.ShloMosaic.PureOps.Ideal.Laws
import Idealize.ShloMosaic.Lib.ValueIdx

noncomputable section

namespace Cert.Edge

open Idealize.ShloMosaic Idealize.ShloMosaic.ValueIdx

/-- The weights and biases of the three small networks, as functions of plain indices. -/
structure Weights where
  We1 : Fin 1 → Fin 32 → EReal
  be1 : Fin 32 → EReal
  We2 : Fin 32 → Fin 32 → EReal
  be2 : Fin 32 → EReal
  Wn1 : Fin 288 → Fin 256 → EReal
  bn1 : Fin 256 → EReal
  Wn2 : Fin 256 → Fin 128 → EReal
  bn2 : Fin 128 → EReal
  Wc1 : Fin 288 → Fin 256 → EReal
  bc1 : Fin 256 → EReal
  Wc2 : Fin 256 → Fin 1 → EReal

/-- x * logistic x. -/
def silu (x : EReal) : EReal := x * Ideal.logistic x

/-- The edge network's first layer before its activation: the distance times the weight row, plus the bias. -/
def attrPre (W : Weights) (d : Fin 1 → EReal) (k : Fin 32) : EReal := (∑ z : Fin 1, d z * W.We1 z k) + W.be1 k

/-- The edge attribute: the second layer over the activated first. -/
def attr (W : Weights) (d : Fin 1 → EReal) (k : Fin 32) : EReal :=
  (∑ k' : Fin 32, silu (attrPre W d k') * W.We2 k' k) + W.be2 k

/-- The two feature rows and the edge attribute laid end to end: entries 0–127, 128–255, 256–287. -/
def inp (hs hd : Fin 128 → EReal) (ea : Fin 32 → EReal) (i : Fin 288) : EReal :=
  if h : i.val < 128 then hs ⟨i.val, h⟩
  else if h' : i.val < 256 then hd ⟨i.val - 128, by omega⟩
  else ea ⟨i.val - 256, by have := i.isLt; omega⟩

/-- A hidden layer of width 256 over the 288 inputs, activated. -/
def hidden (W1 : Fin 288 → Fin 256 → EReal) (b1 : Fin 256 → EReal) (x : Fin 288 → EReal) (k : Fin 256) : EReal :=
  silu ((∑ i : Fin 288, x i * W1 i k) + b1 k)

/-- The message row of an edge. -/
def msg (W : Weights) (d : Fin 1 → EReal) (hs hd : Fin 128 → EReal) (j : Fin 128) : EReal :=
  (∑ k : Fin 256, hidden W.Wn1 W.bn1 (inp hs hd (attr W d)) k * W.Wn2 k j) + W.bn2 j

/-- The coordinate weight of an edge (a one-entry row). -/
def coordWeight (W : Weights) (d : Fin 1 → EReal) (hs hd : Fin 128 → EReal) (z : Fin 1) : EReal :=
  ∑ k : Fin 256, hidden W.Wc1 W.bc1 (inp hs hd (attr W d)) k * W.Wc2 k z

/-- The length of the direction, floored at the small constant `eps` (both programs carry the same word for it). -/
def dirLen (eps : EReal) (xs xd : Fin 3 → EReal) : EReal :=
  max (Ideal.sqrt (Ideal.ofBits .f32 0x00000000#32 + ∑ i : Fin 3, (xs i - xd i) * (xs i - xd i))) eps

/-- The coordinate update of an edge. -/
def upd (W : Weights) (eps : EReal) (d : Fin 1 → EReal) (hs hd : Fin 128 → EReal) (xs xd : Fin 3 → EReal) (i : Fin 3) : EReal :=
  coordWeight W d hs hd 0 * Ideal.div (xs i - xd i) (dirLen eps xs xd)

/-- The word 1.0 is the number one. -/
theorem one_f32 : Ideal.ofBits .f32 0x3F800000#32 = 1 := IdealRules.sign_bit.ideal_onePat .f32

/-- jax spells the logistic as 1 / (1 + e^(-x)) over the word 1.0: the same function. -/
theorem logistic_spelt (x : EReal) :
    Ideal.div (Ideal.ofBits .f32 0x3F800000#32) (Ideal.ofBits .f32 0x3F800000#32 + Ideal.exp (-x)) = Ideal.logistic x := by
  rw [one_f32]; rfl

/-! ## The same, edge by edge over whole arrays -/

/-- The weights as the programs hold them when the networks run: matrices as they are, each bias as a one-row matrix. -/
def Weights.ofRows (a4 : (⟨2, ![1, 32]⟩ : Shape).Idx → EReal) (r5 : (⟨2, ![1, 32]⟩ : Shape).Idx → EReal)
    (a6 : (⟨2, ![32, 32]⟩ : Shape).Idx → EReal) (r7 : (⟨2, ![1, 32]⟩ : Shape).Idx → EReal)
    (a8 : (⟨2, ![288, 256]⟩ : Shape).Idx → EReal) (r9 : (⟨2, ![1, 256]⟩ : Shape).Idx → EReal)
    (a10 : (⟨2, ![256, 128]⟩ : Shape).Idx → EReal) (r11 : (⟨2, ![1, 128]⟩ : Shape).Idx → EReal)
    (a12 : (⟨2, ![288, 256]⟩ : Shape).Idx → EReal) (r13 : (⟨2, ![1, 256]⟩ : Shape).Idx → EReal)
    (a14 : (⟨2, ![256, 1]⟩ : Shape).Idx → EReal) : Weights where
  We1 z k := a4 (ix2 z k)
  be1 k := r5 (ix2 0 k)
  We2 k' k := a6 (ix2 k' k)
  be2 k := r7 (ix2 0 k)
  Wn1 i k := a8 (ix2 i k)
  bn1 k := r9 (ix2 0 k)
  Wn2 k j := a10 (ix2 k j)
  bn2 j := r11 (ix2 0 j)
  Wc1 i k := a12 (ix2 i k)
  bc1 k := r13 (ix2 0 k)
  Wc2 k z := a14 (ix2 k z)

/-- Row `e` of an array of `n` rows and `w` columns. -/
def rowOf {n w : Nat} (A : (⟨2, ![n, w]⟩ : Shape).Idx → EReal) (e : Fin n) : Fin w → EReal := fun j => A (ix2 e j)

/-- The message array: row `e` is the message of edge `e`, from the distance column `D1` and the gathered
    endpoint feature rows `HS`, `HD`. -/
def msgArr (E : Nat) (W : Weights) (D1 : (⟨2, ![E, 1]⟩ : Shape).Idx → EReal)
    (HS HD : (⟨2, ![E, 128]⟩ : Shape).Idx → EReal) : (⟨2, ![E, 128]⟩ : Shape).Idx → EReal :=
  fun i => msg W (rowOf D1 ⟨(i 0).val, (i 0).isLt⟩) (rowOf HS ⟨(i 0).val, (i 0).isLt⟩) (rowOf HD ⟨(i 0).val, (i 0).isLt⟩) ⟨(i 1).val, (i 1).isLt⟩

/-- The coordinate-update array: row `e` is the update of edge `e`, also from the gathered endpoint positions `XS`, `XD`. -/
def updArr (E : Nat) (W : Weights) (eps : EReal) (D1 : (⟨2, ![E, 1]⟩ : Shape).Idx → EReal)
    (HS HD : (⟨2, ![E, 128]⟩ : Shape).Idx → EReal) (XS XD : (⟨2, ![E, 3]⟩ : Shape).Idx → EReal) :
    (⟨2, ![E, 3]⟩ : Shape).Idx → EReal :=
  fun i => upd W eps (rowOf D1 ⟨(i 0).val, (i 0).isLt⟩) (rowOf HS ⟨(i 0).val, (i 0).isLt⟩) (rowOf HD ⟨(i 0).val, (i 0).isLt⟩)
    (rowOf XS ⟨(i 0).val, (i 0).isLt⟩) (rowOf XD ⟨(i 0).val, (i 0).isLt⟩) ⟨(i 1).val, (i 1).isLt⟩

theorem msgArr_apply (E : Nat) (W : Weights) (D1 : (⟨2, ![E, 1]⟩ : Shape).Idx → EReal)
    (HS HD : (⟨2, ![E, 128]⟩ : Shape).Idx → EReal) (e : Fin E) (j : Fin 128) :
    msgArr E W D1 HS HD (ix2 e j) = msg W (rowOf D1 e) (rowOf HS e) (rowOf HD e) j := rfl

theorem updArr_apply (E : Nat) (W : Weights) (eps : EReal) (D1 : (⟨2, ![E, 1]⟩ : Shape).Idx → EReal)
    (HS HD : (⟨2, ![E, 128]⟩ : Shape).Idx → EReal) (XS XD : (⟨2, ![E, 3]⟩ : Shape).Idx → EReal) (e : Fin E) (a : Fin 3) :
    updArr E W eps D1 HS HD XS XD (ix2 e a) = upd W eps (rowOf D1 e) (rowOf HS e) (rowOf HD e) (rowOf XS e) (rowOf XD e) a := rfl

/-- The small constant both programs floor the direction's length with. -/
def eps : EReal := Ideal.ofBits .f32 0x322BCC77#32

/-! ## The index precondition -/

/-- Every entry of the edge list is a node number: at least 0 and at most 32767, as signed words. -/
def InRange (a2 : (⟨2, ![2, 524288]⟩ : Shape).Idx → BitVec 32) : Prop :=
  ∀ i, IntOp.cmpi .sge (a2 i) 0#32 = 1#1 ∧ IntOp.cmpi .sle (a2 i) 32767#32 = 1#1

end Cert.Edge

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.KernelRows.lean ====
/-
  One row of a tile: the body's two stored values, read at row r of the tile, are the message and the coordinate
  update of the edge whose distance, feature rows and positions are row r of the three per-edge tiles.
-/
import proofs.«423127_j66949950210598_1_alg».proof.Proof.Gen.KernelIdeal.Skeleton
import proofs.«423127_j66949950210598_1_alg».proof.Proof.EdgeRow
import proofs.«423127_j66949950210598_1_alg».proof.Proof.LibMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Rows

open Cert.KernelIdeal Cert.KernelIdeal.Gen Idealize.ShloMosaic Idealize.ShloMosaic.ValueIdx

/-- Column z of the packed tile's row r is the distance (z = 0). -/
abbrev distOf (x2 : Vec Ideal S2048x7 .f32) (r : Fin 2048) : Fin 1 → EReal := fun z => x2 (ix2 r ⟨z.val, by have := z.isLt; omega⟩)
/-- Columns 1–3 are the source position. -/
abbrev srcPosOf (x2 : Vec Ideal S2048x7 .f32) (r : Fin 2048) : Fin 3 → EReal := fun a => x2 (ix2 r ⟨1 + a.val, by have := a.isLt; omega⟩)
/-- Columns 4–6 are the destination position. -/
abbrev dstPosOf (x2 : Vec Ideal S2048x7 .f32) (r : Fin 2048) : Fin 3 → EReal := fun a => x2 (ix2 r ⟨4 + a.val, by have := a.isLt; omega⟩)

/-! ## Single operations read at an index -/

/-- A one-row bias broadcast down the rows, read at (p, q), is the bias at (0, q). -/
theorem bias_apply {M N : Nat} (b : (⟨2, ![1, N]⟩ : Shape).Idx → EReal) (h : (⟨2, ![1, N]⟩ : Shape).Broadcasts ⟨2, ![M, N]⟩)
    (p : Fin M) (q : Fin N) : broadcastTo ⟨2, ![M, N]⟩ b h (ix2 p q) = b (ix2 0 q) := by
  refine broadcastTo_apply b h (ix2 p q) (ix2 0 q) fun a => ?_
  match a with
  | ⟨0, _⟩ => rfl
  | ⟨1, _⟩ =>
    show q.val = if N = 1 then 0 else q.val
    split
    · have := q.isLt; omega
    · rfl

/-- A one-column array broadcast along the rows, read at (p, q), is the column at (p, 0). -/
theorem col_apply {M N : Nat} (c : (⟨2, ![M, 1]⟩ : Shape).Idx → EReal) (h : (⟨2, ![M, 1]⟩ : Shape).Broadcasts ⟨2, ![M, N]⟩)
    (p : Fin M) (q : Fin N) : broadcastTo ⟨2, ![M, N]⟩ c h (ix2 p q) = c (ix2 p 0) := by
  refine broadcastTo_apply c h (ix2 p q) (ix2 p 0) fun a => ?_
  match a with
  | ⟨0, _⟩ =>
    show p.val = if M = 1 then 0 else p.val
    split
    · have := p.isLt; omega
    · rfl
  | ⟨1, _⟩ => rfl

/-- A product into the zero constant plus a broadcast bias, read at (p, q). -/
theorem dense_apply {M K N : Nat} (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) (b : FVec Ideal ⟨2, ![1, N]⟩ .f32)
    (hb : (⟨2, ![1, N]⟩ : Shape).Broadcasts ⟨2, ![M, N]⟩) (h1 h2 : FTy.bits .bf16 < FTy.bits .f32) (p : Fin M) (q : Fin N) :
    addf (matmul d none (truncf .bf16 x h1) (truncf .bf16 w h2) (constant ⟨2, ![M, N]⟩ .f32 0x00000000#32)) (broadcastTo ⟨2, ![M, N]⟩ b hb) (ix2 p q)
      = (∑ k : Fin K, x (ix2 p k) * w (ix2 k q)) + b (ix2 0 q) := by
  subst hd
  show FloatOps.matmul _ none _ _ _ (ix2 p q) + broadcastTo _ b hb (ix2 p q) = _
  rw [Cert.Matmul.matmul_plain_apply, bias_apply]
  rfl

/-- The same with no bias. -/
theorem product_apply {M K N : Nat} (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32)
    (h1 h2 : FTy.bits .bf16 < FTy.bits .f32) (p : Fin M) (q : Fin N) :
    matmul d none (truncf .bf16 x h1) (truncf .bf16 w h2) (constant ⟨2, ![M, N]⟩ .f32 0x00000000#32) (ix2 p q)
      = ∑ k : Fin K, x (ix2 p k) * w (ix2 k q) := by
  subst hd
  show FloatOps.matmul _ none _ _ _ (ix2 p q) = _
  rw [Cert.Matmul.matmul_plain_apply]
  rfl

/-- A block of columns of the packed tile, read at (r, c), is the tile at (r, offset + c). -/
theorem slice_apply {w : Nat} (o : Nat) (x : (⟨2, ![2048, 7]⟩ : Shape).Idx → EReal)
    (h : (⟨2, ![2048, 7]⟩ : Shape).Slices ![0, o] ⟨2, ![2048, w]⟩) (r : Fin 2048) (c : Fin w) (c' : Fin 7) (hc : c'.val = o + c.val) :
    extractStridedSlice ⟨2, ![2048, w]⟩ ![0, o] x h (ix2 r c) = x (ix2 r c') := by
  refine extractStridedSlice_apply ![0, o] x h (ix2 r c) (ix2 r c') fun a => ?_
  match a with
  | ⟨0, _⟩ => show r.val = 0 + r.val; omega
  | ⟨1, _⟩ => exact hc

/-! ## The intermediates of the body, read at row r -/

/-- The first layer of the edge network before its activation, at (r, k). -/
theorem attrPre_row (x2 : Vec Ideal S2048x7 .f32) (x3 x4 : Vec Ideal S1x32 .f32) (x5 : Vec Ideal S32x32 .f32)
    (x6 : Vec Ideal S1x32 .f32) (x7 : Vec Ideal S288x256 .f32) (x8 : Vec Ideal S1x256 .f32) (x9 : Vec Ideal S256x128 .f32) (x10 : Vec Ideal S1x128 .f32)
    (x11 : Vec Ideal S288x256 .f32) (x12 : Vec Ideal S1x256 .f32) (x13 : Vec Ideal S256x1 .f32) (r : Fin 2048) (k : Fin 32) :
    k0_pay13 (F := Ideal) x2 x3 x4 (ix2 r k)
      = Edge.attrPre (Edge.Weights.ofRows x3 x4 x5 x6 x7 x8 x9 x10 x11 x12 x13) (distOf x2 r) k := by
  unfold k0_pay13 k0_pay6
  refine (dense_apply _ rfl _ _ _ _ _ _ r k).trans ?_
  rw [shapeCast_self, shapeCast_self]
  unfold Edge.attrPre
  refine congrArg (· + _) (Finset.sum_congr rfl fun z _ => congrArg (· * _) ?_)
  exact slice_apply 0 x2 _ r z ⟨z.val, by have := z.isLt; omega⟩ (by show z.val = 0 + z.val; omega)

/-- The edge attribute, at (r, k): the second layer over the activated first. -/
theorem attr_row (x2 : Vec Ideal S2048x7 .f32) (x3 x4 : Vec Ideal S1x32 .f32) (x5 : Vec Ideal S32x32 .f32)
    (x6 : Vec Ideal S1x32 .f32) (x7 : Vec Ideal S288x256 .f32) (x8 : Vec Ideal S1x256 .f32) (x9 : Vec Ideal S256x128 .f32) (x10 : Vec Ideal S1x128 .f32)
    (x11 : Vec Ideal S288x256 .f32) (x12 : Vec Ideal S1x256 .f32) (x13 : Vec Ideal S256x1 .f32)
    (d : DotDims S2048x32 S32x32 S2048x32) (hd : d = DotDims.plain 2048 32 32) (hb : S1x32.Broadcasts S2048x32)
    (h1 h2 : FTy.bits .bf16 < FTy.bits .f32) (r : Fin 2048) (k : Fin 32) :
    addf (matmul d none (truncf .bf16 (mulf (k0_pay13 (F := Ideal) x2 x3 x4) (logistic (k0_pay13 (F := Ideal) x2 x3 x4))) h1) (truncf .bf16 x5 h2)
        (constant S2048x32 .f32 0x00000000#32)) (broadcastTo S2048x32 (k0_pay9 (F := Ideal) x6) hb) (ix2 r k)
      = Edge.attr (Edge.Weights.ofRows x3 x4 x5 x6 x7 x8 x9 x10 x11 x12 x13) (distOf x2 r) k := by
  refine (dense_apply d hd _ _ _ _ _ _ r k).trans ?_
  unfold k0_pay9 Edge.attr
  rw [shapeCast_self]
  refine congrArg (· + _) (Finset.sum_congr rfl fun k' _ => congrArg (· * _) ?_)
  show Edge.silu (k0_pay13 (F := Ideal) x2 x3 x4 (ix2 r k')) = _
  rw [attrPre_row x2 x3 x4 x5 x6 x7 x8 x9 x10 x11 x12 x13 r k']

/-- The concatenated row, at (r, i): the two feature rows and the edge attribute laid end to end. -/
theorem inp_row (x0 x1 : Vec Ideal S2048x128 .f32) (x2 : Vec Ideal S2048x7 .f32) (x3 x4 : Vec Ideal S1x32 .f32) (x5 : Vec Ideal S32x32 .f32)
    (x6 : Vec Ideal S1x32 .f32) (x7 : Vec Ideal S288x256 .f32) (x8 : Vec Ideal S1x256 .f32) (x9 : Vec Ideal S256x128 .f32) (x10 : Vec Ideal S1x128 .f32)
    (x11 : Vec Ideal S288x256 .f32) (x12 : Vec Ideal S1x256 .f32) (x13 : Vec Ideal S256x1 .f32) (r : Fin 2048) (i : Fin 288) :
    k0_pay1 (F := Ideal) (k0_pay4 x0) (k0_pay5 x1) x5 (k0_pay9 x6) (k0_pay13 x2 x3 x4) (ix2 r i)
      = Edge.inp (Edge.rowOf x0 r) (Edge.rowOf x1 r)
          (Edge.attr (Edge.Weights.ofRows x3 x4 x5 x6 x7 x8 x9 x10 x11 x12 x13) (distOf x2 r)) i := by
  unfold k0_pay1 Edge.inp
  by_cases h : i.val < 128
  · rw [dif_pos h]
    refine Eq.trans (concatenate_apply_piece (1 : Fin 2) _ _ (ix2 r i) 0 (by simp) S2048x128 (k0_pay4 (F := Ideal) x0) rfl rfl 0 rfl
      (ix2 r ⟨i.val, h⟩) (fun b => ?_) (by show 0 + i.val = i.val; omega)) ?_
    · match b with
      | ⟨0, _⟩ => exact fun _ => rfl
      | ⟨1, _⟩ => exact fun hne => absurd rfl hne
    · unfold k0_pay4; rw [shapeCast_self]; rfl
  · rw [dif_neg h]
    by_cases h' : i.val < 256
    · rw [dif_pos h']
      refine Eq.trans (concatenate_apply_piece (1 : Fin 2) _ _ (ix2 r i) 1 (by simp) S2048x128 (k0_pay5 (F := Ideal) x1) rfl rfl 128 rfl
        (ix2 r ⟨i.val - 128, by omega⟩) (fun b => ?_) (by show 128 + (i.val - 128) = i.val; omega)) ?_
      · match b with
        | ⟨0, _⟩ => exact fun _ => rfl
        | ⟨1, _⟩ => exact fun hne => absurd rfl hne
      · unfold k0_pay5; rw [shapeCast_self]; rfl
    · rw [dif_neg h']
      have hi := i.isLt
      refine Eq.trans (concatenate_apply_piece (1 : Fin 2) _ _ (ix2 r i) 2 (by simp) S2048x32 _ rfl rfl 256 rfl
        (ix2 r ⟨i.val - 256, by omega⟩) (fun b => ?_) (by show 256 + (i.val - 256) = i.val; omega)) ?_
      · match b with
        | ⟨0, _⟩ => exact fun _ => rfl
        | ⟨1, _⟩ => exact fun hne => absurd rfl hne
      · exact attr_row x2 x3 x4 x5 x6 x7 x8 x9 x10 x11 x12 x13 _ rfl _ _ _ r _

/-- A hidden layer over the concatenated row, at (r, k). -/
theorem hidden_row (x0 x1 : Vec Ideal S2048x128 .f32) (x2 : Vec Ideal S2048x7 .f32) (x3 x4 : Vec Ideal S1x32 .f32) (x5 : Vec Ideal S32x32 .f32)
    (x6 : Vec Ideal S1x32 .f32) (x7 : Vec Ideal S288x256 .f32) (x8 : Vec Ideal S1x256 .f32) (x9 : Vec Ideal S256x128 .f32) (x10 : Vec Ideal S1x128 .f32)
    (x11 : Vec Ideal S288x256 .f32) (x12 : Vec Ideal S1x256 .f32) (x13 : Vec Ideal S256x1 .f32)
    (W1 : Vec Ideal S288x256 .f32) (b1 : Vec Ideal S1x256 .f32)
    (d : DotDims S2048x288 S288x256 S2048x256) (hd : d = DotDims.plain 2048 288 256) (hb : S1x256.Broadcasts S2048x256)
    (hc : S1x256.ShapeCasts S1x256) (h1 h2 : FTy.bits .bf16 < FTy.bits .f32) (r : Fin 2048) (k : Fin 256) :
    Edge.silu (addf (matmul d none
          (truncf .bf16 (k0_pay1 (F := Ideal) (k0_pay4 x0) (k0_pay5 x1) x5 (k0_pay9 x6) (k0_pay13 x2 x3 x4)) h1) (truncf .bf16 W1 h2)
          (constant S2048x256 .f32 0x00000000#32)) (broadcastTo S2048x256 (shapeCast S1x256 b1 hc) hb) (ix2 r k))
      = Edge.hidden (fun i k => W1 (ix2 i k)) (fun k => b1 (ix2 0 k))
          (Edge.inp (Edge.rowOf x0 r) (Edge.rowOf x1 r)
            (Edge.attr (Edge.Weights.ofRows x3 x4 x5 x6 x7 x8 x9 x10 x11 x12 x13) (distOf x2 r))) k := by
  unfold Edge.hidden
  refine congrArg Edge.silu ?_
  refine (dense_apply d hd _ _ _ _ _ _ r k).trans ?_
  rw [shapeCast_self]
  refine congrArg (· + _) (Finset.sum_congr rfl fun i _ => congrArg (· * _) ?_)
  exact inp_row x0 x1 x2 x3 x4 x5 x6 x7 x8 x9 x10 x11 x12 x13 r i

/-- The stored message tile at (r, j) is the message of the edge in row r. -/
theorem pay2_row (x0 x1 : Vec Ideal S2048x128 .f32) (x2 : Vec Ideal S2048x7 .f32) (x3 x4 : Vec Ideal S1x32 .f32) (x5 : Vec Ideal S32x32 .f32)
    (x6 : Vec Ideal S1x32 .f32) (x7 : Vec Ideal S288x256 .f32) (x8 : Vec Ideal S1x256 .f32) (x9 : Vec Ideal S256x128 .f32) (x10 : Vec Ideal S1x128 .f32)
    (x11 : Vec Ideal S288x256 .f32) (x12 : Vec Ideal S1x256 .f32) (x13 : Vec Ideal S256x1 .f32) (r : Fin 2048) (j : Fin 128) :
    k0_pay2 (F := Ideal) (k0_pay4 x0) (k0_pay5 x1) x5 (k0_pay9 x6) x7 (k0_pay10 x8) x9 (k0_pay11 x10) (k0_pay13 x2 x3 x4) (ix2 r j)
      = Edge.msg (Edge.Weights.ofRows x3 x4 x5 x6 x7 x8 x9 x10 x11 x12 x13) (distOf x2 r) (Edge.rowOf x0 r) (Edge.rowOf x1 r) j := by
  unfold k0_pay2 k0_pay10 k0_pay11 Edge.msg
  refine (dense_apply _ rfl _ _ _ _ _ _ r j).trans ?_
  rw [shapeCast_self x10]
  refine congrArg (· + _) (Finset.sum_congr rfl fun k _ => congrArg (· * _) ?_)
  exact hidden_row x0 x1 x2 x3 x4 x5 x6 x7 x8 x9 x10 x11 x12 x13 x7 x8 _ rfl _ _ _ _ r k

/-- The coordinate weight at row r: the last product's single column. -/
theorem coordWeight_row (x0 x1 : Vec Ideal S2048x128 .f32) (x2 : Vec Ideal S2048x7 .f32) (x3 x4 : Vec Ideal S1x32 .f32) (x5 : Vec Ideal S32x32 .f32)
    (x6 : Vec Ideal S1x32 .f32) (x7 : Vec Ideal S288x256 .f32) (x8 : Vec Ideal S1x256 .f32) (x9 : Vec Ideal S256x128 .f32) (x10 : Vec Ideal S1x128 .f32)
    (x11 : Vec Ideal S288x256 .f32) (x12 : Vec Ideal S1x256 .f32) (x13 : Vec Ideal S256x1 .f32)
    (d : DotDims S2048x288 S288x256 S2048x256) (hd : d = DotDims.plain 2048 288 256) (hb : S1x256.Broadcasts S2048x256)
    (hc : S1x256.ShapeCasts S1x256) (d' : DotDims S2048x256 S256x1 S2048x1) (hd' : d' = DotDims.plain 2048 256 1)
    (h1 h2 h3 h4 : FTy.bits .bf16 < FTy.bits .f32) (r : Fin 2048) (z : Fin 1) :
    matmul d' none
        (truncf .bf16
          (mulf
            (addf (matmul d none
              (truncf .bf16 (k0_pay1 (F := Ideal) (k0_pay4 x0) (k0_pay5 x1) x5 (k0_pay9 x6) (k0_pay13 x2 x3 x4)) h1) (truncf .bf16 x11 h2)
              (constant S2048x256 .f32 0x00000000#32)) (broadcastTo S2048x256 (shapeCast S1x256 x12 hc) hb))
            (logistic
              (addf (matmul d none
                (truncf .bf16 (k0_pay1 (F := Ideal) (k0_pay4 x0) (k0_pay5 x1) x5 (k0_pay9 x6) (k0_pay13 x2 x3 x4)) h1) (truncf .bf16 x11 h2)
                (constant S2048x256 .f32 0x00000000#32)) (broadcastTo S2048x256 (shapeCast S1x256 x12 hc) hb)))) h3)
        (truncf .bf16 x13 h4) (constant S2048x1 .f32 0x00000000#32) (ix2 r z)
      = Edge.coordWeight (Edge.Weights.ofRows x3 x4 x5 x6 x7 x8 x9 x10 x11 x12 x13) (distOf x2 r) (Edge.rowOf x0 r) (Edge.rowOf x1 r) z := by
  unfold Edge.coordWeight
  refine (product_apply d' hd' _ _ _ _ r z).trans ?_
  refine Finset.sum_congr rfl fun k _ => congrArg (· * _) ?_
  exact hidden_row x0 x1 x2 x3 x4 x5 x6 x7 x8 x9 x10 x11 x12 x13 x11 x12 d hd hb hc h1 h2 r k

/-- The direction of an edge, at (r, a): source position less destination position. -/
theorem dir_row (x2 : Vec Ideal S2048x7 .f32) (r : Fin 2048) (a : Fin 3) :
    subf (k0_pay7 (F := Ideal) x2) (k0_pay8 (F := Ideal) x2) (ix2 r a) = srcPosOf x2 r a - dstPosOf x2 r a := by
  unfold k0_pay7 k0_pay8 k0_pay6
  rw [shapeCast_self]
  show extractStridedSlice S2048x3 ![0, 1] x2 _ (ix2 r a) - extractStridedSlice S2048x3 ![0, 4] x2 _ (ix2 r a) = _
  rw [slice_apply 1 x2 _ r a ⟨1 + a.val, by have := a.isLt; omega⟩ rfl, slice_apply 4 x2 _ r a ⟨4 + a.val, by have := a.isLt; omega⟩ rfl]

/-- The floored length of the direction, at row r. -/
theorem dirLen_row (x2 : Vec Ideal S2048x7 .f32) (hr : S2048x3.Reduces [1] S2048) (hφ : FKind.Formats .f32)
    (hacc : (0x00000000#32 : BitVec 32) = FKind.add.neutral .f32 hφ) (hc : S2048.ShapeCasts S2048x1) (r : Fin 2048) :
    maximumf
        (sqrt (shapeCast S2048x1
          (multiReduction .add [1] S2048
            (mulf (subf (k0_pay7 (F := Ideal) x2) (k0_pay8 (F := Ideal) x2)) (subf (k0_pay7 (F := Ideal) x2) (k0_pay8 (F := Ideal) x2)))
            0x00000000#32 hr hφ hacc) hc))
        (broadcast S2048x1 (Scalar.ofBits (F := Ideal) .f32 0x322BCC77#32)) (ix2 r 0)
      = Edge.dirLen Edge.eps (srcPosOf x2 r) (dstPosOf x2 r) := by
  unfold Edge.dirLen
  rw [Ideal.ofBits_zero_f32, zero_add]
  show max (Ideal.sqrt (shapeCast S2048x1 _ hc (ix2 r 0))) Edge.eps = _
  refine congrArg (fun t => max (Ideal.sqrt t) Edge.eps) ?_
  refine (shapeCast_apply _ hc (ix2 r 0) (ix1 r) ?_).trans ?_
  · rw [Shape.rowMajor_val_one, Shape.rowMajor_val_two]
    show r.val = r.val * 1 + 0
    omega
  · refine (Ideal.multiReduction_add_single _ _ hr hφ hacc (ix1 r)).trans ?_
    refine Finset.sum_congr rfl fun (k : Fin 3) _ => ?_
    have hl : hr.lift (ix1 r) k = ix2 r k := by
      funext b
      match b with
      | ⟨0, _⟩ => exact Fin.ext rfl
      | ⟨1, _⟩ => exact Fin.ext rfl
    rw [hl]
    show subf (k0_pay7 (F := Ideal) x2) (k0_pay8 (F := Ideal) x2) (ix2 r k) * subf (k0_pay7 (F := Ideal) x2) (k0_pay8 (F := Ideal) x2) (ix2 r k) = _
    rw [dir_row]

/-- The stored coordinate-update tile at (r, a) is the update of the edge in row r. -/
theorem pay3_row (x0 x1 : Vec Ideal S2048x128 .f32) (x2 : Vec Ideal S2048x7 .f32) (x3 x4 : Vec Ideal S1x32 .f32) (x5 : Vec Ideal S32x32 .f32)
    (x6 : Vec Ideal S1x32 .f32) (x7 : Vec Ideal S288x256 .f32) (x8 : Vec Ideal S1x256 .f32) (x9 : Vec Ideal S256x128 .f32) (x10 : Vec Ideal S1x128 .f32)
    (x11 : Vec Ideal S288x256 .f32) (x12 : Vec Ideal S1x256 .f32) (x13 : Vec Ideal S256x1 .f32) (r : Fin 2048) (a : Fin 3) :
    k0_pay3 (F := Ideal) (k0_pay4 x0) (k0_pay5 x1) (k0_pay7 x2) (k0_pay8 x2) x5 (k0_pay9 x6) x11 (k0_pay12 x12) x13 (k0_pay13 x2 x3 x4) (ix2 r a)
      = Edge.upd (Edge.Weights.ofRows x3 x4 x5 x6 x7 x8 x9 x10 x11 x12 x13) Edge.eps (distOf x2 r) (Edge.rowOf x0 r) (Edge.rowOf x1 r)
          (srcPosOf x2 r) (dstPosOf x2 r) a := by
  unfold k0_pay3 k0_pay12 Edge.upd
  show broadcastTo S2048x3 _ _ (ix2 r a)
      * Ideal.div (subf (k0_pay7 (F := Ideal) x2) (k0_pay8 (F := Ideal) x2) (ix2 r a)) (broadcastTo S2048x3 _ _ (ix2 r a)) = _
  rw [col_apply, col_apply, dir_row]
  refine congrArg₂ (fun s t => s * Ideal.div (srcPosOf x2 r a - dstPosOf x2 r a) t) ?_ ?_
  · exact coordWeight_row x0 x1 x2 x3 x4 x5 x6 x7 x8 x9 x10 x11 x12 x13 _ rfl _ _ _ rfl _ _ _ _ r 0
  · exact dirLen_row x2 _ _ _ _ r

end Cert.KernelIdeal.Rows

end
-- ==== Proof.KITiles.lean ====
/-
  From tiles to arrays.  Grid point t handles edges 2048 t … 2048 t + 2047: the three per-edge windows' tiles are
  those rows of their arrays, the eleven weight and bias windows' tiles are their whole arrays at every point, and
  the tile the body leaves is those rows of the message array (of the coordinate-update array).  The 256 tiles
  cover the 524288 rows, so after the run each output array is the whole per-edge array.
-/
import proofs.«423127_j66949950210598_1_alg».proof.Proof.KIRun
import proofs.«423127_j66949950210598_1_alg».proof.Proof.KernelRows
import proofs.«423127_j66949950210598_1_alg».proof.Proof.EdgeRow
import Idealize.ShloMosaic.Lib.Pipeline.Value
import Idealize.ShloMosaic.Lib.ValueIdx

set_option maxRecDepth 16384

noncomputable section

namespace Cert.KernelIdeal.Tiles

open Cert.KernelIdeal Cert.KernelIdeal.Gen Cert.KernelIdeal.Around
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The index maps over the grid -/

/-- The per-edge windows (three inputs, two outputs) sit at row block t, column block 0. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_14.index t (0 : Fin 2) = t.val ∧ win0_14.index t (1 : Fin 2) = 0
    ∧ win0_15.index t (0 : Fin 2) = t.val ∧ win0_15.index t (1 : Fin 2) = 0 :=
  (by decide +kernel : ∀ t : Fin grid0.N, _)

/-- The weight and bias windows sit at block (0, 0) at every point. -/
theorem idx_fixed : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0 :=
  (by decide +kernel : ∀ t : Fin grid0.N, _)

/-- Row r of tile t is edge 2048 t + r. -/
def edgeOf (t : Fin cfg0.N) (r : Fin 2048) : Fin 524288 :=
  ⟨t.val * 2048 + r.val, by have h1 := t.isLt; have h2 : cfg0.N = 256 := N_0; have h3 := r.isLt; omega⟩

/-! ## The input tiles, read off their arrays -/

theorem tile0 (c : Dev nD) (t : Fin cfg0.N) (r : Fin 2048) (j : Fin 128) :
    (iblk m c 0 t : Vec Ideal S2048x128 .f32) (ix2 r j) = V m c main_v4 (ix2 (edgeOf t r) j) := by
  have hi := idx_rows t
  have h0 : win0_0.index t (0 : Fin 2) = t.val := hi.1
  have h1 : win0_0.index t (1 : Fin 2) = 0 := hi.2.1
  unfold iblk
  rw [View.read_apply]
  show V m c main_v4 _ = V m c main_v4 _
  congr 1
  funext a
  apply Fin.ext
  match a with
  | ⟨0, _⟩ => show win0_0.index t (0 : Fin 2) * 2048 + 1 * r.val = t.val * 2048 + r.val; rw [h0]; omega
  | ⟨1, _⟩ => show win0_0.index t (1 : Fin 2) * 128 + 1 * j.val = j.val; rw [h1]; omega

theorem tile1 (c : Dev nD) (t : Fin cfg0.N) (r : Fin 2048) (j : Fin 128) :
    (iblk m c 1 t : Vec Ideal S2048x128 .f32) (ix2 r j) = V m c main_v5 (ix2 (edgeOf t r) j) := by
  have hi := idx_rows t
  have h0 : win0_1.index t (0 : Fin 2) = t.val := hi.2.2.1
  have h1 : win0_1.index t (1 : Fin 2) = 0 := hi.2.2.2.1
  unfold iblk
  rw [View.read_apply]
  show V m c main_v5 _ = V m c main_v5 _
  congr 1
  funext a
  apply Fin.ext
  match a with
  | ⟨0, _⟩ => show win0_1.index t (0 : Fin 2) * 2048 + 1 * r.val = t.val * 2048 + r.val; rw [h0]; omega
  | ⟨1, _⟩ => show win0_1.index t (1 : Fin 2) * 128 + 1 * j.val = j.val; rw [h1]; omega

theorem tile2 (c : Dev nD) (t : Fin cfg0.N) (r : Fin 2048) (j : Fin 7) :
    (iblk m c 2 t : Vec Ideal S2048x7 .f32) (ix2 r j) = V m c main_v9 (ix2 (edgeOf t r) j) := by
  have hi := idx_rows t
  have h0 : win0_2.index t (0 : Fin 2) = t.val := hi.2.2.2.2.1
  have h1 : win0_2.index t (1 : Fin 2) = 0 := hi.2.2.2.2.2.1
  unfold iblk
  rw [View.read_apply]
  show V m c main_v9 _ = V m c main_v9 _
  congr 1
  funext a
  apply Fin.ext
  match a with
  | ⟨0, _⟩ => show win0_2.index t (0 : Fin 2) * 2048 + 1 * r.val = t.val * 2048 + r.val; rw [h0]; omega
  | ⟨1, _⟩ => show win0_2.index t (1 : Fin 2) * 7 + 1 * j.val = j.val; rw [h1]; omega

theorem tile3 (c : Dev nD) (t : Fin cfg0.N) : (iblk m c 3 t : Vec Ideal S1x32 .f32) = V m c main_arg4 := by
  have hi := idx_fixed t
  have h0 : win0_3.index t (0 : Fin 2) = 0 := hi.1
  have h1 : win0_3.index t (1 : Fin 2) = 0 := hi.2.1
  funext y
  unfold iblk
  rw [View.read_apply]
  show V m c main_arg4 _ = V m c main_arg4 y
  congr 1
  funext a
  apply Fin.ext
  match a with
  | ⟨0, _⟩ => show win0_3.index t (0 : Fin 2) * 1 + 1 * (y 0).val = (y 0).val; rw [h0]; omega
  | ⟨1, _⟩ => show win0_3.index t (1 : Fin 2) * 32 + 1 * (y 1).val = (y 1).val; rw [h1]; omega

theorem tile4 (c : Dev nD) (t : Fin cfg0.N) : (iblk m c 4 t : Vec Ideal S1x32 .f32) = V m c main_v10 := by
  have hi := idx_fixed t
  have h0 : win0_4.index t (0 : Fin 2) = 0 := hi.2.2.1
  have h1 : win0_4.index t (1 : Fin 2) = 0 := hi.2.2.2.1
  funext y
  unfold iblk
  rw [View.read_apply]
  show V m c main_v10 _ = V m c main_v10 y
  congr 1
  funext a
  apply Fin.ext
  match a with
  | ⟨0, _⟩ => show win0_4.index t (0 : Fin 2) * 1 + 1 * (y 0).val = (y 0).val; rw [h0]; omega
  | ⟨1, _⟩ => show win0_4.index t (1 : Fin 2) * 32 + 1 * (y 1).val = (y 1).val; rw [h1]; omega

theorem tile5 (c : Dev nD) (t : Fin cfg0.N) : (iblk m c 5 t : Vec Ideal S32x32 .f32) = V m c main_arg6 := by
  have hi := idx_fixed t
  have h0 : win0_5.index t (0 : Fin 2) = 0 := hi.2.2.2.2.1
  have h1 : win0_5.index t (1 : Fin 2) = 0 := hi.2.2.2.2.2.1
  funext y
  unfold iblk
  rw [View.read_apply]
  show V m c main_arg6 _ = V m c main_arg6 y
  congr 1
  funext a
  apply Fin.ext
  match a with
  | ⟨0, _⟩ => show win0_5.index t (0 : Fin 2) * 32 + 1 * (y 0).val = (y 0).val; rw [h0]; omega
  | ⟨1, _⟩ => show win0_5.index t (1 : Fin 2) * 32 + 1 * (y 1).val = (y 1).val; rw [h1]; omega

theorem tile6 (c : Dev nD) (t : Fin cfg0.N) : (iblk m c 6 t : Vec Ideal S1x32 .f32) = V m c main_v11 := by
  have hi := idx_fixed t
  have h0 : win0_6.index t (0 : Fin 2) = 0 := hi.2.2.2.2.2.2.1
  have h1 : win0_6.index t (1 : Fin 2) = 0 := hi.2.2.2.2.2.2.2.1
  funext y
  unfold iblk
  rw [View.read_apply]
  show V m c main_v11 _ = V m c main_v11 y
  congr 1
  funext a
  apply Fin.ext
  match a with
  | ⟨0, _⟩ => show win0_6.index t (0 : Fin 2) * 1 + 1 * (y 0).val = (y 0).val; rw [h0]; omega
  | ⟨1, _⟩ => show win0_6.index t (1 : Fin 2) * 32 + 1 * (y 1).val = (y 1).val; rw [h1]; omega

theorem tile7 (c : Dev nD) (t : Fin cfg0.N) : (iblk m c 7 t : Vec Ideal S288x256 .f32) = V m c main_arg8 := by
  have hi := idx_fixed t
  have h0 : win0_7.index t (0 : Fin 2) = 0 := hi.2.2.2.2.2.2.2.2.1
  have h1 : win0_7.index t (1 : Fin 2) = 0 := hi.2.2.2.2.2.2.2.2.2.1
  funext y
  unfold iblk
  rw [View.read_apply]
  show V m c main_arg8 _ = V m c main_arg8 y
  congr 1
  funext a
  apply Fin.ext
  match a with
  | ⟨0, _⟩ => show win0_7.index t (0 : Fin 2) * 288 + 1 * (y 0).val = (y 0).val; rw [h0]; omega
  | ⟨1, _⟩ => show win0_7.index t (1 : Fin 2) * 256 + 1 * (y 1).val = (y 1).val; rw [h1]; omega

theorem tile8 (c : Dev nD) (t : Fin cfg0.N) : (iblk m c 8 t : Vec Ideal S1x256 .f32) = V m c main_v12 := by
  have hi := idx_fixed t
  have h0 : win0_8.index t (0 : Fin 2) = 0 := hi.2.2.2.2.2.2.2.2.2.2.1
  have h1 : win0_8.index t (1 : Fin 2) = 0 := hi.2.2.2.2.2.2.2.2.2.2.2.1
  funext y
  unfold iblk
  rw [View.read_apply]
  show V m c main_v12 _ = V m c main_v12 y
  congr 1
  funext a
  apply Fin.ext
  match a with
  | ⟨0, _⟩ => show win0_8.index t (0 : Fin 2) * 1 + 1 * (y 0).val = (y 0).val; rw [h0]; omega
  | ⟨1, _⟩ => show win0_8.index t (1 : Fin 2) * 256 + 1 * (y 1).val = (y 1).val; rw [h1]; omega

theorem tile9 (c : Dev nD) (t : Fin cfg0.N) : (iblk m c 9 t : Vec Ideal S256x128 .f32) = V m c main_arg10 := by
  have hi := idx_fixed t
  have h0 : win0_9.index t (0 : Fin 2) = 0 := hi.2.2.2.2.2.2.2.2.2.2.2.2.1
  have h1 : win0_9.index t (1 : Fin 2) = 0 := hi.2.2.2.2.2.2.2.2.2.2.2.2.2.1
  funext y
  unfold iblk
  rw [View.read_apply]
  show V m c main_arg10 _ = V m c main_arg10 y
  congr 1
  funext a
  apply Fin.ext
  match a with
  | ⟨0, _⟩ => show win0_9.index t (0 : Fin 2) * 256 + 1 * (y 0).val = (y 0).val; rw [h0]; omega
  | ⟨1, _⟩ => show win0_9.index t (1 : Fin 2) * 128 + 1 * (y 1).val = (y 1).val; rw [h1]; omega

theorem tile10 (c : Dev nD) (t : Fin cfg0.N) : (iblk m c 10 t : Vec Ideal S1x128 .f32) = V m c main_v13 := by
  have hi := idx_fixed t
  have h0 : win0_10.index t (0 : Fin 2) = 0 := hi.2.2.2.2.2.2.2.2.2.2.2.2.2.2.1
  have h1 : win0_10.index t (1 : Fin 2) = 0 := hi.2.2.2.2.2.2.2.2.2.2.2.2.2.2.2.1
  funext y
  unfold iblk
  rw [View.read_apply]
  show V m c main_v13 _ = V m c main_v13 y
  congr 1
  funext a
  apply Fin.ext
  match a with
  | ⟨0, _⟩ => show win0_10.index t (0 : Fin 2) * 1 + 1 * (y 0).val = (y 0).val; rw [h0]; omega
  | ⟨1, _⟩ => show win0_10.index t (1 : Fin 2) * 128 + 1 * (y 1).val = (y 1).val; rw [h1]; omega

theorem tile11 (c : Dev nD) (t : Fin cfg0.N) : (iblk m c 11 t : Vec Ideal S288x256 .f32) = V m c main_arg12 := by
  have hi := idx_fixed t
  have h0 : win0_11.index t (0 : Fin 2) = 0 := hi.2.2.2.2.2.2.2.2.2.2.2.2.2.2.2.2.1
  have h1 : win0_11.index t (1 : Fin 2) = 0 := hi.2.2.2.2.2.2.2.2.2.2.2.2.2.2.2.2.2.1
  funext y
  unfold iblk
  rw [View.read_apply]
  show V m c main_arg12 _ = V m c main_arg12 y
  congr 1
  funext a
  apply Fin.ext
  match a with
  | ⟨0, _⟩ => show win0_11.index t (0 : Fin 2) * 288 + 1 * (y 0).val = (y 0).val; rw [h0]; omega
  | ⟨1, _⟩ => show win0_11.index t (1 : Fin 2) * 256 + 1 * (y 1).val = (y 1).val; rw [h1]; omega

theorem tile12 (c : Dev nD) (t : Fin cfg0.N) : (iblk m c 12 t : Vec Ideal S1x256 .f32) = V m c main_v14 := by
  have hi := idx_fixed t
  have h0 : win0_12.index t (0 : Fin 2) = 0 := hi.2.2.2.2.2.2.2.2.2.2.2.2.2.2.2.2.2.2.1
  have h1 : win0_12.index t (1 : Fin 2) = 0 := hi.2.2.2.2.2.2.2.2.2.2.2.2.2.2.2.2.2.2.2.1
  funext y
  unfold iblk
  rw [View.read_apply]
  show V m c main_v14 _ = V m c main_v14 y
  congr 1
  funext a
  apply Fin.ext
  match a with
  | ⟨0, _⟩ => show win0_12.index t (0 : Fin 2) * 1 + 1 * (y 0).val = (y 0).val; rw [h0]; omega
  | ⟨1, _⟩ => show win0_12.index t (1 : Fin 2) * 256 + 1 * (y 1).val = (y 1).val; rw [h1]; omega

theorem tile13 (c : Dev nD) (t : Fin cfg0.N) : (iblk m c 13 t : Vec Ideal S256x1 .f32) = V m c main_arg14 := by
  have hi := idx_fixed t
  have h0 : win0_13.index t (0 : Fin 2) = 0 := hi.2.2.2.2.2.2.2.2.2.2.2.2.2.2.2.2.2.2.2.2.1
  have h1 : win0_13.index t (1 : Fin 2) = 0 := hi.2.2.2.2.2.2.2.2.2.2.2.2.2.2.2.2.2.2.2.2.2
  funext y
  unfold iblk
  rw [View.read_apply]
  show V m c main_arg14 _ = V m c main_arg14 y
  congr 1
  funext a
  apply Fin.ext
  match a with
  | ⟨0, _⟩ => show win0_13.index t (0 : Fin 2) * 256 + 1 * (y 0).val = (y 0).val; rw [h0]; omega
  | ⟨1, _⟩ => show win0_13.index t (1 : Fin 2) * 1 + 1 * (y 1).val = (y 1).val; rw [h1]; omega

/-! ## The packed per-edge array's columns -/

/-- Column 0: the distance, as a one-column array. -/
def packD (N : Vec Ideal S524288x7 .f32) : Vec Ideal S524288x1 .f32 :=
  fun i => N (ix2 (⟨(i 0).val, (i 0).isLt⟩ : Fin 524288) (⟨(i 1).val, by have h : (i 1).val < 1 := (i 1).isLt; omega⟩ : Fin 7))
/-- Columns 1–3: the source position. -/
def packS (N : Vec Ideal S524288x7 .f32) : Vec Ideal S524288x3 .f32 :=
  fun i => N (ix2 (⟨(i 0).val, (i 0).isLt⟩ : Fin 524288) (⟨1 + (i 1).val, by have h : (i 1).val < 3 := (i 1).isLt; omega⟩ : Fin 7))
/-- Columns 4–6: the destination position. -/
def packT (N : Vec Ideal S524288x7 .f32) : Vec Ideal S524288x3 .f32 :=
  fun i => N (ix2 (⟨(i 0).val, (i 0).isLt⟩ : Fin 524288) (⟨4 + (i 1).val, by have h : (i 1).val < 3 := (i 1).isLt; omega⟩ : Fin 7))

/-! ## The two output arrays -/

/-- The weights as the call finds them. -/
def wts (c : Dev nD) : Edge.Weights :=
  Edge.Weights.ofRows (V m c main_arg4) (V m c main_v10) (V m c main_arg6) (V m c main_v11) (V m c main_arg8) (V m c main_v12)
    (V m c main_arg10) (V m c main_v13) (V m c main_arg12) (V m c main_v14) (V m c main_arg14)

/-- The message array of the gathered rows the call finds. -/
def msgOut (c : Dev nD) : Vec Ideal S524288x128 .f32 :=
  Edge.msgArr 524288 (wts m c) (packD (V m c main_v9)) (V m c main_v4) (V m c main_v5)

/-- The coordinate-update array. -/
def updOut (c : Dev nD) : Vec Ideal S524288x3 .f32 :=
  Edge.updArr 524288 (wts m c) Edge.eps (packD (V m c main_v9)) (V m c main_v4) (V m c main_v5) (packS (V m c main_v9)) (packT (V m c main_v9))

theorem hz : (![0, 0] : Fin 2 → Nat) = fun _ => 0 := funext fun a => by fin_cases a <;> rfl

/-- The weights read off the tiles are the weights read off the arrays. -/
theorem wts_tiles (c : Dev nD) (t : Fin cfg0.N) :
    Edge.Weights.ofRows (iblk m c 3 t) (iblk m c 4 t) (iblk m c 5 t) (iblk m c 6 t) (iblk m c 7 t) (iblk m c 8 t) (iblk m c 9 t) (iblk m c 10 t) (iblk m c 11 t) (iblk m c 12 t) (iblk m c 13 t) = wts m c := by
  unfold wts
  rw [tile3 m c t, tile4 m c t, tile5 m c t, tile6 m c t, tile7 m c t, tile8 m c t, tile9 m c t, tile10 m c t, tile11 m c t, tile12 m c t, tile13 m c t]

theorem rows_tile0 (c : Dev nD) (t : Fin cfg0.N) (r : Fin 2048) :
    Edge.rowOf (iblk m c 0 t : Vec Ideal S2048x128 .f32) r = Edge.rowOf (V m c main_v4) (edgeOf t r) :=
  funext fun j => tile0 m c t r j
theorem rows_tile1 (c : Dev nD) (t : Fin cfg0.N) (r : Fin 2048) :
    Edge.rowOf (iblk m c 1 t : Vec Ideal S2048x128 .f32) r = Edge.rowOf (V m c main_v5) (edgeOf t r) :=
  funext fun j => tile1 m c t r j
theorem dist_tile2 (c : Dev nD) (t : Fin cfg0.N) (r : Fin 2048) :
    Rows.distOf (iblk m c 2 t : Vec Ideal S2048x7 .f32) r = Edge.rowOf (packD (V m c main_v9)) (edgeOf t r) :=
  funext fun z => tile2 m c t r _
theorem src_tile2 (c : Dev nD) (t : Fin cfg0.N) (r : Fin 2048) :
    Rows.srcPosOf (iblk m c 2 t : Vec Ideal S2048x7 .f32) r = Edge.rowOf (packS (V m c main_v9)) (edgeOf t r) :=
  funext fun z => tile2 m c t r _
theorem dst_tile2 (c : Dev nD) (t : Fin cfg0.N) (r : Fin 2048) :
    Rows.dstPosOf (iblk m c 2 t : Vec Ideal S2048x7 .f32) r = Edge.rowOf (packT (V m c main_v9)) (edgeOf t r) :=
  funext fun z => tile2 m c t r _

/-- What point t writes back to the message array is rows 2048 t … of the message array. -/
theorem flushed14 (c : Dev nD) (t : Fin cfg0.N) :
    (dats m 0 c).flushed 14 t = ((cfg0.win 14).blk t).view.read (Elt Ideal) (msgOut m c) := by
  show (cfg0.win 14).cut (grid0.coords t) ((dats m 0 c).after 14 t) = _
  rw [after0_14]
  unfold out0_14
  rw [View.canon_unit_zero hz]
  simp only [View.ld_unit_zero (S := S2048x128) hz, View.ld_unit_zero (S := S2048x7) hz, View.ld_unit_zero (S := S1x32) hz,
    View.ld_unit_zero (S := S32x32) hz, View.ld_unit_zero (S := S288x256) hz, View.ld_unit_zero (S := S1x256) hz,
    View.ld_unit_zero (S := S256x128) hz, View.ld_unit_zero (S := S1x128) hz, View.ld_unit_zero (S := S256x1) hz]
  have hi := idx_rows t
  have h0 : win0_14.index t (0 : Fin 2) = t.val := hi.2.2.2.2.2.2.1
  have h1 : win0_14.index t (1 : Fin 2) = 0 := hi.2.2.2.2.2.2.2.1
  funext y
  obtain ⟨r, j, rfl⟩ : ∃ (r : Fin 2048) (j : Fin 128), y = ix2 r j := ⟨y 0, y 1, eq_ix2 y⟩
  have he : ((cfg0.win 14).blk t).view.emb (ix2 r j) = ix2 (edgeOf t r) j := by
    funext a
    apply Fin.ext
    match a with
    | ⟨0, _⟩ => show win0_14.index t (0 : Fin 2) * 2048 + 1 * r.val = t.val * 2048 + r.val; rw [h0]; omega
    | ⟨1, _⟩ => show win0_14.index t (1 : Fin 2) * 128 + 1 * j.val = j.val; rw [h1]; omega
  rw [View.read_apply, he]
  refine (Rows.pay2_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r j).trans ?_
  rw [wts_tiles m c t, rows_tile0 m c t r, rows_tile1 m c t r, dist_tile2 m c t r]
  rfl

/-- What point t writes back to the coordinate-update array is rows 2048 t … of that array. -/
theorem flushed15 (c : Dev nD) (t : Fin cfg0.N) :
    (dats m 0 c).flushed 15 t = ((cfg0.win 15).blk t).view.read (Elt Ideal) (updOut m c) := by
  show (cfg0.win 15).cut (grid0.coords t) ((dats m 0 c).after 15 t) = _
  rw [after0_15]
  unfold out0_15
  rw [View.canon_unit_zero hz]
  simp only [View.ld_unit_zero (S := S2048x128) hz, View.ld_unit_zero (S := S2048x7) hz, View.ld_unit_zero (S := S1x32) hz,
    View.ld_unit_zero (S := S32x32) hz, View.ld_unit_zero (S := S288x256) hz, View.ld_unit_zero (S := S1x256) hz,
    View.ld_unit_zero (S := S256x128) hz, View.ld_unit_zero (S := S1x128) hz, View.ld_unit_zero (S := S256x1) hz]
  have hi := idx_rows t
  have h0 : win0_15.index t (0 : Fin 2) = t.val := hi.2.2.2.2.2.2.2.2.1
  have h1 : win0_15.index t (1 : Fin 2) = 0 := hi.2.2.2.2.2.2.2.2.2
  funext y
  obtain ⟨r, a, rfl⟩ : ∃ (r : Fin 2048) (a : Fin 3), y = ix2 r a := ⟨y 0, y 1, eq_ix2 y⟩
  have he : ((cfg0.win 15).blk t).view.emb (ix2 r a) = ix2 (edgeOf t r) a := by
    funext b
    apply Fin.ext
    match b with
    | ⟨0, _⟩ => show win0_15.index t (0 : Fin 2) * 2048 + 1 * r.val = t.val * 2048 + r.val; rw [h0]; omega
    | ⟨1, _⟩ => show win0_15.index t (1 : Fin 2) * 3 + 1 * a.val = a.val; rw [h1]; omega
  rw [View.read_apply, he]
  refine (Rows.pay3_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r a).trans ?_
  rw [wts_tiles m c t, rows_tile0 m c t r, rows_tile1 m c t r, dist_tile2 m c t r, src_tile2 m c t r, dst_tile2 m c t r]
  rfl

/-! ## The tiles cover the arrays -/

theorem mem_blk14 (t : Fin cfg0.N) (i : S524288x128.Idx) :
    i ∈ ((cfg0.win 14).blk t).view.set ↔ ∀ a : Fin 2, win0_14.index t a * S2048x128.size a ≤ (i a).val ∧ (i a).val < win0_14.index t a * S2048x128.size a + S2048x128.size a := by
  show i ∈ ((View.whole main_v15_0).slice (win0_14.rect t)).set ↔ _
  rw [View.set_slice_whole, Rect.mem_set_unit]
  exact Iff.rfl

theorem mem_blk15 (t : Fin cfg0.N) (i : S524288x3.Idx) :
    i ∈ ((cfg0.win 15).blk t).view.set ↔ ∀ a : Fin 2, win0_15.index t a * S2048x3.size a ≤ (i a).val ∧ (i a).val < win0_15.index t a * S2048x3.size a + S2048x3.size a := by
  show i ∈ ((View.whole main_v15_1).slice (win0_15.rect t)).set ↔ _
  rw [View.set_slice_whole, Rect.mem_set_unit]
  exact Iff.rfl

/-- Row e of the message array is in the tile of point e / 2048. -/
theorem cover14 (i : S524288x128.Idx) : ∃ t : Fin cfg0.N, (cfg0.win 14).flush t = true ∧ i ∈ ((cfg0.win 14).blk t).view.set := by
  have hi0 : (i 0).val < 524288 := (i 0).isLt
  have hi1 : (i 1).val < 128 := (i 1).isLt
  have hN : cfg0.N = 256 := N_0
  let t : Fin cfg0.N := ⟨(i 0).val / 2048, by rw [hN]; omega⟩
  have hi := idx_rows t
  have h0 : win0_14.index t (0 : Fin 2) = (i 0).val / 2048 := hi.2.2.2.2.2.2.1
  have h1 : win0_14.index t (1 : Fin 2) = 0 := hi.2.2.2.2.2.2.2.1
  refine ⟨t, flush0_14 t, ?_⟩
  rw [mem_blk14]
  intro a
  match a with
  | ⟨0, _⟩ => show win0_14.index t (0 : Fin 2) * 2048 ≤ (i 0).val ∧ (i 0).val < win0_14.index t (0 : Fin 2) * 2048 + 2048; rw [h0]; omega
  | ⟨1, _⟩ => show win0_14.index t (1 : Fin 2) * 128 ≤ (i 1).val ∧ (i 1).val < win0_14.index t (1 : Fin 2) * 128 + 128; rw [h1]; omega

theorem cover15 (i : S524288x3.Idx) : ∃ t : Fin cfg0.N, (cfg0.win 15).flush t = true ∧ i ∈ ((cfg0.win 15).blk t).view.set := by
  have hi0 : (i 0).val < 524288 := (i 0).isLt
  have hi1 : (i 1).val < 3 := (i 1).isLt
  have hN : cfg0.N = 256 := N_0
  let t : Fin cfg0.N := ⟨(i 0).val / 2048, by rw [hN]; omega⟩
  have hi := idx_rows t
  have h0 : win0_15.index t (0 : Fin 2) = (i 0).val / 2048 := hi.2.2.2.2.2.2.2.2.1
  have h1 : win0_15.index t (1 : Fin 2) = 0 := hi.2.2.2.2.2.2.2.2.2
  refine ⟨t, flush0_15 t, ?_⟩
  rw [mem_blk15]
  intro a
  match a with
  | ⟨0, _⟩ => show win0_15.index t (0 : Fin 2) * 2048 ≤ (i 0).val ∧ (i 0).val < win0_15.index t (0 : Fin 2) * 2048 + 2048; rw [h0]; omega
  | ⟨1, _⟩ => show win0_15.index t (1 : Fin 2) * 3 ≤ (i 1).val ∧ (i 1).val < win0_15.index t (1 : Fin 2) * 3 + 3; rw [h1]; omega

/-! ## The arrays after the run -/

theorem final14 (c : Dev nD) : (dats m 0 c).arrAt 14 cfg0.N = msgOut m c :=
  (dats m 0 c).arrAt_eq_of_cover 14 (msgOut m c) (fun t _ => flushed14 m c t) cover14

theorem final15 (c : Dev nD) : (dats m 0 c).arrAt 15 cfg0.N = updOut m c :=
  (dats m 0 c).arrAt_eq_of_cover 15 (updOut m c) (fun t _ => flushed15 m c t) cover15

end Cert.KernelIdeal.Tiles

end
-- ==== Proof.KIResult.lean ====
/-
  The kernel program's two results: after the call the host lines scatter-add the message array (the coordinate-
  update array) onto the destination nodes, starting from zeros, and add the node features (the positions).
-/
import proofs.«423127_j66949950210598_1_alg».proof.Proof.KITiles
import Idealize.ShloMosaic.Lib.StableHlo.Run

set_option maxRecDepth 16384

noncomputable section

namespace Cert.KernelIdeal.Result

open Cert.KernelIdeal Cert.KernelIdeal.Gen Cert.KernelIdeal.Around Cert.KernelIdeal.Tiles
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- The node features plus the messages scattered onto their destination nodes. -/
def hOut (c : Dev nD) : Buf (Elt Ideal) ((c : Thread nD τ).loc main_v22) :=
  addf (F := Ideal) (φ := .f32) (s := S32768x128) (m ((c : Thread nD τ).loc main_arg0))
    (Host.scatterAdd scatter_S32768x128_S524288x1_S524288x128_1_0_0_1
      (broadcastInDim S32768x128 ![] bcast_S_S32768x128 (constant (F := Ideal) S_ .f32 0x00000000#32))
      (broadcastInDim S524288x1 ![0] bcast_S524288_S524288x1_0 (V m c main_v3)) (msgOut m c))

/-- The positions plus the coordinate updates scattered onto their destination nodes. -/
def xOut (c : Dev nD) : Buf (Elt Ideal) ((c : Thread nD τ).loc main_v23) :=
  addf (F := Ideal) (φ := .f32) (s := S32768x3) (m ((c : Thread nD τ).loc main_arg1))
    (Host.scatterAdd scatter_S32768x3_S524288x1_S524288x3_1_0_0_1
      (broadcastInDim S32768x3 ![] bcast_S_S32768x3 (constant (F := Ideal) S_ .f32 0x00000000#32))
      (broadcastInDim S524288x1 ![0] bcast_S524288_S524288x1_0 (V m c main_v3)) (updOut m c))

/-- The later lines' first result, read: they find the message array where the call left it, the destination row
    and the node features where the lines before the call left them. -/
theorem tail22 (c : Dev nD) : Pipeline.afterTail₀ cfgs (dats m) 0 (V0 m) [hostOps1] c main_v22 = hOut m c := by
  unfold Pipeline.afterTail₀
  show StableHlo.after hostOps1 _ (Proc.devRef .tc main_v22) = _
  after_results
  rw [Pipeline.withArrays_of_ne _ c (V0 m c) _ main_arg0 (by decide), Pipeline.withArrays_of_ne _ c (V0 m c) _ main_v3 (by decide),
    show Pipeline.withArrays (cfgs 0).spec c (V0 m c) (fun w => (dats m 0 c).arrAt w (cfgs 0).N) (Proc.devRef .tc main_v15_0) = msgOut m c from
      (Pipeline.withArrays_arr spec0 launch0.win.arr_inj c _ _ 14).trans (final14 m c),
    show V0 m c (Proc.devRef .tc main_arg0) = m ((c : Thread nD τ).loc main_arg0) from V_arg m c 0]
  rfl

theorem tail23 (c : Dev nD) : Pipeline.afterTail₀ cfgs (dats m) 0 (V0 m) [hostOps1] c main_v23 = xOut m c := by
  unfold Pipeline.afterTail₀
  show StableHlo.after hostOps1 _ (Proc.devRef .tc main_v23) = _
  after_results
  rw [Pipeline.withArrays_of_ne _ c (V0 m c) _ main_arg1 (by decide), Pipeline.withArrays_of_ne _ c (V0 m c) _ main_v3 (by decide),
    show Pipeline.withArrays (cfgs 0).spec c (V0 m c) (fun w => (dats m 0 c).arrAt w (cfgs 0).N) (Proc.devRef .tc main_v15_1) = updOut m c from
      (Pipeline.withArrays_arr spec0 launch0.win.arr_inj c _ _ 15).trans (final15 m c),
    show V0 m c (Proc.devRef .tc main_arg1) = m ((c : Thread nD τ).loc main_arg1) from V_arg m c 1]
  rfl

/-- The kernel program's run, with its two results named and its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v22) = hOut m c
      ∧ r.2.mem ((c.tc : Thread nD τ).loc main_v23) = xOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_v22 (Pipeline.mem_restRefs_of main_v22 (by decide) (by decide))).trans (tail22 m c),
      ((h c).2 main_v23 (Pipeline.mem_restRefs_of main_v23 (by decide) (by decide))).trans (tail23 m c),
      ((h c).2 main_arg0 (Pipeline.mem_restRefs_of main_arg0 (by decide) (by decide))).trans (W_arg m (dats m) c 0 (by decide)),
      ((h c).2 main_arg1 (Pipeline.mem_restRefs_of main_arg1 (by decide) (by decide))).trans (W_arg m (dats m) c 1 (by decide)),
      ((h c).2 main_arg2 (Pipeline.mem_restRefs_of main_arg2 (by decide) (by decide))).trans (W_arg m (dats m) c 2 (by decide)),
      ((h c).2 main_arg3 (Pipeline.mem_restRefs_of main_arg3 (by decide) (by decide))).trans (W_arg m (dats m) c 3 (by decide)),
      ((h c).1 3).trans ((((dats m) 0 c).arrAt_in 3 rfl _).trans ((A_eq m c 3).trans (V_arg m c 4))),
      ((h c).2 main_arg5 (Pipeline.mem_restRefs_of main_arg5 (by decide) (by decide))).trans (W_arg m (dats m) c 5 (by decide)),
      ((h c).1 5).trans ((((dats m) 0 c).arrAt_in 5 rfl _).trans ((A_eq m c 5).trans (V_arg m c 6))),
      ((h c).2 main_arg7 (Pipeline.mem_restRefs_of main_arg7 (by decide) (by decide))).trans (W_arg m (dats m) c 7 (by decide)),
      ((h c).1 7).trans ((((dats m) 0 c).arrAt_in 7 rfl _).trans ((A_eq m c 7).trans (V_arg m c 8))),
      ((h c).2 main_arg9 (Pipeline.mem_restRefs_of main_arg9 (by decide) (by decide))).trans (W_arg m (dats m) c 9 (by decide)),
      ((h c).1 9).trans ((((dats m) 0 c).arrAt_in 9 rfl _).trans ((A_eq m c 9).trans (V_arg m c 10))),
      ((h c).2 main_arg11 (Pipeline.mem_restRefs_of main_arg11 (by decide) (by decide))).trans (W_arg m (dats m) c 11 (by decide)),
      ((h c).1 11).trans ((((dats m) 0 c).arrAt_in 11 rfl _).trans ((A_eq m c 11).trans (V_arg m c 12))),
      ((h c).2 main_arg13 (Pipeline.mem_restRefs_of main_arg13 (by decide) (by decide))).trans (W_arg m (dats m) c 13 (by decide)),
      ((h c).1 13).trans ((((dats m) 0 c).arrAt_in 13 rfl _).trans ((A_eq m c 13).trans (V_arg m c 14)))⟩) (run_main m ρ)

end Cert.KernelIdeal.Result

end
-- ==== Proof.RefRows.lean ====
/-
  The reference, edge by edge: its message stage and its coordinate-update stage are the per-edge functions applied
  row by row to its own distance column, gathered feature rows and gathered positions.
-/
import proofs.«423127_j66949950210598_1_alg».proof.Proof.Gen.ReferenceIdeal.Read
import proofs.«423127_j66949950210598_1_alg».proof.Proof.EdgeRow
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Rows

open Cert.ReferenceIdeal Cert.ReferenceIdeal.Read Idealize.ShloMosaic Idealize.ShloMosaic.ValueIdx

/-- The reference's weights as its networks read them: each bias through its one-row broadcast. -/
abbrev weights (x0 : (⟨S32768x128, .f32⟩ : BufTy).Contents (Elt Ideal)) (x1 : (⟨S32768x3, .f32⟩ : BufTy).Contents (Elt Ideal)) (x2 : (⟨S2x524288, .i32⟩ : BufTy).Contents (Elt Ideal)) (x3 : (⟨S524288, .f32⟩ : BufTy).Contents (Elt Ideal))
    (x4 : (⟨S1x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal))
    (x8 : (⟨S288x256, .f32⟩ : BufTy).Contents (Elt Ideal)) (x9 : (⟨S256, .f32⟩ : BufTy).Contents (Elt Ideal)) (x10 : (⟨S256x128, .f32⟩ : BufTy).Contents (Elt Ideal)) (x11 : (⟨S128, .f32⟩ : BufTy).Contents (Elt Ideal))
    (x12 : (⟨S288x256, .f32⟩ : BufTy).Contents (Elt Ideal)) (x13 : (⟨S256, .f32⟩ : BufTy).Contents (Elt Ideal)) (x14 : (⟨S256x1, .f32⟩ : BufTy).Contents (Elt Ideal)) : Edge.Weights :=
  Edge.Weights.ofRows x4 (val_main_v6 (F := Ideal) x5) x6 (val_main_v11 (F := Ideal) x7) x8 (val_main_v30 (F := Ideal) x9) x10
    (val_main_v35 (F := Ideal) x11) x12 (val_main_v42 (F := Ideal) x13) x14

/-- A rank-2 index with the coordinates `a`, `b` is `ix2 a b`. -/
theorem eq_ix2_of {n0 n1 : Nat} (f : (⟨2, ![n0, n1]⟩ : Shape).Idx) (a : Fin n0) (b : Fin n1)
    (h0 : (f 0).val = a.val) (h1 : (f 1).val = b.val) : f = ix2 a b := by
  funext d
  match d with
  | ⟨0, _⟩ => exact Fin.ext h0
  | ⟨1, _⟩ => exact Fin.ext h1

section Stages

variable (x0 : (⟨S32768x128, .f32⟩ : BufTy).Contents (Elt Ideal)) (x1 : (⟨S32768x3, .f32⟩ : BufTy).Contents (Elt Ideal)) (x2 : (⟨S2x524288, .i32⟩ : BufTy).Contents (Elt Ideal)) (x3 : (⟨S524288, .f32⟩ : BufTy).Contents (Elt Ideal))
    (x4 : (⟨S1x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal))
    (x8 : (⟨S288x256, .f32⟩ : BufTy).Contents (Elt Ideal)) (x9 : (⟨S256, .f32⟩ : BufTy).Contents (Elt Ideal)) (x10 : (⟨S256x128, .f32⟩ : BufTy).Contents (Elt Ideal)) (x11 : (⟨S128, .f32⟩ : BufTy).Contents (Elt Ideal))
    (x12 : (⟨S288x256, .f32⟩ : BufTy).Contents (Elt Ideal)) (x13 : (⟨S256, .f32⟩ : BufTy).Contents (Elt Ideal)) (x14 : (⟨S256x1, .f32⟩ : BufTy).Contents (Elt Ideal))

/-- The first layer of the edge network before its activation, at edge `e`. -/
theorem v8_row (e : Fin 524288) (k : Fin 32) :
    val_main_v8 (F := Ideal) x3 x4 x5 (ix2 e k)
      = Edge.attrPre (weights x0 x1 x2 x3 x4 x5 x6 x7 x8 x9 x10 x11 x12 x13 x14) (Edge.rowOf (val_main_v4 (F := Ideal) x3) e) k := by
  rw [val_main_v8_apply, val_main_v5_apply, val_main_v7_apply]
  have hl : ∀ z : Fin 1, lidx_main_v5 (ix2 e k) z = ix2 e z := fun z => eq_ix2_of _ _ _ rfl rfl
  have hr : ∀ z : Fin 1, ridx_main_v5 (ix2 e k) z = ix2 z k := fun z => eq_ix2_of _ _ _ rfl rfl
  have hb : idx_main_v7 (ix2 e k) = ix2 (0 : Fin 1) k := eq_ix2_of _ _ _ rfl rfl
  simp only [hl, hr, hb]
  rfl

/-- The activation of the first layer: x times the logistic of x, the logistic spelt 1 / (1 + e^(-x)). -/
theorem v9_silu (i : S524288x32.Idx) :
    val_main_v9 (F := Ideal) x3 x4 x5 i = Edge.silu (val_main_v8 (F := Ideal) x3 x4 x5 i) := by
  rw [val_main_v9_apply, val_main_call0_v5_apply, val_main_call0_v4_apply, val_main_call0_cst_0_apply,
    val_main_call0_v3_apply, val_main_call0_v2_apply, val_main_call0_cst_apply, val_main_call0_v1_apply,
    val_main_call0_v0_apply]
  exact congrArg (val_main_v8 (F := Ideal) x3 x4 x5 i * ·) (Edge.logistic_spelt _)

/-- The edge attribute at edge `e`. -/
theorem v13_row (e : Fin 524288) (k : Fin 32) :
    val_main_v13 (F := Ideal) x3 x4 x5 x6 x7 (ix2 e k)
      = Edge.attr (weights x0 x1 x2 x3 x4 x5 x6 x7 x8 x9 x10 x11 x12 x13 x14) (Edge.rowOf (val_main_v4 (F := Ideal) x3) e) k := by
  rw [val_main_v13_apply, val_main_v10_apply, val_main_v12_apply]
  have hl : ∀ z : Fin 32, lidx_main_v10 (ix2 e k) z = ix2 e z := fun z => eq_ix2_of _ _ _ rfl rfl
  have hr : ∀ z : Fin 32, ridx_main_v10 (ix2 e k) z = ix2 z k := fun z => eq_ix2_of _ _ _ rfl rfl
  have hb : idx_main_v12 (ix2 e k) = ix2 (0 : Fin 1) k := eq_ix2_of _ _ _ rfl rfl
  simp only [hl, hr, hb, v9_silu, v8_row x0 x1 x2 x3 x4 x5 x6 x7 x8 x9 x10 x11 x12 x13 x14]
  rfl

/-- The two gathered feature rows and the edge attribute laid end to end, at edge `e`. -/
theorem v28_row (e : Fin 524288) (i : Fin 288) :
    val_main_v28 (F := Ideal) x0 x2 x3 x4 x5 x6 x7 (ix2 e i)
      = Edge.inp (Edge.rowOf (val_main_v20 (F := Ideal) x0 x2) e) (Edge.rowOf (val_main_v27 (F := Ideal) x0 x2) e)
          (Edge.attr (weights x0 x1 x2 x3 x4 x5 x6 x7 x8 x9 x10 x11 x12 x13 x14) (Edge.rowOf (val_main_v4 (F := Ideal) x3) e)) i := by
  unfold val_main_v28 Edge.inp
  by_cases h : i.val < 128
  · rw [dif_pos h]
    exact concatenate_apply_piece (t := S524288x288) 1 _ _ (ix2 e i) 0 (by show (0 : Nat) < 3; decide) S524288x128 (val_main_v20 (F := Ideal) x0 x2) rfl rfl
      0 rfl (ix2 e ⟨i.val, h⟩) (fun b => match b with
        | ⟨0, _⟩ => fun _ => rfl
        | ⟨1, _⟩ => fun hb => absurd rfl hb) (Nat.zero_add _)
  · rw [dif_neg h]
    by_cases h' : i.val < 256
    · rw [dif_pos h']
      exact concatenate_apply_piece (t := S524288x288) 1 _ _ (ix2 e i) 1 (by show (1 : Nat) < 3; decide) S524288x128 (val_main_v27 (F := Ideal) x0 x2) rfl rfl
        128 rfl (ix2 e ⟨i.val - 128, by omega⟩) (fun b => match b with
          | ⟨0, _⟩ => fun _ => rfl
          | ⟨1, _⟩ => fun hb => absurd rfl hb) (by show 128 + (i.val - 128) = i.val; omega)
    · rw [dif_neg h']
      refine (concatenate_apply_piece (t := S524288x288) 1 _ _ (ix2 e i) 2 (by show (2 : Nat) < 3; decide) S524288x32 (val_main_v13 (F := Ideal) x3 x4 x5 x6 x7) rfl rfl
        256 rfl (ix2 e ⟨i.val - 256, by have := i.isLt; omega⟩) (fun b => match b with
          | ⟨0, _⟩ => fun _ => rfl
          | ⟨1, _⟩ => fun hb => absurd rfl hb) (by show 256 + (i.val - 256) = i.val; omega)).trans ?_
      exact v13_row x0 x1 x2 x3 x4 x5 x6 x7 x8 x9 x10 x11 x12 x13 x14 e _

/-- The message network's first layer before its activation, at edge `e`. -/
theorem v32_row (e : Fin 524288) (k : Fin 256) :
    val_main_v32 (F := Ideal) x0 x2 x3 x4 x5 x6 x7 x8 x9 (ix2 e k)
      = (∑ i : Fin 288, (Edge.inp (Edge.rowOf (val_main_v20 (F := Ideal) x0 x2) e) (Edge.rowOf (val_main_v27 (F := Ideal) x0 x2) e) (Edge.attr (weights x0 x1 x2 x3 x4 x5 x6 x7 x8 x9 x10 x11 x12 x13 x14) (Edge.rowOf (val_main_v4 (F := Ideal) x3) e))) i * (weights x0 x1 x2 x3 x4 x5 x6 x7 x8 x9 x10 x11 x12 x13 x14).Wn1 i k) + (weights x0 x1 x2 x3 x4 x5 x6 x7 x8 x9 x10 x11 x12 x13 x14).bn1 k := by
  rw [val_main_v32_apply, val_main_v29_apply, val_main_v31_apply]
  have hl : ∀ z : Fin 288, lidx_main_v29 (ix2 e k) z = ix2 e z := fun z => eq_ix2_of _ _ _ rfl rfl
  have hr : ∀ z : Fin 288, ridx_main_v29 (ix2 e k) z = ix2 z k := fun z => eq_ix2_of _ _ _ rfl rfl
  have hb : idx_main_v31 (ix2 e k) = ix2 (0 : Fin 1) k := eq_ix2_of _ _ _ rfl rfl
  simp only [hl, hr, hb, v28_row x0 x1 x2 x3 x4 x5 x6 x7 x8 x9 x10 x11 x12 x13 x14]
  rfl

/-- The activation of the message network's first layer. -/
theorem v33_silu (i : S524288x256.Idx) :
    val_main_v33 (F := Ideal) x0 x2 x3 x4 x5 x6 x7 x8 x9 i = Edge.silu (val_main_v32 (F := Ideal) x0 x2 x3 x4 x5 x6 x7 x8 x9 i) := by
  rw [val_main_v33_apply, val_main_call1_v5_apply, val_main_call1_v4_apply, val_main_call1_cst_0_apply,
    val_main_call1_v3_apply, val_main_call1_v2_apply, val_main_call1_cst_apply, val_main_call1_v1_apply,
    val_main_call1_v0_apply]
  exact congrArg (val_main_v32 (F := Ideal) x0 x2 x3 x4 x5 x6 x7 x8 x9 i * ·) (Edge.logistic_spelt _)

/-- The message network's hidden layer, at edge `e`. -/
theorem v33_row (e : Fin 524288) (k : Fin 256) :
    val_main_v33 (F := Ideal) x0 x2 x3 x4 x5 x6 x7 x8 x9 (ix2 e k)
      = Edge.hidden (weights x0 x1 x2 x3 x4 x5 x6 x7 x8 x9 x10 x11 x12 x13 x14).Wn1 (weights x0 x1 x2 x3 x4 x5 x6 x7 x8 x9 x10 x11 x12 x13 x14).bn1 (Edge.inp (Edge.rowOf (val_main_v20 (F := Ideal) x0 x2) e) (Edge.rowOf (val_main_v27 (F := Ideal) x0 x2) e) (Edge.attr (weights x0 x1 x2 x3 x4 x5 x6 x7 x8 x9 x10 x11 x12 x13 x14) (Edge.rowOf (val_main_v4 (F := Ideal) x3) e))) k := by
  rw [v33_silu, v32_row x0 x1 x2 x3 x4 x5 x6 x7 x8 x9 x10 x11 x12 x13 x14]
  rfl

/-- The message row of edge `e`. -/
theorem v37_row (e : Fin 524288) (j : Fin 128) :
    val_main_v37 (F := Ideal) x0 x2 x3 x4 x5 x6 x7 x8 x9 x10 x11 (ix2 e j)
      = Edge.msg (weights x0 x1 x2 x3 x4 x5 x6 x7 x8 x9 x10 x11 x12 x13 x14) (Edge.rowOf (val_main_v4 (F := Ideal) x3) e) (Edge.rowOf (val_main_v20 (F := Ideal) x0 x2) e) (Edge.rowOf (val_main_v27 (F := Ideal) x0 x2) e) j := by
  rw [val_main_v37_apply, val_main_v34_apply, val_main_v36_apply]
  have hl : ∀ z : Fin 256, lidx_main_v34 (ix2 e j) z = ix2 e z := fun z => eq_ix2_of _ _ _ rfl rfl
  have hr : ∀ z : Fin 256, ridx_main_v34 (ix2 e j) z = ix2 z j := fun z => eq_ix2_of _ _ _ rfl rfl
  have hb : idx_main_v36 (ix2 e j) = ix2 (0 : Fin 1) j := eq_ix2_of _ _ _ rfl rfl
  simp only [hl, hr, hb, v33_row x0 x1 x2 x3 x4 x5 x6 x7 x8 x9 x10 x11 x12 x13 x14]
  rfl

/-- The coordinate network's first layer before its activation, at edge `e`. -/
theorem v44_row (e : Fin 524288) (k : Fin 256) :
    val_main_v44 (F := Ideal) x0 x2 x3 x4 x5 x6 x7 x12 x13 (ix2 e k)
      = (∑ i : Fin 288, (Edge.inp (Edge.rowOf (val_main_v20 (F := Ideal) x0 x2) e) (Edge.rowOf (val_main_v27 (F := Ideal) x0 x2) e) (Edge.attr (weights x0 x1 x2 x3 x4 x5 x6 x7 x8 x9 x10 x11 x12 x13 x14) (Edge.rowOf (val_main_v4 (F := Ideal) x3) e))) i * (weights x0 x1 x2 x3 x4 x5 x6 x7 x8 x9 x10 x11 x12 x13 x14).Wc1 i k) + (weights x0 x1 x2 x3 x4 x5 x6 x7 x8 x9 x10 x11 x12 x13 x14).bc1 k := by
  rw [val_main_v44_apply, val_main_v41_apply, val_main_v43_apply]
  have hl : ∀ z : Fin 288, lidx_main_v41 (ix2 e k) z = ix2 e z := fun z => eq_ix2_of _ _ _ rfl rfl
  have hr : ∀ z : Fin 288, ridx_main_v41 (ix2 e k) z = ix2 z k := fun z => eq_ix2_of _ _ _ rfl rfl
  have hb : idx_main_v43 (ix2 e k) = ix2 (0 : Fin 1) k := eq_ix2_of _ _ _ rfl rfl
  simp only [hl, hr, hb, v28_row x0 x1 x2 x3 x4 x5 x6 x7 x8 x9 x10 x11 x12 x13 x14]
  rfl

/-- The activation of the coordinate network's first layer. -/
theorem v45_silu (i : S524288x256.Idx) :
    val_main_v45 (F := Ideal) x0 x2 x3 x4 x5 x6 x7 x12 x13 i = Edge.silu (val_main_v44 (F := Ideal) x0 x2 x3 x4 x5 x6 x7 x12 x13 i) := by
  rw [val_main_v45_apply, val_main_call2_v5_apply, val_main_call2_v4_apply, val_main_call2_cst_0_apply,
    val_main_call2_v3_apply, val_main_call2_v2_apply, val_main_call2_cst_apply, val_main_call2_v1_apply,
    val_main_call2_v0_apply]
  exact congrArg (val_main_v44 (F := Ideal) x0 x2 x3 x4 x5 x6 x7 x12 x13 i * ·) (Edge.logistic_spelt _)

/-- The coordinate network's hidden layer, at edge `e`. -/
theorem v45_row (e : Fin 524288) (k : Fin 256) :
    val_main_v45 (F := Ideal) x0 x2 x3 x4 x5 x6 x7 x12 x13 (ix2 e k)
      = Edge.hidden (weights x0 x1 x2 x3 x4 x5 x6 x7 x8 x9 x10 x11 x12 x13 x14).Wc1 (weights x0 x1 x2 x3 x4 x5 x6 x7 x8 x9 x10 x11 x12 x13 x14).bc1 (Edge.inp (Edge.rowOf (val_main_v20 (F := Ideal) x0 x2) e) (Edge.rowOf (val_main_v27 (F := Ideal) x0 x2) e) (Edge.attr (weights x0 x1 x2 x3 x4 x5 x6 x7 x8 x9 x10 x11 x12 x13 x14) (Edge.rowOf (val_main_v4 (F := Ideal) x3) e))) k := by
  rw [v45_silu, v44_row x0 x1 x2 x3 x4 x5 x6 x7 x8 x9 x10 x11 x12 x13 x14]
  rfl

/-- The coordinate weight of edge `e`. -/
theorem v46_row (e : Fin 524288) (z : Fin 1) :
    val_main_v46 (F := Ideal) x0 x2 x3 x4 x5 x6 x7 x12 x13 x14 (ix2 e z)
      = Edge.coordWeight (weights x0 x1 x2 x3 x4 x5 x6 x7 x8 x9 x10 x11 x12 x13 x14) (Edge.rowOf (val_main_v4 (F := Ideal) x3) e) (Edge.rowOf (val_main_v20 (F := Ideal) x0 x2) e) (Edge.rowOf (val_main_v27 (F := Ideal) x0 x2) e) z := by
  rw [val_main_v46_apply]
  have hl : ∀ k : Fin 256, lidx_main_v46 (ix2 e z) k = ix2 e k := fun k => eq_ix2_of _ _ _ rfl rfl
  have hr : ∀ k : Fin 256, ridx_main_v46 (ix2 e z) k = ix2 k z := fun k => eq_ix2_of _ _ _ rfl rfl
  simp only [hl, hr, v45_row x0 x1 x2 x3 x4 x5 x6 x7 x8 x9 x10 x11 x12 x13 x14]
  rfl

/-- The direction of edge `e`: the difference of the two gathered positions. -/
theorem v61_row (e : Fin 524288) (a : Fin 3) :
    val_main_v61 (F := Ideal) x1 x2 (ix2 e a) = (Edge.rowOf (val_main_v53 (F := Ideal) x1 x2) e) a - (Edge.rowOf (val_main_v60 (F := Ideal) x1 x2) e) a := rfl

/-- The floored length of the direction of edge `e`. -/
theorem v64_row (e : Fin 524288) (z : Fin 1) :
    val_main_v64 (F := Ideal) x1 x2 (ix2 e z) = Edge.dirLen Edge.eps (Edge.rowOf (val_main_v53 (F := Ideal) x1 x2) e) (Edge.rowOf (val_main_v60 (F := Ideal) x1 x2) e) := by
  rw [val_main_v64_apply, val_main_v62_apply, val_main_call3_v2_apply, val_main_call3_v1_apply,
    val_main_v63_apply, val_main_cst_7_apply, val_main_call3_cst_apply]
  have hk : ∀ k : Fin 3, idx_main_call3_v1 (idx_main_call3_v2 (ix2 e z)) k = ix2 e k := fun k => eq_ix2_of _ _ _ rfl rfl
  simp only [hk, val_main_call3_v0_apply, v61_row]
  rfl

/-- The coordinate update of edge `e`. -/
theorem v68_row (e : Fin 524288) (a : Fin 3) :
    val_main_v68 (F := Ideal) x0 x1 x2 x3 x4 x5 x6 x7 x12 x13 x14 (ix2 e a)
      = Edge.upd (weights x0 x1 x2 x3 x4 x5 x6 x7 x8 x9 x10 x11 x12 x13 x14) Edge.eps (Edge.rowOf (val_main_v4 (F := Ideal) x3) e) (Edge.rowOf (val_main_v20 (F := Ideal) x0 x2) e) (Edge.rowOf (val_main_v27 (F := Ideal) x0 x2) e) (Edge.rowOf (val_main_v53 (F := Ideal) x1 x2) e) (Edge.rowOf (val_main_v60 (F := Ideal) x1 x2) e) a := by
  rw [val_main_v68_apply, val_main_v67_apply, val_main_v66_apply, val_main_v65_apply]
  have h67 : idx_main_v67 (ix2 e a) = ix2 e (0 : Fin 1) := eq_ix2_of _ _ _ rfl rfl
  have h65 : idx_main_v65 (ix2 e a) = ix2 e (0 : Fin 1) := eq_ix2_of _ _ _ rfl rfl
  rw [h67, h65, v46_row x0 x1 x2 x3 x4 x5 x6 x7 x8 x9 x10 x11 x12 x13 x14, v64_row, v61_row]
  rfl

end Stages

/-- The reference's message stage is the message array of its distance column and its two gathers. -/
theorem msg_stage (x0 : (⟨S32768x128, .f32⟩ : BufTy).Contents (Elt Ideal)) (x1 : (⟨S32768x3, .f32⟩ : BufTy).Contents (Elt Ideal)) (x2 : (⟨S2x524288, .i32⟩ : BufTy).Contents (Elt Ideal)) (x3 : (⟨S524288, .f32⟩ : BufTy).Contents (Elt Ideal))
    (x4 : (⟨S1x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal))
    (x8 : (⟨S288x256, .f32⟩ : BufTy).Contents (Elt Ideal)) (x9 : (⟨S256, .f32⟩ : BufTy).Contents (Elt Ideal)) (x10 : (⟨S256x128, .f32⟩ : BufTy).Contents (Elt Ideal)) (x11 : (⟨S128, .f32⟩ : BufTy).Contents (Elt Ideal))
    (x12 : (⟨S288x256, .f32⟩ : BufTy).Contents (Elt Ideal)) (x13 : (⟨S256, .f32⟩ : BufTy).Contents (Elt Ideal)) (x14 : (⟨S256x1, .f32⟩ : BufTy).Contents (Elt Ideal)) :
    val_main_v37 (F := Ideal) x0 x2 x3 x4 x5 x6 x7 x8 x9 x10 x11
      = Edge.msgArr 524288 (weights x0 x1 x2 x3 x4 x5 x6 x7 x8 x9 x10 x11 x12 x13 x14) (val_main_v4 (F := Ideal) x3)
          (val_main_v20 (F := Ideal) x0 x2) (val_main_v27 (F := Ideal) x0 x2) := by
  funext i
  obtain ⟨e, j, rfl⟩ : ∃ (e : Fin 524288) (j : Fin 128), i = ix2 e j := ⟨i 0, i 1, eq_ix2 i⟩
  rw [Edge.msgArr_apply]
  exact v37_row x0 x1 x2 x3 x4 x5 x6 x7 x8 x9 x10 x11 x12 x13 x14 e j

/-- The reference's coordinate-update stage is the update array of the same and its two position gathers. -/
theorem upd_stage (x0 : (⟨S32768x128, .f32⟩ : BufTy).Contents (Elt Ideal)) (x1 : (⟨S32768x3, .f32⟩ : BufTy).Contents (Elt Ideal)) (x2 : (⟨S2x524288, .i32⟩ : BufTy).Contents (Elt Ideal)) (x3 : (⟨S524288, .f32⟩ : BufTy).Contents (Elt Ideal))
    (x4 : (⟨S1x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal))
    (x8 : (⟨S288x256, .f32⟩ : BufTy).Contents (Elt Ideal)) (x9 : (⟨S256, .f32⟩ : BufTy).Contents (Elt Ideal)) (x10 : (⟨S256x128, .f32⟩ : BufTy).Contents (Elt Ideal)) (x11 : (⟨S128, .f32⟩ : BufTy).Contents (Elt Ideal))
    (x12 : (⟨S288x256, .f32⟩ : BufTy).Contents (Elt Ideal)) (x13 : (⟨S256, .f32⟩ : BufTy).Contents (Elt Ideal)) (x14 : (⟨S256x1, .f32⟩ : BufTy).Contents (Elt Ideal)) :
    val_main_v68 (F := Ideal) x0 x1 x2 x3 x4 x5 x6 x7 x12 x13 x14
      = Edge.updArr 524288 (weights x0 x1 x2 x3 x4 x5 x6 x7 x8 x9 x10 x11 x12 x13 x14) Edge.eps (val_main_v4 (F := Ideal) x3)
          (val_main_v20 (F := Ideal) x0 x2) (val_main_v27 (F := Ideal) x0 x2) (val_main_v53 (F := Ideal) x1 x2) (val_main_v60 (F := Ideal) x1 x2) := by
  funext i
  obtain ⟨e, a, rfl⟩ : ∃ (e : Fin 524288) (a : Fin 3), i = ix2 e a := ⟨i 0, i 1, eq_ix2 i⟩
  rw [Edge.updArr_apply]
  exact v68_row x0 x1 x2 x3 x4 x5 x6 x7 x8 x9 x10 x11 x12 x13 x14 e a

end Cert.ReferenceIdeal.Rows

end
-- ==== Proof.RefResult.lean ====
/-
  The reference's two results in terms of the per-edge arrays: each is its node array plus the scatter-add, by
  destination node, of the message array (of the coordinate-update array).
-/
import proofs.«423127_j66949950210598_1_alg».proof.Proof.Gen.ReferenceIdeal.Read
import proofs.«423127_j66949950210598_1_alg».proof.Proof.RefRows
import proofs.«423127_j66949950210598_1_alg».proof.Proof.EdgeRow

set_option maxRecDepth 16384

noncomputable section

namespace Cert.ReferenceIdeal.Result

open Cert.ReferenceIdeal Cert.ReferenceIdeal.Gen Cert.ReferenceIdeal.Read
open Idealize.ShloMosaic Idealize.ShloMosaic.TcCoe Idealize.SL.Sem

variable (m : (ℓ : Loc nD τ sig) → Buf (Elt Ideal) ℓ)

/-- The reference's weights, read off its arguments. -/
abbrev wts (c : Dev nD) : Edge.Weights := Rows.weights (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))

/-- The first result: the node features plus the messages scattered onto their destination nodes. -/
theorem out0_eq (c : Dev nD) :
    Cert.ReferenceIdeal.Value.res_main_v72 m c
      = addf (F := Ideal) (φ := .f32) (s := S32768x128) (m ((c.tc : Thread nD τ).loc main_arg0))
          (Host.scatterAdd scatter_S32768x128_S524288x1_S524288x128_1_0_0_1 (val_main_v38 (F := Ideal))
            (val_main_v39 (F := Ideal) (m ((c.tc : Thread nD τ).loc main_arg2)))
            (Edge.msgArr 524288 (wts m c) (val_main_v4 (F := Ideal) (m ((c.tc : Thread nD τ).loc main_arg3)))
              (val_main_v20 (F := Ideal) (m ((c.tc : Thread nD τ).loc main_arg0)) (m ((c.tc : Thread nD τ).loc main_arg2)))
              (val_main_v27 (F := Ideal) (m ((c.tc : Thread nD τ).loc main_arg0)) (m ((c.tc : Thread nD τ).loc main_arg2))))) := by
  rw [val_main_v72_eq]
  unfold val_main_v72 val_main_v40
  rw [Rows.msg_stage (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))]

/-- The second result: the positions plus the coordinate updates scattered onto their destination nodes. -/
theorem out1_eq (c : Dev nD) :
    Cert.ReferenceIdeal.Value.res_main_v73 m c
      = addf (F := Ideal) (φ := .f32) (s := S32768x3) (m ((c.tc : Thread nD τ).loc main_arg1))
          (Host.scatterAdd scatter_S32768x3_S524288x1_S524288x3_1_0_0_1 (val_main_v69 (F := Ideal))
            (val_main_v70 (F := Ideal) (m ((c.tc : Thread nD τ).loc main_arg2)))
            (Edge.updArr 524288 (wts m c) Edge.eps (val_main_v4 (F := Ideal) (m ((c.tc : Thread nD τ).loc main_arg3)))
              (val_main_v20 (F := Ideal) (m ((c.tc : Thread nD τ).loc main_arg0)) (m ((c.tc : Thread nD τ).loc main_arg2)))
              (val_main_v27 (F := Ideal) (m ((c.tc : Thread nD τ).loc main_arg0)) (m ((c.tc : Thread nD τ).loc main_arg2)))
              (val_main_v53 (F := Ideal) (m ((c.tc : Thread nD τ).loc main_arg1)) (m ((c.tc : Thread nD τ).loc main_arg2)))
              (val_main_v60 (F := Ideal) (m ((c.tc : Thread nD τ).loc main_arg1)) (m ((c.tc : Thread nD τ).loc main_arg2))))) := by
  rw [val_main_v73_eq]
  unfold val_main_v73 val_main_v71
  rw [Rows.upd_stage (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))]

end Cert.ReferenceIdeal.Result

end
-- ==== Proof.KIInputs.lean ====
/-
  What the call's operand arrays hold when the call is entered, read off the host lines before it: the gathered
  feature rows and positions (each jnp.take gathers through the wrapped index column and then, where an index is out
  of range, would put a fill value instead: with every index in range the mask is all ones and the gather stands),
  the distance column, the packed per-edge array, the bias rows, and the destination row the later lines scatter by.
-/
import proofs.«423127_j66949950210598_1_alg».proof.Proof.KIAround
import proofs.«423127_j66949950210598_1_alg».proof.Proof.EdgeRow
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ReduceAll

set_option maxRecDepth 16384

noncomputable section

namespace Cert.KernelIdeal.Inputs

open Cert.KernelIdeal Cert.KernelIdeal.Gen Cert.KernelIdeal.Around
open Idealize.ShloMosaic Idealize.ShloMosaic.TcCoe Idealize.SL.Sem Idealize.ShloMosaic.StableHlo

variable (m : (ℓ : Loc nD τ sig) → Buf (Elt Ideal) ℓ)

/-- Row 0 of the edge list: the source node of every edge. -/
def srcRow (a2 : IVec S2x524288 32) : IVec S524288 32 :=
  shapeCast _ (extractStridedSlice S1x524288 ![0, 0] a2 slices_S2x524288_S1x524288_0_0) shapeCasts_S1x524288_S524288
/-- Row 1: the destination node. -/
def dstRow (a2 : IVec S2x524288 32) : IVec S524288 32 :=
  shapeCast _ (extractStridedSlice S1x524288 ![1, 0] a2 slices_S2x524288_S1x524288_1_0) shapeCasts_S1x524288_S524288
/-- jnp's wrap of a negative index: idx + 32768 where idx < 0, idx elsewhere. -/
def wrapped (s : IVec S524288 32) : IVec S524288 32 :=
  select (cmpi .slt s (broadcastInDim S524288 ![] bcast_S_S524288 (constantI S_ 32 0#32)))
    (addi s (broadcastInDim S524288 ![] bcast_S_S524288 (constantI S_ 32 32768#32))) s
/-- An index row as the one-column table a gather takes. -/
def col (s : IVec S524288 32) : IVec S524288x1 32 := broadcastInDim S524288x1 ![0] bcast_S524288_S524288x1_0 s

/-! ## Every index in range: the wrap leaves it, the fill mask is all ones -/

/-- A fold of `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduction by `and` from 1 of a mask that is 1 everywhere is 1 everywhere. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ fun n _ => hx n

/-- A word that is at least 0 (signed) is not below 0. -/
theorem slt_zero_of_sge (a : BitVec 32) (h : IntOp.cmpi .sge a 0#32 = 1#1) : IntOp.cmpi .slt a 0#32 = 0#1 := by
  have h' : (0#32 : BitVec 32).sle a = true := (Predicate.ofBool_eq_one_iff _).1 h
  have h'' : a.slt 0#32 = false := by
    simp only [BitVec.sle, BitVec.slt, decide_eq_true_eq, decide_eq_false_iff_not, not_lt] at h' ⊢
    exact h'
  show BitVec.ofBool (a.slt 0#32) = 0#1
  rw [h'']; rfl

/-- The wrap leaves a non-negative index as it is. -/
theorem wrapped_apply (s : IVec S524288 32) (k : S524288.Idx) (h : IntOp.cmpi .sge (s k) 0#32 = 1#1) : wrapped s k = s k := by
  show Scalar.select (IntOp.cmpi .slt (s k) 0#32) (IntOp.addi (s k) 32768#32) (s k) = s k
  rw [slt_zero_of_sge _ h]; rfl

/-- An entry of the index column is an entry of the row. -/
theorem col_apply (s : IVec S524288 32) (i : S524288x1.Idx) : ∃ k, col s i = s k := ⟨_, rfl⟩
/-- An entry of either row of the edge list is an entry of the edge list. -/
theorem srcRow_apply (a2 : IVec S2x524288 32) (k : S524288.Idx) : ∃ i, srcRow a2 k = a2 i := ⟨_, rfl⟩
theorem dstRow_apply (a2 : IVec S2x524288 32) (k : S524288.Idx) : ∃ i, dstRow a2 k = a2 i := ⟨_, rfl⟩

/-- The in-range mask of a take through the wrapped column of a row whose entries are all node numbers: all ones. -/
theorem mask_one (s : IVec S524288 32) (hs : ∀ k, IntOp.cmpi .sge (s k) 0#32 = 1#1 ∧ IntOp.cmpi .sle (s k) 32767#32 = 1#1) (j : S524288.Idx) :
    Host.reduce IntOp.andi
      (andi (cmpi .sge (col (wrapped s)) (broadcastInDim S524288x1 ![] bcast_S_S524288x1 (constantI S_ 32 0#32)))
        (cmpi .sle (col (wrapped s)) (broadcastInDim S524288x1 ![0, 1] bcast_S1x1_S524288x1_0_1
          (broadcastInDim S1x1 ![1] bcast_S1_S1x1_1 (constantI S1 32 32767#32)))))
      (constantI S_ 1 1#1) reducesTo_S524288x1_S524288_d1 h_S_ j = 1#1 := by
  refine reduce_andi_one _ _ _ _ rfl (fun i => ?_) j
  obtain ⟨k, hk⟩ := col_apply (wrapped s) i
  show IntOp.andi (IntOp.cmpi .sge (col (wrapped s) i) 0#32) (IntOp.cmpi .sle (col (wrapped s) i) 32767#32) = 1#1
  rw [hk, wrapped_apply s k (hs k).1]
  exact IntOp.andi_eq_one.2 (hs k)

/-- Where the mask is 1 everywhere the select is its first branch. -/
theorem select_of_one {s : Shape} {α : Type} (c : IVec s 1) (a b : s.Idx → α) (h : ∀ i, c i = 1#1) : select c a b = a := by
  funext i
  show Scalar.select (c i) (a i) (b i) = a i
  rw [h i]; rfl

theorem srcRow_inRange {a2 : IVec S2x524288 32} (h : Edge.InRange a2) (k : S524288.Idx) :
    IntOp.cmpi .sge (srcRow a2 k) 0#32 = 1#1 ∧ IntOp.cmpi .sle (srcRow a2 k) 32767#32 = 1#1 := by
  obtain ⟨i, hi⟩ := srcRow_apply a2 k
  rw [hi]; exact h i
theorem dstRow_inRange {a2 : IVec S2x524288 32} (h : Edge.InRange a2) (k : S524288.Idx) :
    IntOp.cmpi .sge (dstRow a2 k) 0#32 = 1#1 ∧ IntOp.cmpi .sle (dstRow a2 k) 32767#32 = 1#1 := by
  obtain ⟨i, hi⟩ := dstRow_apply a2 k
  rw [hi]; exact h i

/-- Two stretches run one after the other are their concatenation run as one. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons a l ih => simp only [List.cons_append, after_cons, ih]

/-- The lines before the call: the five stretches that build the gathered rows, then the last stretch. -/
theorem pre_split : List.flatten (pre (F := Ideal))
    = List.flatten [hostOps0, hostOps0_1, hostOps0_2, hostOps0_3, hostOps0_4] ++ hostOps0_5 := by
  simp only [pre, List.flatten_cons, List.flatten_nil, List.append_nil, List.append_assoc]

/-- The last stretch from any contents: it packs its own distance column with the two position arrays it finds, and
    no later line of it writes any of the three. -/
theorem v9_of (P : Valuation τ sig (Elt Ideal)) :
    StableHlo.after hostOps0_5 P (Proc.devRef .tc main_v9)
      = concatenate S524288x7 1 [⟨S524288x1, StableHlo.after hostOps0_5 P (Proc.devRef .tc main_v8)⟩,
          ⟨S524288x3, StableHlo.after hostOps0_5 P (Proc.devRef .tc main_v6)⟩,
          ⟨S524288x3, StableHlo.after hostOps0_5 P (Proc.devRef .tc main_v7)⟩]
        concatenates_S524288x1_S524288x3_S524288x3_S524288x7_d1 := by
  have e8 : StableHlo.after hostOps0_5 P (Proc.devRef .tc main_v8)
      = broadcastInDim S524288x1 ![0] bcast_S524288_S524288x1_0 (P (Proc.devRef .tc main_arg3)) := by
    simp only [hostOps0_5]; after_results
  have e6 : StableHlo.after hostOps0_5 P (Proc.devRef .tc main_v6) = P (Proc.devRef .tc main_v6) := by
    simp only [hostOps0_5]; after_results
  have e7 : StableHlo.after hostOps0_5 P (Proc.devRef .tc main_v7) = P (Proc.devRef .tc main_v7) := by
    simp only [hostOps0_5]; after_results
  rw [e8, e6, e7]
  simp only [hostOps0_5]; after_results
  rfl

/-! ## The operand arrays -/

/-- The gathered source feature rows. -/
theorem V_v4 (c : Dev nD) (h : Edge.InRange (m ((c : Thread nD τ).loc main_arg2))) :
    V m c main_v4 = Host.gather gather_S32768x128_S524288x1_S524288x128_1_0_n_n_0_1_1128 (m ((c : Thread nD τ).loc main_arg0)) (col (wrapped (srcRow (m ((c : Thread nD τ).loc main_arg2))))) := by
  show StableHlo.after _ _ (Proc.devRef .tc main_v4) = _
  simp only [hostOps0, hostOps0_1, hostOps0_2, hostOps0_3, hostOps0_4, hostOps0_5, List.flatten_cons, List.flatten_nil, List.append_nil, List.cons_append, List.nil_append]
  simp (disch := decide) only [after_cons, after_nil, nullary_result', unary_result', binary_result', ternary_result', reshape_result', nary_result', nullary_result_ne', unary_result_ne', binary_result_ne', ternary_result_ne', reshape_result_ne', nary_result_ne', TRef.toBuf, TRef.ofBuf, cast_cast, cast_eq]
  exact select_of_one _ _ _ (fun i => mask_one (srcRow (m ((c : Thread nD τ).loc main_arg2))) (srcRow_inRange h) _)
/-- The gathered destination feature rows. -/
theorem V_v5 (c : Dev nD) (h : Edge.InRange (m ((c : Thread nD τ).loc main_arg2))) :
    V m c main_v5 = Host.gather gather_S32768x128_S524288x1_S524288x128_1_0_n_n_0_1_1128 (m ((c : Thread nD τ).loc main_arg0)) (col (wrapped (dstRow (m ((c : Thread nD τ).loc main_arg2))))) := by
  show StableHlo.after _ _ (Proc.devRef .tc main_v5) = _
  simp only [hostOps0, hostOps0_1, hostOps0_2, hostOps0_3, hostOps0_4, hostOps0_5, List.flatten_cons, List.flatten_nil, List.append_nil, List.cons_append, List.nil_append]
  simp (disch := decide) only [after_cons, after_nil, nullary_result', unary_result', binary_result', ternary_result', reshape_result', nary_result', nullary_result_ne', unary_result_ne', binary_result_ne', ternary_result_ne', reshape_result_ne', nary_result_ne', TRef.toBuf, TRef.ofBuf, cast_cast, cast_eq]
  exact select_of_one _ _ _ (fun i => mask_one (dstRow (m ((c : Thread nD τ).loc main_arg2))) (dstRow_inRange h) _)
/-- The gathered source positions. -/
theorem V_v6 (c : Dev nD) (h : Edge.InRange (m ((c : Thread nD τ).loc main_arg2))) :
    V m c main_v6 = Host.gather gather_S32768x3_S524288x1_S524288x3_1_0_n_n_0_1_13 (m ((c : Thread nD τ).loc main_arg1)) (col (wrapped (srcRow (m ((c : Thread nD τ).loc main_arg2))))) := by
  show StableHlo.after _ _ (Proc.devRef .tc main_v6) = _
  simp only [hostOps0, hostOps0_1, hostOps0_2, hostOps0_3, hostOps0_4, hostOps0_5, List.flatten_cons, List.flatten_nil, List.append_nil, List.cons_append, List.nil_append]
  simp (disch := decide) only [after_cons, after_nil, nullary_result', unary_result', binary_result', ternary_result', reshape_result', nary_result', nullary_result_ne', unary_result_ne', binary_result_ne', ternary_result_ne', reshape_result_ne', nary_result_ne', TRef.toBuf, TRef.ofBuf, cast_cast, cast_eq]
  exact select_of_one _ _ _ (fun i => mask_one (srcRow (m ((c : Thread nD τ).loc main_arg2))) (srcRow_inRange h) _)
/-- The gathered destination positions. -/
theorem V_v7 (c : Dev nD) (h : Edge.InRange (m ((c : Thread nD τ).loc main_arg2))) :
    V m c main_v7 = Host.gather gather_S32768x3_S524288x1_S524288x3_1_0_n_n_0_1_13 (m ((c : Thread nD τ).loc main_arg1)) (col (wrapped (dstRow (m ((c : Thread nD τ).loc main_arg2))))) := by
  show StableHlo.after _ _ (Proc.devRef .tc main_v7) = _
  simp only [hostOps0, hostOps0_1, hostOps0_2, hostOps0_3, hostOps0_4, hostOps0_5, List.flatten_cons, List.flatten_nil, List.append_nil, List.cons_append, List.nil_append]
  simp (disch := decide) only [after_cons, after_nil, nullary_result', unary_result', binary_result', ternary_result', reshape_result', nary_result', nullary_result_ne', unary_result_ne', binary_result_ne', ternary_result_ne', reshape_result_ne', nary_result_ne', TRef.toBuf, TRef.ofBuf, cast_cast, cast_eq]
  exact select_of_one _ _ _ (fun i => mask_one (dstRow (m ((c : Thread nD τ).loc main_arg2))) (dstRow_inRange h) _)
/-- The distances as a column. -/
theorem V_v8 (c : Dev nD) :
    V m c main_v8 = broadcastInDim S524288x1 ![0] bcast_S524288_S524288x1_0 (m ((c : Thread nD τ).loc main_arg3)) := by
  show StableHlo.after _ _ (Proc.devRef .tc main_v8) = _
  simp only [hostOps0, hostOps0_1, hostOps0_2, hostOps0_3, hostOps0_4, hostOps0_5, List.flatten_cons, List.flatten_nil, List.append_nil, List.cons_append, List.nil_append]
  after_results
/-- The packed per-edge array: the distance column, the source positions, the destination positions, side by side. -/
theorem V_v9 (c : Dev nD) :
    V m c main_v9 = concatenate S524288x7 1 [⟨S524288x1, V m c main_v8⟩, ⟨S524288x3, V m c main_v6⟩, ⟨S524288x3, V m c main_v7⟩]
      concatenates_S524288x1_S524288x3_S524288x3_S524288x7_d1 := by
  show StableHlo.after (List.flatten (pre (F := Ideal))) _ (Proc.devRef .tc main_v9)
    = concatenate S524288x7 1 [⟨S524288x1, StableHlo.after (List.flatten (pre (F := Ideal))) _ (Proc.devRef .tc main_v8)⟩,
        ⟨S524288x3, StableHlo.after (List.flatten (pre (F := Ideal))) _ (Proc.devRef .tc main_v6)⟩,
        ⟨S524288x3, StableHlo.after (List.flatten (pre (F := Ideal))) _ (Proc.devRef .tc main_v7)⟩] _
  rw [pre_split, after_append]
  exact v9_of _
/-- The five biases as one-row matrices. -/
theorem V_v10 (c : Dev nD) : V m c main_v10 = broadcastInDim S1x32 ![1] bcast_S32_S1x32_1 (m ((c : Thread nD τ).loc main_arg5)) := by
  show StableHlo.after _ _ (Proc.devRef .tc main_v10) = _
  simp only [hostOps0, hostOps0_1, hostOps0_2, hostOps0_3, hostOps0_4, hostOps0_5, List.flatten_cons, List.flatten_nil, List.append_nil, List.cons_append, List.nil_append]
  after_results
theorem V_v11 (c : Dev nD) : V m c main_v11 = broadcastInDim S1x32 ![1] bcast_S32_S1x32_1 (m ((c : Thread nD τ).loc main_arg7)) := by
  show StableHlo.after _ _ (Proc.devRef .tc main_v11) = _
  simp only [hostOps0, hostOps0_1, hostOps0_2, hostOps0_3, hostOps0_4, hostOps0_5, List.flatten_cons, List.flatten_nil, List.append_nil, List.cons_append, List.nil_append]
  after_results
theorem V_v12 (c : Dev nD) : V m c main_v12 = broadcastInDim S1x256 ![1] bcast_S256_S1x256_1 (m ((c : Thread nD τ).loc main_arg9)) := by
  show StableHlo.after _ _ (Proc.devRef .tc main_v12) = _
  simp only [hostOps0, hostOps0_1, hostOps0_2, hostOps0_3, hostOps0_4, hostOps0_5, List.flatten_cons, List.flatten_nil, List.append_nil, List.cons_append, List.nil_append]
  after_results
theorem V_v13 (c : Dev nD) : V m c main_v13 = broadcastInDim S1x128 ![1] bcast_S128_S1x128_1 (m ((c : Thread nD τ).loc main_arg11)) := by
  show StableHlo.after _ _ (Proc.devRef .tc main_v13) = _
  simp only [hostOps0, hostOps0_1, hostOps0_2, hostOps0_3, hostOps0_4, hostOps0_5, List.flatten_cons, List.flatten_nil, List.append_nil, List.cons_append, List.nil_append]
  after_results
theorem V_v14 (c : Dev nD) : V m c main_v14 = broadcastInDim S1x256 ![1] bcast_S256_S1x256_1 (m ((c : Thread nD τ).loc main_arg13)) := by
  show StableHlo.after _ _ (Proc.devRef .tc main_v14) = _
  simp only [hostOps0, hostOps0_1, hostOps0_2, hostOps0_3, hostOps0_4, hostOps0_5, List.flatten_cons, List.flatten_nil, List.append_nil, List.cons_append, List.nil_append]
  after_results
/-- The destination row, as the later lines read it. -/
theorem V_v3 (c : Dev nD) : V m c main_v3 = dstRow (m ((c : Thread nD τ).loc main_arg2)) := by
  show StableHlo.after _ _ (Proc.devRef .tc main_v3) = _
  simp only [hostOps0, hostOps0_1, hostOps0_2, hostOps0_3, hostOps0_4, hostOps0_5, List.flatten_cons, List.flatten_nil, List.append_nil, List.cons_append, List.nil_append]
  after_results
  rfl

end Cert.KernelIdeal.Inputs

end
-- ==== Proof.Bridge.lean ====
/-
  The two programs' inputs to the per-edge networks are the same arrays: the same gathers through the same wrapped
  index columns, the same distance column, the same one-row biases, the same destination column and the same zero
  arrays for the scatter-adds.  The kernel program's side is read off its host lines; the reference's side is its
  own stages.
-/
import proofs.«423127_j66949950210598_1_alg».proof.Proof.KIInputs
import proofs.«423127_j66949950210598_1_alg».proof.Proof.KITiles
import proofs.«423127_j66949950210598_1_alg».proof.Proof.Gen.ReferenceIdeal.Read
import Idealize.ShloMosaic.Lib.Pipeline.Value

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.KernelIdeal.Around Cert.KernelIdeal.Inputs Cert.KernelIdeal.Tiles

variable (m : (ℓ : Loc nD τ sig) → Buf (Elt Ideal) ℓ) (c : Dev nD)

/-! ## The gathers -/

theorem srcFeat (h : Edge.InRange (m ((c : Thread nD τ).loc main_arg2))) : V m c main_v4 = Cert.ReferenceIdeal.Read.val_main_v20 (F := Ideal) (m ((c : Thread nD τ).loc main_arg0)) (m ((c : Thread nD τ).loc main_arg2)) :=
  (V_v4 m c h).trans rfl
theorem dstFeat (h : Edge.InRange (m ((c : Thread nD τ).loc main_arg2))) : V m c main_v5 = Cert.ReferenceIdeal.Read.val_main_v27 (F := Ideal) (m ((c : Thread nD τ).loc main_arg0)) (m ((c : Thread nD τ).loc main_arg2)) :=
  (V_v5 m c h).trans rfl
theorem srcPos (h : Edge.InRange (m ((c : Thread nD τ).loc main_arg2))) : V m c main_v6 = Cert.ReferenceIdeal.Read.val_main_v53 (F := Ideal) (m ((c : Thread nD τ).loc main_arg1)) (m ((c : Thread nD τ).loc main_arg2)) :=
  (V_v6 m c h).trans rfl
theorem dstPos (h : Edge.InRange (m ((c : Thread nD τ).loc main_arg2))) : V m c main_v7 = Cert.ReferenceIdeal.Read.val_main_v60 (F := Ideal) (m ((c : Thread nD τ).loc main_arg1)) (m ((c : Thread nD τ).loc main_arg2)) :=
  (V_v7 m c h).trans rfl

/-! ## The distance column and the packed array's columns -/

theorem distCol : V m c main_v8 = Cert.ReferenceIdeal.Read.val_main_v4 (F := Ideal) (m ((c : Thread nD τ).loc main_arg3)) := (V_v8 m c).trans rfl

/-- Column 0 of the packed array is the distance column. -/
theorem packD_eq : packD (V m c main_v9) = V m c main_v8 := by
  rw [V_v9 m c]
  funext i
  obtain ⟨e, z, rfl⟩ : ∃ (e : Fin 524288) (z : Fin 1), i = ix2 e z := ⟨i 0, i 1, eq_ix2 i⟩
  show concatenate S524288x7 1 _ _ (ix2 (⟨e.val, e.isLt⟩ : Fin 524288) (⟨z.val, by have := z.isLt; omega⟩ : Fin 7)) = _
  refine concatenate_apply_piece (t := S524288x7) (1 : Fin 2) [⟨S524288x1, V m c main_v8⟩, ⟨S524288x3, V m c main_v6⟩, ⟨S524288x3, V m c main_v7⟩]
    _ (ix2 (⟨e.val, e.isLt⟩ : Fin 524288) (⟨z.val, by have := z.isLt; omega⟩ : Fin 7)) 0 (by simp) S524288x1 (V m c main_v8) rfl rfl 0 rfl
    (ix2 e z) (fun b => ?_) (by show 0 + z.val = z.val; omega)
  match b with
  | ⟨0, _⟩ => exact fun _ => rfl
  | ⟨1, _⟩ => exact fun hne => absurd rfl hne

/-- Columns 1–3 are the source positions. -/
theorem packS_eq : packS (V m c main_v9) = V m c main_v6 := by
  rw [V_v9 m c]
  funext i
  obtain ⟨e, a, rfl⟩ : ∃ (e : Fin 524288) (a : Fin 3), i = ix2 e a := ⟨i 0, i 1, eq_ix2 i⟩
  show concatenate S524288x7 1 _ _ (ix2 (⟨e.val, e.isLt⟩ : Fin 524288) (⟨1 + a.val, by have := a.isLt; omega⟩ : Fin 7)) = _
  refine concatenate_apply_piece (1 : Fin 2) _ _ (ix2 (⟨e.val, e.isLt⟩ : Fin 524288) (⟨1 + a.val, by have := a.isLt; omega⟩ : Fin 7)) 1 (by simp) S524288x3 (V m c main_v6) rfl rfl 1 rfl
    (ix2 e a) (fun b => ?_) (by show 1 + a.val = 1 + a.val; rfl)
  match b with
  | ⟨0, _⟩ => exact fun _ => rfl
  | ⟨1, _⟩ => exact fun hne => absurd rfl hne

/-- Columns 4–6 are the destination positions. -/
theorem packT_eq : packT (V m c main_v9) = V m c main_v7 := by
  rw [V_v9 m c]
  funext i
  obtain ⟨e, a, rfl⟩ : ∃ (e : Fin 524288) (a : Fin 3), i = ix2 e a := ⟨i 0, i 1, eq_ix2 i⟩
  show concatenate S524288x7 1 _ _ (ix2 (⟨e.val, e.isLt⟩ : Fin 524288) (⟨4 + a.val, by have := a.isLt; omega⟩ : Fin 7)) = _
  refine concatenate_apply_piece (1 : Fin 2) _ _ (ix2 (⟨e.val, e.isLt⟩ : Fin 524288) (⟨4 + a.val, by have := a.isLt; omega⟩ : Fin 7)) 2 (by simp) S524288x3 (V m c main_v7) rfl rfl 4 rfl
    (ix2 e a) (fun b => ?_) (by show 4 + a.val = 4 + a.val; rfl)
  match b with
  | ⟨0, _⟩ => exact fun _ => rfl
  | ⟨1, _⟩ => exact fun hne => absurd rfl hne

/-! ## The weights -/

theorem wts_eq : wts m c = Edge.Weights.ofRows (m ((c : Thread nD τ).loc main_arg4)) (Cert.ReferenceIdeal.Read.val_main_v6 (F := Ideal) (m ((c : Thread nD τ).loc main_arg5))) (m ((c : Thread nD τ).loc main_arg6)) (Cert.ReferenceIdeal.Read.val_main_v11 (F := Ideal) (m ((c : Thread nD τ).loc main_arg7)))
    (m ((c : Thread nD τ).loc main_arg8)) (Cert.ReferenceIdeal.Read.val_main_v30 (F := Ideal) (m ((c : Thread nD τ).loc main_arg9))) (m ((c : Thread nD τ).loc main_arg10)) (Cert.ReferenceIdeal.Read.val_main_v35 (F := Ideal) (m ((c : Thread nD τ).loc main_arg11)))
    (m ((c : Thread nD τ).loc main_arg12)) (Cert.ReferenceIdeal.Read.val_main_v42 (F := Ideal) (m ((c : Thread nD τ).loc main_arg13))) (m ((c : Thread nD τ).loc main_arg14)) := by
  unfold wts
  rw [show V m c main_arg4 = (m ((c : Thread nD τ).loc main_arg4)) from V_arg m c 4, show V m c main_arg6 = (m ((c : Thread nD τ).loc main_arg6)) from V_arg m c 6,
    show V m c main_arg8 = (m ((c : Thread nD τ).loc main_arg8)) from V_arg m c 8, show V m c main_arg10 = (m ((c : Thread nD τ).loc main_arg10)) from V_arg m c 10,
    show V m c main_arg12 = (m ((c : Thread nD τ).loc main_arg12)) from V_arg m c 12, show V m c main_arg14 = (m ((c : Thread nD τ).loc main_arg14)) from V_arg m c 14,
    V_v10 m c, V_v11 m c, V_v12 m c, V_v13 m c, V_v14 m c]
  rfl

/-! ## The scatter-adds' other operands -/

theorem dstCol_h : broadcastInDim S524288x1 ![0] bcast_S524288_S524288x1_0 (V m c main_v3)
    = Cert.ReferenceIdeal.Read.val_main_v39 (F := Ideal) (m ((c : Thread nD τ).loc main_arg2)) := by
  rw [V_v3 m c]; rfl
theorem dstCol_x : broadcastInDim S524288x1 ![0] bcast_S524288_S524288x1_0 (V m c main_v3)
    = Cert.ReferenceIdeal.Read.val_main_v70 (F := Ideal) (m ((c : Thread nD τ).loc main_arg2)) := by
  rw [V_v3 m c]; rfl

end Cert.Bridge

end
-- ==== Proof.PreIdx.lean ====
/-
  The precondition, read: its last conjunct says every entry of the edge list is at least 0 and at most 32767.
-/
import proofs.«423127_j66949950210598_1_alg».proof.Defs
import proofs.«423127_j66949950210598_1_alg».proof.Proof.Gen.Pre_finite_inputs
import proofs.«423127_j66949950210598_1_alg».proof.Proof.EdgeRow
import Idealize.ShloMosaic.Lib.StableHlo.Predicate
import Idealize.ShloMosaic.Lib.ReduceAll
import Idealize.ShloMosaic.Lib.ValueIdx

noncomputable section

namespace Cert.PreIdx

open Idealize.ShloMosaic Idealize.SL.Sem

/-- The shape of rank 0 has one index. -/
instance subsingleton_S_ : Subsingleton Cert.Pre_finite_inputs.S_.Idx := ⟨fun a b => funext fun d => d.elim0⟩

/-- The last part of the chain: its result is the conjunction of what came before with the all-reduce, over both axes of
    the edge list, of "at least 0 and at most 32767"; when it is one, the all-reduce is one, so every entry is one. -/
theorem inRange_of_part4 [Cert.Pre_finite_inputs.Facts] (a2 : IVec Cert.Pre_finite_inputs.S2x524288 32)
    (v63 v67 : IVec Cert.Pre_finite_inputs.S_ 1)
    (h : Cert.Pre_finite_inputs.fn_part4 (F := Ideal) a2 v63 v67 = fun _ => 1#1) : Cert.Edge.InRange a2 := by
  have h0 := congrFun h ValueIdx.ix0
  unfold Cert.Pre_finite_inputs.fn_part4 at h0
  dsimp only at h0
  obtain ⟨-, hr⟩ := IntOp.andi_eq_one.1 h0
  intro i
  have hi := Host.reduce_andi_all _ _ _ _ _ hr i
  obtain ⟨hge, hle⟩ := IntOp.andi_eq_one.1 hi
  exact ⟨hge, hle⟩

/-- From the printed predicate being all ones to the range of every entry of its third argument, the edge list. -/
theorem inRange_of_fn [Cert.Pre_finite_inputs.Facts]
    (a0 : FVec Ideal Cert.Pre_finite_inputs.S32768x128 .f32) (a1 : FVec Ideal Cert.Pre_finite_inputs.S32768x3 .f32)
    (a2 : IVec Cert.Pre_finite_inputs.S2x524288 32) (a3 : FVec Ideal Cert.Pre_finite_inputs.S524288 .f32)
    (a4 : FVec Ideal Cert.Pre_finite_inputs.S1x32 .f32) (a5 : FVec Ideal Cert.Pre_finite_inputs.S32 .f32)
    (a6 : FVec Ideal Cert.Pre_finite_inputs.S32x32 .f32) (a7 : FVec Ideal Cert.Pre_finite_inputs.S32 .f32)
    (a8 : FVec Ideal Cert.Pre_finite_inputs.S288x256 .f32) (a9 : FVec Ideal Cert.Pre_finite_inputs.S256 .f32)
    (a10 : FVec Ideal Cert.Pre_finite_inputs.S256x128 .f32) (a11 : FVec Ideal Cert.Pre_finite_inputs.S128 .f32)
    (a12 : FVec Ideal Cert.Pre_finite_inputs.S288x256 .f32) (a13 : FVec Ideal Cert.Pre_finite_inputs.S256 .f32)
    (a14 : FVec Ideal Cert.Pre_finite_inputs.S256x1 .f32)
    (h : Cert.Pre_finite_inputs.fn (F := Ideal) a0 a1 a2 a3 a4 a5 a6 a7 a8 a9 a10 a11 a12 a13 a14 = fun _ => 1#1) :
    Cert.Edge.InRange a2 := by
  -- the chain of parts ends in the last part, at the edge list and two earlier conjuncts
  obtain ⟨v63, v67, e⟩ : ∃ v63 v67, Cert.Pre_finite_inputs.fn (F := Ideal) a0 a1 a2 a3 a4 a5 a6 a7 a8 a9 a10 a11 a12 a13 a14
      = Cert.Pre_finite_inputs.fn_part4 (F := Ideal) a2 v63 v67 := ⟨_, _, rfl⟩
  exact inRange_of_part4 a2 v63 v67 (e ▸ h)

end Cert.PreIdx

end
-- ==== Proof.lean ====
/-
  The certificate.  Three programs: the kernel program (a pallas_call tiled over the edges between host gathers and
  host scatter-adds), its idealization, and the jnp reference, all of one message-passing step.  The frames: each
  program runs to the end and leaves its arguments as launched.  The equivalence: with every entry of the edge list
  a node number, both idealized programs end at  h + scatter-add of the per-edge messages  and
  x + scatter-add of the per-edge coordinate updates, the per-edge values computed by the same three small networks
  from the same gathered rows.  The precondition's range conjunct is what makes the kernel program's fill-mode
  gathers the reference's clamped ones.
-/
import proofs.«423127_j66949950210598_1_alg».proof.Defs
import proofs.«423127_j66949950210598_1_alg».proof.Proof.Gen.Kernel
import proofs.«423127_j66949950210598_1_alg».proof.Proof.Gen.KernelIdeal
import proofs.«423127_j66949950210598_1_alg».proof.Proof.Gen.ReferenceIdeal
import proofs.«423127_j66949950210598_1_alg».proof.Proof.Gen.Pre_finite_inputs
import proofs.«423127_j66949950210598_1_alg».proof.Proof.Gen.ReferenceIdeal.Run
import proofs.«423127_j66949950210598_1_alg».proof.Proof.Gen.ReferenceIdeal.Read
import proofs.«423127_j66949950210598_1_alg».proof.Proof.KRun
import proofs.«423127_j66949950210598_1_alg».proof.Proof.KIResult
import proofs.«423127_j66949950210598_1_alg».proof.Proof.RefResult
import proofs.«423127_j66949950210598_1_alg».proof.Proof.Bridge
import proofs.«423127_j66949950210598_1_alg».proof.Proof.PreIdx
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Around.frame m ρ
theorem frame_ki : Cert.frame_KernelIdeal := fun m ρ _ => Cert.KernelIdeal.Around.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both idealized programs end at the same two arrays: the node features plus the scattered messages, and the
    positions plus the scattered coordinate updates, of one message array and one coordinate-update array. -/
theorem algebraic : Cert.algebraic_KernelIdeal_ReferenceIdeal := by
  intro m ρ m' ρ' hpre hagree
  refine ⟨fun c => Cert.KernelIdeal.Result.hOut m c, fun c => Cert.KernelIdeal.Result.xOut m c, Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · have hin := Cert.PreIdx.inRange_of_fn _ _ _ _ _ _ _ _ _ _ _ _ _ _ _ (hpre c)
    obtain ⟨a0, a1, a2, a3, a4, a5, a6, a7, a8, a9, a10, a11, a12, a13, a14⟩ := hagree c
    rw [Cert.ReferenceIdeal.Result.out0_eq]
    dsimp only [Cert.ReferenceIdeal.Result.wts, Cert.ReferenceIdeal.Rows.weights]
    rw [a0, a2, a3, a4, a5, a6, a7, a8, a9, a10, a11, a12, a13, a14]
    unfold Cert.KernelIdeal.Result.hOut Cert.KernelIdeal.Tiles.msgOut
    rw [Cert.Bridge.wts_eq, Cert.Bridge.packD_eq, Cert.Bridge.distCol, Cert.Bridge.srcFeat m c hin, Cert.Bridge.dstFeat m c hin,
      Cert.Bridge.dstCol_h]
    rfl
  · have hin := Cert.PreIdx.inRange_of_fn _ _ _ _ _ _ _ _ _ _ _ _ _ _ _ (hpre c)
    obtain ⟨a0, a1, a2, a3, a4, a5, a6, a7, a8, a9, a10, a11, a12, a13, a14⟩ := hagree c
    rw [Cert.ReferenceIdeal.Result.out1_eq]
    dsimp only [Cert.ReferenceIdeal.Result.wts, Cert.ReferenceIdeal.Rows.weights]
    rw [a0, a1, a2, a3, a4, a5, a6, a7, a8, a9, a10, a11, a12, a13, a14]
    unfold Cert.KernelIdeal.Result.xOut Cert.KernelIdeal.Tiles.updOut
    rw [Cert.Bridge.wts_eq, Cert.Bridge.packD_eq, Cert.Bridge.packS_eq, Cert.Bridge.packT_eq, Cert.Bridge.distCol,
      Cert.Bridge.srcFeat m c hin, Cert.Bridge.dstFeat m c hin, Cert.Bridge.srcPos m c hin, Cert.Bridge.dstPos m c hin, Cert.Bridge.dstCol_x]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
